-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S12288x5000 : Shape := ⟨2, ![12288, 5000]⟩
abbrev S4096 : Shape := ⟨1, ![4096]⟩
abbrev S5000x1024 : Shape := ⟨2, ![5000, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S12288x5000 : S_.BroadcastsInDim S12288x5000 (![] : Fin 0 → Fin S12288x5000.rank)
  reducesTo_S12288x5000_S_d0_1 : S12288x5000.ReducesTo [0, 1] S_
  bcast_S_S5000x1024 : S_.BroadcastsInDim S5000x1024 (![] : Fin 0 → Fin S5000x1024.rank)
  reducesTo_S5000x1024_S_d0_1 : S5000x1024.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg5 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg5 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg4 : IVec S4096 32) (main_arg5 : IVec S4096 32) (main_arg6 : FVec F S5000x1024 .f32) (main_v13 : IVec S_ 1) (main_v16 : IVec S12288x5000 1) : IVec S_ 1 :=
  let main_c_5 : IVec S_ 1 := constantI S_ 1 1#1
  let main_v17 : IVec S_ 1 := (fun x v => Host.reduce IntOp.andi x v reducesTo_S12288x5000_S_d0_1 h_S_) main_v16 main_c_5
  let main_v18 : IVec S_ 1 := andi main_v13 main_v17
  let main_v19 : FVec F S5000x1024 .f32 := Host.absf main_arg6
  let main_cst_6 : FVec F S_ .f32 := constant S_ .f32 0x7F800000#32
  let main_v20 : FVec F S5000x1024 .f32 := broadcastInDim S5000x1024 ![] bcast_S_S5000x1024 main_cst_6
  let main_v21 : IVec S5000x1024 1 := cmpf .olt main_v19 main_v20
  let main_c_7 : IVec S_ 1 := constantI S_ 1 1#1
  let main_v22 : IVec S_ 1 := (fun x v => Host.reduce IntOp.andi x v reducesTo_S5000x1024_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg4 main_v24
  let main_c_9 : IVec S_ 32 := constantI S_ 32 5000#32
  let main_v26 : IVec S4096 32 := broadcastInDim S4096 ![] bcast_S_S4096 main_c_9
  let main_v27 : IVec S4096 1 := cmpi .slt main_arg4 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg5 main_v31
  let main_c_12 : IVec S_ 32 := constantI S_ 32 5000#32
  fn_part2 (F := F) main_arg5 main_v30 main_v32 main_c_12

def fn {F : FTy → Type} [FloatOps F] (main_arg0 : FVec F S4096x1024 .f32) (main_arg1 : FVec F S4096x1024 .f32) (main_arg2 : FVec F S4096x1024 .f32) (main_arg3 : FVec F S12288x5000 .f32) (main_arg4 : IVec S4096 32) (main_arg5 : IVec S4096 32) (main_arg6 : FVec F S5000x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S12288x5000 .f32 := Host.absf main_arg3
  let main_cst_4 : FVec F S_ .f32 := constant S_ .f32 0x7F800000#32
  let main_v15 : FVec F S12288x5000 .f32 := broadcastInDim S12288x5000 ![] bcast_S_S12288x5000 main_cst_4
  let main_v16 : IVec S12288x5000 1 := cmpf .olt main_v14 main_v15
  fn_part1 (F := F) main_arg4 main_arg5 main_arg6 main_v13 main_v16
-- ==== Kernel.lean ====
abbrev S4096x1024 : Shape := ⟨2, ![4096, 1024]⟩
abbrev S12288x5000 : Shape := ⟨2, ![12288, 5000]⟩
abbrev S4096 : Shape := ⟨1, ![4096]⟩
abbrev S5000x1024 : Shape := ⟨2, ![5000, 1024]⟩
abbrev S12288 : Shape := ⟨1, ![12288]⟩
abbrev S12288x1 : Shape := ⟨2, ![12288, 1]⟩
abbrev S16x128 : Shape := ⟨2, ![16, 128]⟩
abbrev S384x5000 : Shape := ⟨2, ![384, 5000]⟩
abbrev S384x1 : Shape := ⟨2, ![384, 1]⟩
abbrev S8x128 : Shape := ⟨2, ![8, 128]⟩
abbrev S1x1 : Shape := ⟨2, ![1, 1]⟩
abbrev S384 : Shape := ⟨1, ![384]⟩
abbrev S1 : Shape := ⟨1, ![1]⟩
abbrev S_ : Shape := ⟨0, ![]⟩
abbrev S5000 : Shape := ⟨1, ![5000]⟩
abbrev S1x5000 : Shape := ⟨2, ![1, 5000]⟩
abbrev S4096x1 : Shape := ⟨2, ![4096, 1]⟩
abbrev S256x1024 : Shape := ⟨2, ![256, 1024]⟩
abbrev S256x1 : Shape := ⟨2, ![256, 1]⟩
abbrev S256 : Shape := ⟨1, ![256]⟩
abbrev S256x5000 : Shape := ⟨2, ![256, 5000]⟩

abbrev nBuf : Space → Nat
  | .hbm => 37
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S12288x5000, .f32⟩
  | .hbm, ⟨4, _⟩ => ⟨S4096, .i32⟩
  | .hbm, ⟨5, _⟩ => ⟨S4096, .i32⟩
  | .hbm, ⟨6, _⟩ => ⟨S5000x1024, .f32⟩
  | .hbm, ⟨7, _⟩ => ⟨S12288, .i32⟩
  | .hbm, ⟨8, _⟩ => ⟨S12288x1, .i32⟩
  | .hbm, ⟨9, _⟩ => ⟨S16x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S5000x1024, .bf16⟩
  | .hbm, ⟨15, _⟩ => ⟨S5000x1024, .f32⟩
  | .hbm, ⟨16, _⟩ => ⟨S_, .f32⟩
  | .hbm, ⟨17, _⟩ => ⟨S5000, .f32⟩
  | .hbm, ⟨18, _⟩ => ⟨S1x5000, .f32⟩
  | .hbm, ⟨19, _⟩ => ⟨S4096x1, .i32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1, .f32⟩
  | .local _ .vmem, ⟨0, _⟩ => ⟨S384x5000, .f32⟩
  | .local _ .vmem, ⟨1, _⟩ => ⟨S384x5000, .f32⟩
  | .local _ .vmem, ⟨2, _⟩ => ⟨S384x1, .i32⟩
  | .local _ .vmem, ⟨3, _⟩ => ⟨S384x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S5000x1024, .bf16⟩
  | .local _ .vmem, ⟨14, _⟩ => ⟨S1x5000, .f32⟩
  | .local _ .vmem, ⟨15, _⟩ => ⟨S256x1, .i32⟩
  | .local _ .vmem, ⟨16, _⟩ => ⟨S256x1, .i32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S1x1, .f32⟩
  | .local _ .vmem, ⟨22, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_32 : BitVec 32 := 0#32
  let v68 : BitVec 1 := Scalar.cmpi .ne v67 c0_i32_32
  v68

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S5000x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x5000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  concatenates_S4096_S4096_S4096_S12288_d0 : Shape.Concatenates [S4096, S4096, S4096] S12288 0
  shapeCasts_S12288_S12288x1 : S12288.ShapeCasts S12288x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S384x5000_S384x5000_0_0 : ∀ a, (![0, 0] : Fin 2 → Nat) a + S384x5000.size a ≤ S384x5000.size a
  h_S384x5000 : 0 < S384x5000.numel
  reduces_S384x5000_S384 : S384x5000.Reduces [1] S384
  shapeCasts_S384_S384x1 : S384.ShapeCasts S384x1
  broadcasts_S384x1_S384x5000 : S384x1.Broadcasts S384x5000
  iota_S384x5000_d1_w32 : S384x5000.Iotas .tc 32 [1]
  inb_S384x1_S384x1_0_0 : ∀ a, (![0, 0] : Fin 2 → Nat) a + S384x1.size a ≤ S384x1.size a
  h_S384x1 : 0 < S384x1.numel
  shapeCasts_S384x1_S384x1 : S384x1.ShapeCasts S384x1
  reduces_S384x1_S1 : S384x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  bitsLt_bf16_f32 : FTy.bits .bf16 < FTy.bits .f32
  reducesTo_S5000x1024_S5000_d1 : S5000x1024.ReducesTo [1] S5000
  shapeCasts_S5000_S1x5000 : S5000.ShapeCasts S1x5000
  shapeCasts_S4096_S4096x1 : S4096.ShapeCasts S4096x1
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  inb_S5000x1024_S5000x1024_0_0 : ∀ a, (![0, 0] : Fin 2 → Nat) a + S5000x1024.size a ≤ S5000x1024.size a
  h_S5000x1024 : 0 < S5000x1024.numel
  shapeCasts_S5000x1024_S5000x1024 : S5000x1024.ShapeCasts S5000x1024
  inb_S1x5000_S1x5000_0_0 : ∀ a, (![0, 0] : Fin 2 → Nat) a + S1x5000.size a ≤ S1x5000.size a
  h_S1x5000 : 0 < S1x5000.numel
  shapeCasts_S1x5000_S1x5000 : S1x5000.ShapeCasts S1x5000
  broadcasts_S256x1_S256x5000 : S256x1.Broadcasts S256x5000
  broadcasts_S1x5000_S256x5000 : S1x5000.Broadcasts S256x5000
  iota_S256x5000_d1_w32 : S256x5000.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x5000_S256 : S256x5000.Reduces [1] S256
  reduces_S256x1_S1 : S256x1.Reduces [0] S1
  shapeCasts_S_S1 : S_.ShapeCasts S1
  bcast_S_S1 : S_.BroadcastsInDim S1 (![] : Fin 0 → Fin S1.rank)
  dot_S256x1024_S5000x1024_S256x5000_1_1_0_0_n_n_wf : DotDims.WF S256x1024 S5000x1024 S256x5000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x5000.size a ≤ S12288x5000.size a
  hwx0_0 : ∀ i : grid0.Coords, EltTy.bits .f32 = 32 ∨ (Rect.block (s := S12288x5000) S384x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x1.size a ≤ S12288x1.size a
  hwx0_1 : ∀ i : grid0.Coords, EltTy.bits .i32 = 32 ∨ (Rect.block (s := S12288x1) S384x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5000x1024.size a ≤ S5000x1024.size a
  hwx1_3 : ∀ i : grid1.Coords, EltTy.bits .bf16 = 32 ∨ (Rect.block (s := S5000x1024) S5000x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5000.size a ≤ S1x5000.size a
  hwx1_4 : ∀ i : grid1.Coords, EltTy.bits .f32 = 32 ∨ (Rect.block (s := S1x5000) S1x5000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .i32 = 32 ∨ (Rect.block (s := S4096x1) S256x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S16x128.size a
  hwx1_6 : ∀ i : grid1.Coords, EltTy.bits .f32 = 32 ∨ (Rect.block (s := S16x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S16x128.size a
  hwx1_7 : ∀ i : grid1.Coords, EltTy.bits .f32 = 32 ∨ (Rect.block (s := S16x128) S8x128.size (cc1_transform_7 i) (hinb1_7 i)).WholeWords (EltTy.packing .f32)

variable [Facts₀]

def dot_S256x1024_S5000x1024_S256x5000_1_1_0_0_n_n : DotDims S256x1024 S5000x1024 S256x5000 where
  lhsContracting := [1]
  rhsContracting := [1]
  lhsNonContracting := [0]
  rhsNonContracting := [0]
  lhsBatch := []
  rhsBatch := []
  wf := dot_S256x1024_S5000x1024_S256x5000_1_1_0_0_n_n_wf

abbrev win0_0 : Pipeline.Window sig grid0 :=
  Pipeline.Window.ofSpec (Memref.whole main_arg3) S384x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x5000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S12288x5000 : Shape := ⟨2, ![12288, 5000]⟩
abbrev S4096 : Shape := ⟨1, ![4096]⟩
abbrev S5000x1024 : Shape := ⟨2, ![5000, 1024]⟩
abbrev S12288 : Shape := ⟨1, ![12288]⟩
abbrev S_ : Shape := ⟨0, ![]⟩
abbrev S12288x1 : Shape := ⟨2, ![12288, 1]⟩
abbrev S12288x1x1 : Shape := ⟨3, ![12288, 1, 1]⟩
abbrev S1 : Shape := ⟨1, ![1]⟩
abbrev S1x1x1 : Shape := ⟨3, ![1, 1, 1]⟩
abbrev S4096x1 : Shape := ⟨2, ![4096, 1]⟩
abbrev S5000 : Shape := ⟨1, ![5000]⟩
abbrev S1x5000 : Shape := ⟨2, ![1, 5000]⟩
abbrev S4096x5000 : Shape := ⟨2, ![4096, 5000]⟩
abbrev S1024x5000 : Shape := ⟨2, ![1024, 5000]⟩
abbrev S4096x1x1 : Shape := ⟨3, ![4096, 1, 1]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S12288x5000, .f32⟩
  | 4 => ⟨S4096, .i32⟩
  | 5 => ⟨S4096, .i32⟩
  | 6 => ⟨S5000x1024, .f32⟩
  | 7 => ⟨S12288, .i32⟩
  | 8 => ⟨S_, .f32⟩
  | 9 => ⟨S12288, .f32⟩
  | 10 => ⟨S_, .f32⟩
  | 11 => ⟨S12288, .f32⟩
  | 12 => ⟨S12288, .f32⟩
  | 13 => ⟨S12288x1, .f32⟩
  | 14 => ⟨S12288x5000, .f32⟩
  | 15 => ⟨S12288x5000, .f32⟩
  | 16 => ⟨S12288x5000, .f32⟩
  | 17 => ⟨S_, .f32⟩
  | 18 => ⟨S12288, .f32⟩
  | 19 => ⟨S12288x1, .f32⟩
  | 20 => ⟨S12288x1, .f32⟩
  | 21 => ⟨S12288x5000, .f32⟩
  | 22 => ⟨S12288x5000, .f32⟩
  | 23 => ⟨S12288x1, .i32⟩
  | 24 => ⟨S_, .i32⟩
  | 25 => ⟨S12288x1, .i32⟩
  | 26 => ⟨S12288x1, .i1⟩
  | 27 => ⟨S_, .i32⟩
  | 28 => ⟨S12288x1, .i32⟩
  | 29 => ⟨S12288x1, .i32⟩
  | 30 => ⟨S12288x1, .i32⟩
  | 31 => ⟨S12288x1x1, .i32⟩
  | 32 => ⟨S1, .i32⟩
  | 33 => ⟨S_, .i32⟩
  | 34 => ⟨S12288x1x1, .i32⟩
  | 35 => ⟨S12288x1x1, .i1⟩
  | 36 => ⟨S1x1x1, .i32⟩
  | 37 => ⟨S12288x1x1, .i32⟩
  | 38 => ⟨S12288x1x1, .i1⟩
  | 39 => ⟨S12288x1x1, .i1⟩
  | 40 => ⟨S_, .i1⟩
  | 41 => ⟨S12288x1, .i1⟩
  | 42 => ⟨S12288x1, .f32⟩
  | 43 => ⟨S_, .f32⟩
  | 44 => ⟨S12288x1, .f32⟩
  | 45 => ⟨S12288x1, .f32⟩
  | 46 => ⟨S_, .f32⟩
  | 47 => ⟨S_, .f32⟩
  | 48 => ⟨S_, .f32⟩
  | 49 => ⟨S_, .f32⟩
  | 50 => ⟨S_, .f32⟩
  | 51 => ⟨S4096x1024, .f32⟩
  | 52 => ⟨S_, .f32⟩
  | 53 => ⟨S4096, .f32⟩
  | 54 => ⟨S4096x1, .f32⟩
  | 55 => ⟨S5000x1024, .f32⟩
  | 56 => ⟨S_, .f32⟩
  | 57 => ⟨S5000, .f32⟩
  | 58 => ⟨S1x5000, .f32⟩
  | 59 => ⟨S4096x5000, .f32⟩
  | 60 => ⟨S4096x5000, .f32⟩
  | 61 => ⟨S4096x5000, .f32⟩
  | 62 => ⟨S1024x5000, .f32⟩
  | 63 => ⟨S4096x5000, .f32⟩
  | 64 => ⟨S_, .f32⟩
  | 65 => ⟨S4096x5000, .f32⟩
  | 66 => ⟨S4096x5000, .f32⟩
  | 67 => ⟨S4096x5000, .f32⟩
  | 68 => ⟨S_, .f32⟩
  | 69 => ⟨S4096x5000, .f32⟩
  | 70 => ⟨S4096x5000, .f32⟩
  | 71 => ⟨S4096x5000, .f32⟩
  | 72 => ⟨S4096x1, .i32⟩
  | 73 => ⟨S_, .i32⟩
  | 74 => ⟨S4096x1, .i32⟩
  | 75 => ⟨S4096x1, .i1⟩
  | 76 => ⟨S_, .i32⟩
  | 77 => ⟨S4096x1, .i32⟩
  | 78 => ⟨S4096x1, .i32⟩
  | 79 => ⟨S4096x1, .i32⟩
  | 80 => ⟨S4096x1x1, .i32⟩
  | 81 => ⟨S1, .i32⟩
  | 82 => ⟨S_, .i32⟩
  | 83 => ⟨S4096x1x1, .i32⟩
  | 84 => ⟨S4096x1x1, .i1⟩
  | 85 => ⟨S1x1x1, .i32⟩
  | 86 => ⟨S4096x1x1, .i32⟩
  | 87 => ⟨S4096x1x1, .i1⟩
  | 88 => ⟨S4096x1x1, .i1⟩
  | 89 => ⟨S_, .i1⟩
  | 90 => ⟨S4096x1, .i1⟩
  | 91 => ⟨S4096x1, .f32⟩
  | 92 => ⟨S_, .f32⟩
  | 93 => ⟨S4096x1, .f32⟩
  | 94 => ⟨S4096x1, .f32⟩
  | 95 => ⟨S4096, .f32⟩
  | 96 => ⟨S_, .f32⟩
  | 97 => ⟨S4096, .f32⟩
  | 98 => ⟨S4096x1024, .f32⟩
  | 99 => ⟨S4096x1024, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S_, .f32⟩
  | 106 => ⟨S4096, .f32⟩
  | 107 => ⟨S4096, .f32⟩
  | 108 => ⟨S4096, .f32⟩
  | 109 => ⟨S_, .f32⟩
  | 110 => ⟨S4096, .f32⟩
  | 111 => ⟨S4096, .f32⟩
  | 112 => ⟨S_, .f32⟩
  | 113 => ⟨S_, .f32⟩
  | 114 => ⟨S1, .f32⟩
  | 115 => ⟨S4096, .f32⟩
  | 116 => ⟨S_, .f32⟩
  | 117 => ⟨S4096, .f32⟩
  | 118 => ⟨S4096, .f32⟩
  | 119 => ⟨S_, .f32⟩
  | 120 => ⟨S_, .f32⟩
  | 121 => ⟨S1, .f32⟩
  | 122 => ⟨S_, .f32⟩
  | 123 => ⟨S1, .f32⟩
  | 124 => ⟨S1, .f32⟩
  | 125 => ⟨S1, .f32⟩
  | 126 => ⟨S1, .f32⟩
  | 127 => ⟨S_, .f32⟩
  | _ => ⟨S4096x1024, .f32⟩

abbrev hbmTy0_1 (i : Nat) : BufTy := match i % 128 with
  | 0 => ⟨S1, .f32⟩
  | 1 => ⟨S1, .f32⟩
  | 2 => ⟨S1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_cst_0 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_2 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst_3 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v25 : Ref sig .tc := ⟨.hbm, 94, rfl⟩
abbrev main_v26 : Ref sig .tc := ⟨.hbm, 95, rfl⟩
abbrev main_cst_5 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_6 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_cst_7 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_call3_cst : Ref sig .tc := ⟨.hbm, 109, rfl⟩
abbrev main_call3_v0 : Ref sig .tc := ⟨.hbm, 110, rfl⟩
abbrev main_v37 : Ref sig .tc := ⟨.hbm, 111, rfl⟩
abbrev main_cst_8 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_call4_cst : Ref sig .tc := ⟨.hbm, 116, rfl⟩
abbrev main_call4_v0 : Ref sig .tc := ⟨.hbm, 117, rfl⟩
abbrev main_v41 : Ref sig .tc := ⟨.hbm, 118, rfl⟩
abbrev main_cst_9 : Ref sig .tc := ⟨.hbm, 119, rfl⟩
abbrev main_v42 : Ref sig .tc := ⟨.hbm, 120, rfl⟩
abbrev main_v43 : Ref sig .tc := ⟨.hbm, 121, rfl⟩
abbrev main_cst_10 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_cst_11 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩

abbrev nD : Nat := 1
abbrev τ : Topo := Topo.v7x

variable {F : FTy → Type} [FloatOps F]

class Facts₀ : Prop where
  concatenates_S4096_S4096_S4096_S12288_d0 : Shape.Concatenates [S4096, S4096, S4096] S12288 0
  reducesTo_S12288x5000_S12288_d1 : S12288x5000.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x5000_0_1 : S12288x1.BroadcastsInDim S12288x5000 (![0, 1] : Fin 2 → Fin S12288x5000.rank)
  bcast_S_S12288x1 : S_.BroadcastsInDim S12288x1 (![] : Fin 0 → Fin S12288x1.rank)
  shapeCasts_S12288x1_S12288x1x1 : S12288x1.ShapeCasts S12288x1x1
  bcast_S_S12288x1x1 : S_.BroadcastsInDim S12288x1x1 (![] : Fin 0 → Fin S12288x1x1.rank)
  bcast_S1_S1x1x1_2 : S1.BroadcastsInDim S1x1x1 (![2] : Fin 1 → Fin S1x1x1.rank)
  bcast_S1x1x1_S12288x1x1_0_1_2 : S1x1x1.BroadcastsInDim S12288x1x1 (![0, 1, 2] : Fin 3 → Fin S12288x1x1.rank)
  reducesTo_S12288x1x1_S12288x1_d2 : S12288x1x1.ReducesTo [2] S12288x1
  reducesTo_S12288x1_S_d0_1 : S12288x1.ReducesTo [0, 1] S_
  reducesTo_S4096x1024_S4096_d1 : S4096x1024.ReducesTo [1] S4096
  bcast_S4096_S4096x1_0 : S4096.BroadcastsInDim S4096x1 (![0] : Fin 1 → Fin S4096x1.rank)
  reducesTo_S5000x1024_S5000_d1 : S5000x1024.ReducesTo [1] S5000
  bcast_S5000_S1x5000_1 : S5000.BroadcastsInDim S1x5000 (![1] : Fin 1 → Fin S1x5000.rank)
  bcast_S4096x1_S4096x5000_0_1 : S4096x1.BroadcastsInDim S4096x5000 (![0, 1] : Fin 2 → Fin S4096x5000.rank)
  bcast_S1x5000_S4096x5000_0_1 : S1x5000.BroadcastsInDim S4096x5000 (![0, 1] : Fin 2 → Fin S4096x5000.rank)
  transposes_S5000x1024_S1024x5000_1_0 : S5000x1024.Transposes [1, 0] S1024x5000
  bcast_S_S4096x5000 : S_.BroadcastsInDim S4096x5000 (![] : Fin 0 → Fin S4096x5000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096x5000_S4096_d1 : S4096x5000.ReducesTo [1] S4096
  bcast_S_S4096 : S_.BroadcastsInDim S4096 (![] : Fin 0 → Fin S4096.rank)
  reducesTo_S4096_S_d0 : S4096.ReducesTo [0] S_
  shapeCasts_S_S1 : S_.ShapeCasts S1
  bcast_S_S1 : S_.BroadcastsInDim S1 (![] : Fin 0 → Fin S1.rank)
  gather_S12288x5000_S12288x1x1_S12288x1_n_1_0_0_1_2_11_wf : GatherDims.WF S12288x5000 S12288x1x1 S12288x1 [] [1] [0] [1] [0] 2 ![1, 1]
  dot_S4096x1024_S1024x5000_S4096x5000_1_0_0_1_n_n_wf : DotDims.WF S4096x1024 S1024x5000 S4096x5000 [1] [0] [0] [1] [] []
  gather_S4096x5000_S4096x1x1_S4096x1_n_1_0_0_1_2_11_wf : GatherDims.WF S4096x5000 S4096x1x1 S4096x1 [] [1] [0] [1] [0] 2 ![1, 1]

variable [Facts₀]

def gather_S12288x5000_S12288x1x1_S12288x1_n_1_0_0_1_2_11 : GatherDims S12288x5000 S12288x1x1 S12288x1 where
  offsetDims := []
  collapsedSliceDims := [1]
  operandBatchingDims := [0]
  startIndicesBatchingDims := [0]
  startIndexMap := [1]
  indexVectorDim := 2
  sliceSizes := ![1, 1]
  wf := gather_S12288x5000_S12288x1x1_S12288x1_n_1_0_0_1_2_11_wf
def dot_S4096x1024_S1024x5000_S4096x5000_1_0_0_1_n_n : DotDims S4096x1024 S1024x5000 S4096x5000 where
  lhsContracting := [1]
  rhsContracting := [0]
  lhsNonContracting := [0]
  rhsNonContracting := [1]
  lhsBatch := []
  rhsBatch := []
  wf := dot_S4096x1024_S1024x5000_S4096x5000_1_0_0_1_n_n_wf
def gather_S4096x5000_S4096x1x1_S4096x1_n_1_0_0_1_2_11 : GatherDims S4096x5000 S4096x1x1 S4096x1 where
  offsetDims := []
  collapsedSliceDims := [1]
  operandBatchingDims := [0]
  startIndicesBatchingDims := [0]
  startIndexMap := [1]
  indexVectorDim := 2
  sliceSizes := ![1, 1]
  wf := gather_S4096x5000_S4096x1x1_S4096x1_n_1_0_0_1_2_11_wf

class Facts : Prop extends Facts₀ where

variable [Facts]
-- ==== Proof.K.Defs0.lean ====
/-
  Region 0 (the cross-entropy kernel) at the buffer contents `V` it is entered from: its windows' blocks, the two
  branch conditions of the body decided over the grid (the first tile of a core resets the running sum, the last
  one writes it out), and the proof data. The running sum kept in the 1x1 scratch after point `n` is the tile's
  update of what the point before left, or of zero at a core's first tile; the output block, stored only at a core's
  last tile, is the running sum placed at entry (0,0) of an otherwise zero 8x128 block.
-/
import proofs.«419968_j17102559773294_3_alg».proof.Proof.Gen.Kernel.Launch
import proofs.«419968_j17102559773294_3_alg».proof.Proof.Gen.Kernel.Skeleton
import proofs.«419968_j17102559773294_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first branch: the tile index within the core is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The body's second branch: the tile index within the core is 15, the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The running sum in the scratch after point `n`. -/
def scrAt0 (c : Dev nD) : (n : ℕ) → n < cfg0.N → Vec F S1x1 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 16 = 0 then k0_pay1 else scrAt0 c n (Nat.lt_of_succ_lt hn))

theorem scrAt0_first (c : Dev nD) (t : Fin cfg0.N) (h : t.val % 16 = 0) :
    scrAt0 V c t.val t.isLt = k0_pay2 (iblk0 V c 0 t) (iblk0 V c 1 t) k0_pay1 := by
  obtain ⟨n, hn⟩ := t
  cases n with
  | zero => rfl
  | succ n => exact (by simp only [scrAt0]; rw [if_pos h])

theorem scrAt0_next (c : Dev nD) (t : Fin cfg0.N) (h : ¬ t.val % 16 = 0) :
    scrAt0 V c t.val t.isLt = k0_pay2 (iblk0 V c 0 t) (iblk0 V c 1 t)
      (scrAt0 V c (t.val - 1) (Nat.lt_of_le_of_lt (Nat.sub_le _ _) t.isLt)) := by
  obtain ⟨n, hn⟩ := t
  cases n with
  | zero => exact absurd (Nat.zero_mod _) h
  | succ n => exact (by simp only [scrAt0]; rw [if_neg h]; rfl)

/-- The scratch operand as a memref. -/
abbrev scM0_0 : Memref sig .tc .vmem S1x1 .f32 := Memref.whole cc0_scratch0

/-- Every scoped buffer that is neither a staging buffer of this region nor its scratch (the other region's staging
    buffers and scratch), each at some contents: it rides through the region untouched. -/
abbrev rest0 (c : Dev nD) : sProp 𝕄 :=
  Pipeline.scopedRestBut (Ix := Unit) (Name := ℕ) (U := UR sig nD τ) (Lvl := ℕ) (Val := Elt F) spec0 c [cc0_scratch0]

/-- The region invariant before position `n`: before the first point the scoped rest at anything; afterwards the
    scratch at what the point before left, the other scoped buffers at anything, and the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ rest0 c) ∗ (∃ r, prngReg c r)) := by
  cases n with
  | zero => exact absurd rfl hz
  | succ n => rfl

/-- The proof data of pipeline 0 on core `c`: the arrays as the region finds them; after the body each input's
    buffer at its block, the output's at the running sum laid into its block (consulted only where the body
    stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scrAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scrAt0 V c t.val t.isLt) := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.K.Defs1.lean ====
/-
  Region 1 (the distance kernel) at the buffer contents `V` it is entered from: its windows' blocks, the two branch
  conditions decided over the grid, and the proof data. Two running sums live in 1x1 scratch buffers: the center
  term (hinge of the distance to the labelled exemplar minus the distance to the closest one, summed over a tile's
  rows) and the triplet term (hinge of the anchor-positive minus the anchor-negative distance); each is reset at a
  core's first tile and laid into an 8x128 output block at its last.
-/
import proofs.«419968_j17102559773294_3_alg».proof.Proof.Gen.Kernel.Launch
import proofs.«419968_j17102559773294_3_alg».proof.Proof.Gen.Kernel.Skeleton
import proofs.«419968_j17102559773294_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's first branch: the tile index within the core is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the tile index within the core is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- One tile's update of the center sum `s`. -/
def upd1_0 (c : Dev nD) (t : Fin cfg1.N) (s : Vec F S1x1 .f32) : Vec F S1x1 .f32 :=
  k1_pay1 (k1_pay9 (iblk1 V c 0 t) (iblk1 V c 3 t) (iblk1 V c 4 t) (iblk1 V c 5 t))
    (k1_pay10 (iblk1 V c 0 t) (iblk1 V c 3 t) (iblk1 V c 4 t)) s
/-- One tile's update of the triplet sum `s`. -/
def upd1_1 (c : Dev nD) (t : Fin cfg1.N) (s : Vec F S1x1 .f32) : Vec F S1x1 .f32 :=
  k1_pay2 (iblk1 V c 0 t) (iblk1 V c 1 t) (iblk1 V c 2 t) s

/-- The two running sums (center, triplet) after point `n`. -/
def scrAt1 (c : Dev nD) : (n : ℕ) → n < cfg1.N → Vec F S1x1 .f32 × Vec F S1x1 .f32
  | 0, hn => (upd1_0 V c ⟨0, hn⟩ k1_pay6, upd1_1 V c ⟨0, hn⟩ k1_pay7)
  | n + 1, hn =>
      (upd1_0 V c ⟨n + 1, hn⟩ (if (n + 1) % 8 = 0 then k1_pay6 else (scrAt1 c n (Nat.lt_of_succ_lt hn)).1),
       upd1_1 V c ⟨n + 1, hn⟩ (if (n + 1) % 8 = 0 then k1_pay7 else (scrAt1 c n (Nat.lt_of_succ_lt hn)).2))

theorem scrAt1_first (c : Dev nD) (t : Fin cfg1.N) (h : t.val % 8 = 0) :
    scrAt1 V c t.val t.isLt = (upd1_0 V c t k1_pay6, upd1_1 V c t k1_pay7) := by
  obtain ⟨n, hn⟩ := t
  cases n with
  | zero => rfl
  | succ n => exact (by simp only [scrAt1]; rw [if_pos h, if_pos h])

theorem scrAt1_next (c : Dev nD) (t : Fin cfg1.N) (h : ¬ t.val % 8 = 0) :
    scrAt1 V c t.val t.isLt =
      (upd1_0 V c t (scrAt1 V c (t.val - 1) (Nat.lt_of_le_of_lt (Nat.sub_le _ _) t.isLt)).1,
       upd1_1 V c t (scrAt1 V c (t.val - 1) (Nat.lt_of_le_of_lt (Nat.sub_le _ _) t.isLt)).2) := by
  obtain ⟨n, hn⟩ := t
  cases n with
  | zero => exact absurd (Nat.zero_mod _) h
  | succ n => exact (by simp only [scrAt1]; rw [if_neg h, if_neg h]; rfl)

/-- The scratch operands as memrefs. -/
abbrev scM1_0 : Memref sig .tc .vmem S1x1 .f32 := Memref.whole cc1_scratch0
abbrev scM1_1 : Memref sig .tc .vmem S1x1 .f32 := Memref.whole cc1_scratch1

/-- Every scoped buffer that is neither a staging buffer of this region nor one of its two scratches (the other
    region's staging buffers and scratch), each at some contents: it rides through the region untouched. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the scoped rest at anything; afterwards the
    two scratch buffers at what the point before left, the other scoped buffers at anything, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn).1 ∗ owns (c : Thread nD τ) scM1_1 fullShare (scrAt1 V c n hn).2 ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scrAt1 V c n hn).1 ∗ owns (c : Thread nD τ) scM1_1 fullShare (scrAt1 V c n hn).2 ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scrAt1 V c (n - 1) (by omega)).1 ∗ owns (c : Thread nD τ) scM1_1 fullShare (scrAt1 V c (n - 1) (by omega)).2 ∗ rest1 c) ∗ (∃ r, prngReg c r)) := by
  cases n with
  | zero => exact absurd rfl hz
  | succ n => rfl

/-- The proof data of pipeline 1 on core `c`: the arrays as the region finds them; after the body each input's
    buffer at its block, each output's at its running sum laid into the block (consulted only where the body
    stores it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay4 (scrAt1 V c t.val t.isLt).1
    | ⟨7, _⟩ => k1_pay5 (scrAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay4 (scrAt1 V c t.val t.isLt).1 := by dsimp only [dat1]
theorem after1_7 (c : Dev nD) (t : Fin cfg1.N) : (dat1 V c).after 7 t = k1_pay5 (scrAt1 V c t.val t.isLt).2 := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.Outs.lean ====
/-
  What the two regions leave in their output arrays, as the contents the buffer valuations between @main's items are
  written over: region 0's output array after its last write-back, entered from the contents after the first host
  stretch; region 1's two output arrays after their last write-backs, entered from the contents after the second.
-/
import proofs.«419968_j17102559773294_3_alg».proof.Proof.Gen.Kernel.Regions
import proofs.«419968_j17102559773294_3_alg».proof.Proof.K.Defs0
import proofs.«419968_j17102559773294_3_alg».proof.Proof.K.Defs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents region 0 is entered from (after the first host stretch), read at a reference. -/
abbrev VR1 (c : Dev nD) (b : Ref sig .tc) : Buf (Elt F) ((c : Thread nD τ).loc b) := Gen.V1 m c b

/-- Region 0's output array after the region; every other reference is a placeholder nobody reads. -/
def outsA : Gen.Outs (F := F) := fun _ r c =>
  if h : r = main_v2 then h ▸ ((dat0 (VR1 m) c).arrAt 2 cfg0.N) else m ((c : Thread nD τ).loc r)

/-- The buffer contents region 1 is entered from (after the second host stretch), read at a reference. -/
abbrev VR3 (c : Dev nD) (b : Ref sig .tc) : Buf (Elt F) ((c : Thread nD τ).loc b) := Gen.V3 m (outsA m) c b

/-- What the regions leave: region 0's output array (read after item 1), region 1's two (read after item 3). -/
def outs : Gen.Outs (F := F) := fun J r c =>
  if J = 2 then outsA m J r c
  else if h0 : r = main_v10_0 then h0 ▸ ((dat1 (VR3 m) c).arrAt 6 cfg1.N)
  else if h1 : r = main_v10_1 then h1 ▸ ((dat1 (VR3 m) c).arrAt 7 cfg1.N)
  else m ((c : Thread nD τ).loc r)

theorem outs_v2 (c : Dev nD) : outs m 2 main_v2 c = (dat0 (VR1 m) c).arrAt 2 cfg0.N := by
  simp only [outs, outsA, if_true, dite_true]
theorem outs_v10_0 (c : Dev nD) : outs m 4 main_v10_0 c = (dat1 (VR3 m) c).arrAt 6 cfg1.N := by
  simp only [outs, dite_true]; rfl
theorem outs_v10_1 (c : Dev nD) : outs m 4 main_v10_1 c = (dat1 (VR3 m) c).arrAt 7 cfg1.N := by
  simp only [outs]; rfl

/-- The contents after item 1 and after item 2 do not depend on what region 1 leaves. -/
theorem V2_outs (c : Dev nD) : Gen.V2 m (outs m) c = Gen.V2 m (outsA m) c := rfl
theorem V3_outs (c : Dev nD) : Gen.V3 m (outs m) c = Gen.V3 m (outsA m) c := rfl

end Cert.Kernel.Hand

end
-- ==== Proof.K.Obl0.lean ====
/-
  Region 0 (the cross-entropy kernel): the body obligation at the buffer contents `V` the region is entered from.
  Within a core's sixteen tiles the body does one of three things. At the first tile it resets the 1x1 scratch to
  zero and stores the tile's update of zero; at a middle tile it stores the tile's update of the running sum the
  tile before left; at the last tile it does the same and then lays the updated sum into entry (0,0) of the
  otherwise zero 8x128 output block. Each is stated as a triple with the buffers' contents after it written out
  over the payload terms; a whole-block store read back is its payload. The output window is idle away from a
  core's last tile: its buffer is handed back as found. The other region's scoped buffers ride through untouched.
-/
import proofs.«419968_j17102559773294_3_alg».proof.Proof.K.Defs0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block access, as a constant function. -/
theorem hz0 : (![0, 0] : Fin 2 → Nat) = fun _ => 0 := funext fun a => by fin_cases a <;> rfl

/-- A last store through the whole-block rectangle covers the block, whatever came before it. -/
theorem cover_last0 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons.mpr (Or.inl rfl), View.mem_set_unit_zero h inb y⟩

set_option maxHeartbeats 1000000 in
/-- The body at a core's first tile (first branch taken, second not): the logits and labels blocks are read and
    left as they were, the output block is not touched, and the scratch, whatever it held, ends at the tile's
    update of zero. -/
theorem runA0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : cond0_0 i) (hc1 : ¬cond0_1 i)
    (x0 : Vec F S384x5000 .f32) (x1 : Vec F S384x1 .i32) (xi2 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare xi2
          ∗ (∃ d, owns (c : Thread nD τ) arg5 fullShare d)
          ∗ (iprop(owns (c : Thread nD τ) arg2 fullShare x0 ∗ owns (c : Thread nD τ) arg3 fullShare x1 ∗ owns (c : Thread nD τ) arg4 fullShare xi2
              ∗ owns (c : Thread nD τ) arg5 fullShare (k0_pay2 x0 x1 k0_pay1)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, View.ld_unit_zero (S := S384x5000) hz0,
    View.ld_unit_zero (S := S384x1) hz0, View.readCov_unit_zero (S := S1x1) _ hz0]

set_option maxHeartbeats 1000000 in
/-- The body at a tile that is neither a core's first nor its last (neither branch taken): the input blocks are
    read and left as they were, the output block is not touched, and the scratch goes from the running sum `xs0`
    to the tile's update of it. -/
theorem runB0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : ¬cond0_0 i) (hc1 : ¬cond0_1 i)
    (x0 : Vec F S384x5000 .f32) (x1 : Vec F S384x1 .i32) (xi2 : Vec F S8x128 .f32) (xs0 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xi2
          ∗ owns (c : Thread nD τ) arg5 fullShare xs0
          ∗ (iprop(owns (c : Thread nD τ) arg2 fullShare x0 ∗ owns (c : Thread nD τ) arg3 fullShare x1 ∗ owns (c : Thread nD τ) arg4 fullShare xi2
              ∗ owns (c : Thread nD τ) arg5 fullShare (k0_pay2 x0 x1 xs0)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, harg5.read_unread, View.ld_unit_zero (S := S384x5000) hz0,
    View.ld_unit_zero (S := S384x1) hz0, View.ld_unit_zero (S := S1x1) hz0, View.readCov_unit_zero (S := S1x1) _ hz0]

set_option maxHeartbeats 1000000 in
/-- The body at a core's last tile (first branch not taken, second taken): the input blocks are read and left as
    they were, the scratch goes from the running sum `xs0` to the tile's update of it, and the output block,
    whatever it held, ends at that updated sum laid into the block. -/
theorem runC0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : ¬cond0_0 i) (hc1 : cond0_1 i)
    (x0 : Vec F S384x5000 .f32) (x1 : Vec F S384x1 .i32) (xs0 : Vec F S1x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
          ∗ owns (c : Thread nD τ) arg5 fullShare xs0
          ∗ (iprop(owns (c : Thread nD τ) arg2 fullShare x0 ∗ owns (c : Thread nD τ) arg3 fullShare x1
              ∗ owns (c : Thread nD τ) arg4 fullShare (k0_pay3 (k0_pay2 x0 x1 xs0))
              ∗ owns (c : Thread nD τ) arg5 fullShare (k0_pay2 x0 x1 xs0)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_last0 hz0 _ _ _), View.canon_cons_unit_zero hz0]
    simp only [View.readAt_eq_ld, harg2.read_unread, harg3.read_unread, harg5.read_unread, View.ld_unit_zero (S := S384x5000) hz0,
      View.ld_unit_zero (S := S384x1) hz0, View.ld_unit_zero (S := S1x1) hz0, View.readCov_unit_zero (S := S1x1) _ hz0]
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, harg5.read_unread, View.ld_unit_zero (S := S384x5000) hz0,
    View.ld_unit_zero (S := S384x1) hz0, View.ld_unit_zero (S := S1x1) hz0, View.readCov_unit_zero (S := S1x1) _ hz0]

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last tile the output window is idle: the body stores nothing into it, -/
theorem idleAt0_2 : ∀ t : Fin cfg0.N, ¬cond0_1 (grid0.coords t) → cfg0.idle 2 (grid0.coords t) = true := by decide +kernel
/-- and the pipeline does not write its block back there. -/
theorem noFlush0_2 : ∀ t : Fin cfg0.N, ¬cond0_1 (grid0.coords t) → (cfg0.win 2).flush t = false := by decide +kernel
/-- At a core's last tile the output window is live. -/
theorem liveAt0_2 : ∀ t : Fin cfg0.N, cond0_1 (grid0.coords t) → cfg0.idle 2 (grid0.coords t) = false := by decide +kernel

/-! ## The staging memrefs and the invariant -/

/-- Each window's current staging memref at point `t`, spelled as the pipeline passes it, and its wholeness. -/
abbrev ms0_0 (t : Fin cfg0.N) : Memref sig .tc .vmem S384x5000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- What the launch hands the region, with the scratch split off as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [scM0_0, owns_whole]
  rfl

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's position within its core's sixteen
    tiles says which of the three runs applies; the invariant hands the body the scratch at the running sum the
    point before left (at anything at a core's first tile) and takes it back at this point's; the other scoped
    buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [scrAt0_next V c t h0]
    rw [PhiS0_castSucc V c t, PhiS0_pos V c _ _ hz]
    iintro ⟨⟨⟨HS0, Hr⟩, Hg⟩, Ho, ⟨%d0, H0⟩, ⟨%d1, H1⟩, ⟨%d2, H2⟩⟩
    iapply (runC0 c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    iexact H2
  · have hn1 : ¬cond0_1 (grid0.coords t) := fun h => h1 ((hcond0_1 t).mp h)
    rw [Dat.leavesExact_idle (dat0 V c) 2 t (idleAt0_2 t hn1) (noFlush0_2 t hn1)]
    by_cases h0 : t.val % 16 = 0
    · rw [scrAt0_first V c t h0]
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply (runA0 c (grid0.coords t) _ _ _ _ _ _ _ _ ((hcond0_0 t).mpr h0) hn1 (iblk0 V c 0 t) (iblk0 V c 1 t) _ Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply (runA0 c (grid0.coords t) _ _ _ _ _ _ _ _ ((hcond0_0 t).mpr h0) hn1 (iblk0 V c 0 t) (iblk0 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
    · have hz : t.val ≠ 0 := fun e => h0 (by rw [e])
      rw [scrAt0_next V c t h0]
      rw [PhiS0_castSucc V c t, PhiS0_pos V c _ _ hz]
      iintro ⟨⟨⟨HS0, Hr⟩, Hg⟩, Ho, ⟨%d0, H0⟩, ⟨%d1, H1⟩, ⟨%d2, H2⟩⟩
      iapply (runB0 c (grid0.coords t) _ _ _ _ _ _ _ _ (fun h => h0 ((hcond0_0 t).mp h)) hn1 (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the running sum in the scratch is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]; · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.Obl1.lean ====
/-
  Region 1 (the distance kernel): the body obligation of its pipeline at the buffer contents `V` the region is
  entered from. The body has three cases by the tile's position within its core's row of eight — the first tile
  (the two running sums are reset, then updated), a middle tile (updated), the last tile (updated, then each laid
  into its 8x128 output block) — and each case's run is stated with its result written over the kernel's payload
  terms: what the stores leave in a buffer is read back as the payload of the last whole-buffer store. The region
  invariant carries the two sums from point to point; the six input windows hold their blocks at every point; off
  the last tile the output windows are idle and go back untouched.
-/
import proofs.«419968_j17102559773294_3_alg».proof.Proof.K.Defs1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores read back -/

/-- The zero offsets of a whole-buffer access of rank two. -/
theorem hz1 : (![0, 0] : Fin 2 → Nat) = fun _ => 0 := funext fun a => by fin_cases a <;> rfl

/-- A list of stores whose last one (the head) is through the whole-shape rectangle covers the shape. -/
theorem cover_head1 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

/-! ## The body's three cases -/

set_option maxHeartbeats 1000000 in
/-- CASE A, a core's first tile (the first branch taken, the second not). On whole memrefs — the six inputs at their
    blocks, the two output blocks at any contents `xi6`, `xi7`, the two scratch sums at anything — the body runs to
    the continuation with the inputs and the output blocks as they were and each scratch at one tile's update of the
    zero sum: the reset stores zero, the update reads it back and stores the new sum over it. -/
theorem run1_A (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xi6 : Vec F S8x128 .f32) (xi7 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare (k1_pay1 (k1_pay9 x0 x3 x4 x5) (k1_pay10 x0 x3 x4) k1_pay6)
            ∗ owns (c : Thread nD τ) arg11 fullShare (k1_pay2 x0 x1 x2 k1_pay7)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [H7]
  · iexists _; isplitr; · ipureintro; exact hf7
    iexact H7
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

set_option maxHeartbeats 1000000 in
/-- CASE B, a middle tile (neither branch taken). The scratch sums enter at `xs0`, `xs1` and leave at one tile's
    update of them; the inputs and the two output blocks are handed back as they were. -/
theorem run1_B (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xi6 : Vec F S8x128 .f32) (xi7 : Vec F S8x128 .f32) (xs0 : Vec F S1x1 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare (k1_pay1 (k1_pay9 x0 x3 x4 x5) (k1_pay10 x0 x3 x4) xs0)
            ∗ owns (c : Thread nD τ) arg11 fullShare (k1_pay2 x0 x1 x2 xs1)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0; obtain rfl := harg11.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [H7]
  · iexists _; isplitr; · ipureintro; exact hf7
    iexact H7
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

set_option maxHeartbeats 1000000 in
/-- CASE C, a core's last tile (the first branch not taken, the second taken). The scratch sums enter at `xs0`,
    `xs1` and leave at one tile's update of them; each output block, whatever it held, leaves at its updated sum laid
    into the block's corner entry (zero elsewhere): the store reads the scratch back after the update. -/
theorem run1_C (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xs0 : Vec F S1x1 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay4 (k1_pay1 (k1_pay9 x0 x3 x4 x5) (k1_pay10 x0 x3 x4) xs0))
            ∗ owns (c : Thread nD τ) arg9 fullShare (k1_pay5 (k1_pay2 x0 x1 x2 xs1))
            ∗ owns (c : Thread nD τ) arg10 fullShare (k1_pay1 (k1_pay9 x0 x3 x4 x5) (k1_pay10 x0 x3 x4) xs0)
            ∗ owns (c : Thread nD τ) arg11 fullShare (k1_pay2 x0 x1 x2 xs1)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0; obtain rfl := harg11.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    refine (View.read_writes_eq_canon _ _ _ (cover_head1 hz1 _ _ _)).trans ?_
    rw [View.canon_cons_unit_zero (S := S8x128) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  isplitl [H7]
  · iexists _; isplitr
    swap; · iexact H7
    ipureintro
    sl_unfold_words
    refine (View.read_writes_eq_canon _ _ _ (cover_head1 hz1 _ _ _)).trans ?_
    rw [View.canon_cons_unit_zero (S := S8x128) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

variable (V : (c : Dev nD) → (b : Ref sig .tc) → Buf (Elt F) ((c : Thread nD τ).loc b))

/-! ## What the body finds in the input windows' buffers -/

/-- Each input window's current staging buffer holds the window's block at every point, fetched there or not
    (the exemplars and their squared norms are fetched once, at a core's first point, and stay resident). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## Where the output windows are idle -/

/-- An input window is never idle. -/
theorem liveAt1_in (w : Fin cfg1.W) (hw : w.val < 6) (t : Fin cfg1.N) : cfg1.idle w (grid1.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Off a core's last tile the body stores nothing into the two output blocks, -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
/-- and the pipeline does not write them back there; -/
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
/-- at the last tile it stores both. -/
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-! ## The staging memrefs and the invariant at the first point -/

/-- Each window's current staging memref at point `t`, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x128 .f32 := win1_7.stage (cfg1.slots t 7)
abbrev hs1_7 (t : Fin cfg1.N) : (ms1_7 t).IsWhole := hstage1_7 ((cfg1.slots t 7).cast nbuf1_7)

/-- What the launch hands the region, split at the region's two scratch buffers: each at some contents, every other
    scoped buffer unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [Pipeline.scopedRest_split_of_list spec1 c [cc1_scratch0, cc1_scratch1] (by decide) (by decide)]
  simp only [scM1_0, scM1_1, owns_whole]; rfl

/-! ## The body obligation, at a generic point -/

/-- What the body is called with at point `t`: the invariant, the core's debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' buffers hold their blocks; the point's position within its core's row says
    which case runs; the invariant hands over the two running sums as the point before left them (at anything at a
    core's first tile, where the body resets them) and takes them back at this point's; off the last tile the output
    buffers go back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [scrAt1_first V c t h0]
    dsimp only
    unfold upd1_0 upd1_1
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [show (dat1 V c).leavesExact 7 t = owns (c : Thread nD τ) (ms1_7 t) fullShare ((dat1 V c).after 7 t) from by
        unfold Dat.leavesExact; rw [liveAt1_7 t ((hcond1_1 t).mpr h1)], after1_7]
      rw [scrAt1_next V c t h0]
      dsimp only
      unfold upd1_0 upd1_1
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [scrAt1_next V c t h0]
      dsimp only
      unfold upd1_0 upd1_1
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the running sums' values are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hr⟩, Hg⟩
  isplitr [Hg]
  · isplitr [Hr]
    · isplitl [HS0]
      · iexists _; iexact HS0
      iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Run.lean ====
/-
  The program's launch. @main is: a host stretch (the labels concatenated and laid out as a column), the
  cross-entropy region, a host stretch (its output summed and divided by the row count; the exemplars narrowed, their
  squared norms; the anchor labels as a column), the distance region, a last host stretch (the two outputs summed,
  the weighted total). Between two items every unscoped buffer of the core is held at a known valuation: the launch
  contents, then the host stretch's operations applied, then a region's output arrays replaced by what its
  write-backs leave (the proof data's arrays after the last point). Each region enters the pipeline rule with its
  arrays split out of that valuation and returns them to it; the generator register and the core's empty debt ride
  along. The run ends with every unscoped buffer at the last valuation, read against the final memory.
-/
import proofs.«419968_j17102559773294_3_alg».proof.Proof.K.Outs
import proofs.«419968_j17102559773294_3_alg».proof.Proof.K.Obl0
import proofs.«419968_j17102559773294_3_alg».proof.Proof.K.Obl1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The contents after region 0 and after region 1, read at a reference. -/
abbrev VR2 (c : Dev nD) (b : Ref sig .tc) : Buf (Elt F) ((c : Thread nD τ).loc b) := Gen.V2 m (outs m) c b
abbrev VR3' (c : Dev nD) (b : Ref sig .tc) : Buf (Elt F) ((c : Thread nD τ).loc b) := Gen.V3 m (outs m) c b
abbrev VR4 (c : Dev nD) (b : Ref sig .tc) : Buf (Elt F) ((c : Thread nD τ).loc b) := Gen.V4 m (outs m) c b

/-! ## A region's arrays at its exit are the next valuation's -/

theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (Gen.V2_of m (outs m) c main_arg3 (by decide)).symm)
  | ⟨1, _⟩ => exact ((dat0 (VR1 m) c).arrAt_in 1 rfl _).trans ((A_eq0 (VR1 m) c 1).trans (Gen.V2_of m (outs m) c main_v1 (by decide)).symm)
  | ⟨2, _⟩ =>
    show _ = Function.update (Gen.V1 m c) main_v2 (outs m 2 main_v2 c) main_v2
    rw [Function.update_self, outs_v2]; rfl
theorem hrest0 (c : Dev nD) : ∀ b, b ∉ Finset.univ.image (Pipeline.arrRef spec0) → VR2 m c b = VR1 m c b :=
  fun b hb => Gen.V2_of m (outs m) c b (by
    intro h; rw [List.mem_singleton] at h; subst h
    exact hb (Finset.mem_image.mpr ⟨2, Finset.mem_univ _, rfl⟩))

theorem hF1 (c : Dev nD) (w : Fin cfg1.W) : (dat1 (VR3 m) c).arrAt w cfg1.N = VR4 m c (Pipeline.arrRef spec1 w) := by
  match w with
  | ⟨0, _⟩ => exact ((dat1 (VR3 m) c).arrAt_in 0 rfl _).trans ((A_eq1 (VR3 m) c 0).trans (Gen.V4_of m (outs m) c main_arg0 (by decide)).symm)
  | ⟨1, _⟩ => exact ((dat1 (VR3 m) c).arrAt_in 1 rfl _).trans ((A_eq1 (VR3 m) c 1).trans (Gen.V4_of m (outs m) c main_arg1 (by decide)).symm)
  | ⟨2, _⟩ => exact ((dat1 (VR3 m) c).arrAt_in 2 rfl _).trans ((A_eq1 (VR3 m) c 2).trans (Gen.V4_of m (outs m) c main_arg2 (by decide)).symm)
  | ⟨3, _⟩ => exact ((dat1 (VR3 m) c).arrAt_in 3 rfl _).trans ((A_eq1 (VR3 m) c 3).trans (Gen.V4_of m (outs m) c main_v5 (by decide)).symm)
  | ⟨4, _⟩ => exact ((dat1 (VR3 m) c).arrAt_in 4 rfl _).trans ((A_eq1 (VR3 m) c 4).trans (Gen.V4_of m (outs m) c main_v8 (by decide)).symm)
  | ⟨5, _⟩ => exact ((dat1 (VR3 m) c).arrAt_in 5 rfl _).trans ((A_eq1 (VR3 m) c 5).trans (Gen.V4_of m (outs m) c main_v9 (by decide)).symm)
  | ⟨6, _⟩ =>
    show _ = Function.update (Function.update (Gen.V3 m (outs m) c) main_v10_0 (outs m 4 main_v10_0 c)) main_v10_1 (outs m 4 main_v10_1 c) main_v10_0
    rw [Function.update_of_ne (StableHlo.devRef_ne_of_ne (by decide) : (Proc.devRef .tc main_v10_0 : DevRef τ sig) ≠ Proc.devRef .tc main_v10_1),
      Function.update_self, outs_v10_0]; rfl
  | ⟨7, _⟩ =>
    show _ = Function.update (Function.update (Gen.V3 m (outs m) c) main_v10_0 (outs m 4 main_v10_0 c)) main_v10_1 (outs m 4 main_v10_1 c) main_v10_1
    rw [Function.update_self, outs_v10_1]; rfl
theorem hrest1 (c : Dev nD) : ∀ b, b ∉ Finset.univ.image (Pipeline.arrRef spec1) → VR4 m c b = VR3' m c b :=
  fun b hb => Gen.V4_of m (outs m) c b (by
    intro h; rw [List.mem_cons, List.mem_singleton] at h
    rcases h with h | h
    · subst h; exact hb (Finset.mem_image.mpr ⟨6, Finset.mem_univ _, rfl⟩)
    · subst h; exact hb (Finset.mem_image.mpr ⟨7, Finset.mem_univ _, rfl⟩))

/-! ## The regions as segments -/

set_option backward.isDefEq.respectTransparency.types false in
/-- Region 0 over the thread state: entered from every unscoped buffer at the contents after the first host stretch,
    left with its output array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    rw [Pipeline.ownSems0_none]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the second host stretch,
    left with its two output arrays replaced. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR3 m) c)
    unfold Pipeline.ΦA
    iintro ⟨Hp, -, Hr⟩
    isplitl [Hr]; · iexact Hr
    iexact Hp
  hout c := by
    rw [Pipeline.ownSems0_none]
    refine BIBase.Entails.trans (hout1 (VR3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (VR4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items on core `c`: the three host stretches from their boundary's contents, the two regions. -/
abbrev segs (c : Dev nD) : List (Pipeline.Seg (pcfgs (F := F)) adm (pdats m) () defs₀ 𝒱₀ L lv) :=
  Gen.segs m (outs m) 𝒱₀ L lv (fun _ => R) () (pdats m) (reg0 m) (reg1 m) c

/-- After the last host stretch: the buffers and the generator register are what the run ends with, beside the
    core owing nothing. -/
theorem hlast (c : Dev nD) :
    (iprop(StableHlo.held (c : Thread nD τ) (Pipeline.ucRefs τ sig) (Gen.V5 m (outs m) c) ∗ R c) : sProp 𝕄)
      ⊢ iprop(iprop(StableHlo.held (c : Thread nD τ) (Pipeline.ucRefs τ sig) (Gen.V5 m (outs m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of @main terminates, and the final memory
    holds every unscoped buffer of every core at the last valuation: the launch contents with the three host stretches
    applied and the regions' output arrays at what their write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V5 m (outs m) c b) :=
  Pipeline.θ_run_regions_kit_dev (pcfgs (F := F)) adm (pdats m) () cellOf_inj emb₁ defs₀ 𝒱₀ L lv m ρ main (segs m)
    (fun c Q => by
      rewrite [main_chain c, Pipeline.Seg.run_eq_chain,
        show (segs m c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c)⟩) (run_all m ρ)

end Cert.Kernel.Hand

end
-- ==== Proof.KI.Defs0.lean ====
/-
  Region 0 (the cross-entropy kernel) at the buffer contents `V` it is entered from: its windows' blocks, the two
  branch conditions of the body decided over the grid (the first tile of a core resets the running sum, the last
  one writes it out), and the proof data. The running sum kept in the 1x1 scratch after point `n` is the tile's
  update of what the point before left, or of zero at a core's first tile; the output block, stored only at a core's
  last tile, is the running sum placed at entry (0,0) of an otherwise zero 8x128 block.
-/
import proofs.«419968_j17102559773294_3_alg».proof.Proof.Gen.KernelIdeal.Launch
import proofs.«419968_j17102559773294_3_alg».proof.Proof.Gen.KernelIdeal.Skeleton
import proofs.«419968_j17102559773294_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first branch: the tile index within the core is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The body's second branch: the tile index within the core is 15, the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The running sum in the scratch after point `n`. -/
def scrAt0 (c : Dev nD) : (n : ℕ) → n < cfg0.N → Vec F S1x1 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 16 = 0 then k0_pay1 else scrAt0 c n (Nat.lt_of_succ_lt hn))

theorem scrAt0_first (c : Dev nD) (t : Fin cfg0.N) (h : t.val % 16 = 0) :
    scrAt0 V c t.val t.isLt = k0_pay2 (iblk0 V c 0 t) (iblk0 V c 1 t) k0_pay1 := by
  obtain ⟨n, hn⟩ := t
  cases n with
  | zero => rfl
  | succ n => exact (by simp only [scrAt0]; rw [if_pos h])

theorem scrAt0_next (c : Dev nD) (t : Fin cfg0.N) (h : ¬ t.val % 16 = 0) :
    scrAt0 V c t.val t.isLt = k0_pay2 (iblk0 V c 0 t) (iblk0 V c 1 t)
      (scrAt0 V c (t.val - 1) (Nat.lt_of_le_of_lt (Nat.sub_le _ _) t.isLt)) := by
  obtain ⟨n, hn⟩ := t
  cases n with
  | zero => exact absurd (Nat.zero_mod _) h
  | succ n => exact (by simp only [scrAt0]; rw [if_neg h]; rfl)

/-- The scratch operand as a memref. -/
abbrev scM0_0 : Memref sig .tc .vmem S1x1 .f32 := Memref.whole cc0_scratch0

/-- Every scoped buffer that is neither a staging buffer of this region nor its scratch (the other region's staging
    buffers and scratch), each at some contents: it rides through the region untouched. -/
abbrev rest0 (c : Dev nD) : sProp 𝕄 :=
  Pipeline.scopedRestBut (Ix := Unit) (Name := ℕ) (U := UR sig nD τ) (Lvl := ℕ) (Val := Elt F) spec0 c [cc0_scratch0]

/-- The region invariant before position `n`: before the first point the scoped rest at anything; afterwards the
    scratch at what the point before left, the other scoped buffers at anything, and the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ rest0 c) ∗ (∃ r, prngReg c r)) := by
  cases n with
  | zero => exact absurd rfl hz
  | succ n => rfl

/-- The proof data of pipeline 0 on core `c`: the arrays as the region finds them; after the body each input's
    buffer at its block, the output's at the running sum laid into its block (consulted only where the body
    stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scrAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scrAt0 V c t.val t.isLt) := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.KI.Defs1.lean ====
/-
  Region 1 (the distance kernel) at the buffer contents `V` it is entered from: its windows' blocks, the two branch
  conditions decided over the grid, and the proof data. Two running sums live in 1x1 scratch buffers: the center
  term (hinge of the distance to the labelled exemplar minus the distance to the closest one, summed over a tile's
  rows) and the triplet term (hinge of the anchor-positive minus the anchor-negative distance); each is reset at a
  core's first tile and laid into an 8x128 output block at its last.
-/
import proofs.«419968_j17102559773294_3_alg».proof.Proof.Gen.KernelIdeal.Launch
import proofs.«419968_j17102559773294_3_alg».proof.Proof.Gen.KernelIdeal.Skeleton
import proofs.«419968_j17102559773294_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's first branch: the tile index within the core is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the tile index within the core is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- One tile's update of the center sum `s`. -/
def upd1_0 (c : Dev nD) (t : Fin cfg1.N) (s : Vec F S1x1 .f32) : Vec F S1x1 .f32 :=
  k1_pay1 (k1_pay9 (iblk1 V c 0 t) (iblk1 V c 3 t) (iblk1 V c 4 t) (iblk1 V c 5 t))
    (k1_pay10 (iblk1 V c 0 t) (iblk1 V c 3 t) (iblk1 V c 4 t)) s
/-- One tile's update of the triplet sum `s`. -/
def upd1_1 (c : Dev nD) (t : Fin cfg1.N) (s : Vec F S1x1 .f32) : Vec F S1x1 .f32 :=
  k1_pay2 (iblk1 V c 0 t) (iblk1 V c 1 t) (iblk1 V c 2 t) s

/-- The two running sums (center, triplet) after point `n`. -/
def scrAt1 (c : Dev nD) : (n : ℕ) → n < cfg1.N → Vec F S1x1 .f32 × Vec F S1x1 .f32
  | 0, hn => (upd1_0 V c ⟨0, hn⟩ k1_pay6, upd1_1 V c ⟨0, hn⟩ k1_pay7)
  | n + 1, hn =>
      (upd1_0 V c ⟨n + 1, hn⟩ (if (n + 1) % 8 = 0 then k1_pay6 else (scrAt1 c n (Nat.lt_of_succ_lt hn)).1),
       upd1_1 V c ⟨n + 1, hn⟩ (if (n + 1) % 8 = 0 then k1_pay7 else (scrAt1 c n (Nat.lt_of_succ_lt hn)).2))

theorem scrAt1_first (c : Dev nD) (t : Fin cfg1.N) (h : t.val % 8 = 0) :
    scrAt1 V c t.val t.isLt = (upd1_0 V c t k1_pay6, upd1_1 V c t k1_pay7) := by
  obtain ⟨n, hn⟩ := t
  cases n with
  | zero => rfl
  | succ n => exact (by simp only [scrAt1]; rw [if_pos h, if_pos h])

theorem scrAt1_next (c : Dev nD) (t : Fin cfg1.N) (h : ¬ t.val % 8 = 0) :
    scrAt1 V c t.val t.isLt =
      (upd1_0 V c t (scrAt1 V c (t.val - 1) (Nat.lt_of_le_of_lt (Nat.sub_le _ _) t.isLt)).1,
       upd1_1 V c t (scrAt1 V c (t.val - 1) (Nat.lt_of_le_of_lt (Nat.sub_le _ _) t.isLt)).2) := by
  obtain ⟨n, hn⟩ := t
  cases n with
  | zero => exact absurd (Nat.zero_mod _) h
  | succ n => exact (by simp only [scrAt1]; rw [if_neg h, if_neg h]; rfl)

/-- The scratch operands as memrefs. -/
abbrev scM1_0 : Memref sig .tc .vmem S1x1 .f32 := Memref.whole cc1_scratch0
abbrev scM1_1 : Memref sig .tc .vmem S1x1 .f32 := Memref.whole cc1_scratch1

/-- Every scoped buffer that is neither a staging buffer of this region nor one of its two scratches (the other
    region's staging buffers and scratch), each at some contents: it rides through the region untouched. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the scoped rest at anything; afterwards the
    two scratch buffers at what the point before left, the other scoped buffers at anything, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn).1 ∗ owns (c : Thread nD τ) scM1_1 fullShare (scrAt1 V c n hn).2 ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scrAt1 V c n hn).1 ∗ owns (c : Thread nD τ) scM1_1 fullShare (scrAt1 V c n hn).2 ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scrAt1 V c (n - 1) (by omega)).1 ∗ owns (c : Thread nD τ) scM1_1 fullShare (scrAt1 V c (n - 1) (by omega)).2 ∗ rest1 c) ∗ (∃ r, prngReg c r)) := by
  cases n with
  | zero => exact absurd rfl hz
  | succ n => rfl

/-- The proof data of pipeline 1 on core `c`: the arrays as the region finds them; after the body each input's
    buffer at its block, each output's at its running sum laid into the block (consulted only where the body
    stores it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay4 (scrAt1 V c t.val t.isLt).1
    | ⟨7, _⟩ => k1_pay5 (scrAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay4 (scrAt1 V c t.val t.isLt).1 := by dsimp only [dat1]
theorem after1_7 (c : Dev nD) (t : Fin cfg1.N) : (dat1 V c).after 7 t = k1_pay5 (scrAt1 V c t.val t.isLt).2 := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.Outs.lean ====
/-
  What the two regions leave in their output arrays, as the contents the buffer valuations between @main's items are
  written over: region 0's output array after its last write-back, entered from the contents after the first host
  stretch; region 1's two output arrays after their last write-backs, entered from the contents after the second.
-/
import proofs.«419968_j17102559773294_3_alg».proof.Proof.Gen.KernelIdeal.Regions
import proofs.«419968_j17102559773294_3_alg».proof.Proof.KI.Defs0
import proofs.«419968_j17102559773294_3_alg».proof.Proof.KI.Defs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents region 0 is entered from (after the first host stretch), read at a reference. -/
abbrev VR1 (c : Dev nD) (b : Ref sig .tc) : Buf (Elt F) ((c : Thread nD τ).loc b) := Gen.V1 m c b

/-- Region 0's output array after the region; every other reference is a placeholder nobody reads. -/
def outsA : Gen.Outs (F := F) := fun _ r c =>
  if h : r = main_v2 then h ▸ ((dat0 (VR1 m) c).arrAt 2 cfg0.N) else m ((c : Thread nD τ).loc r)

/-- The buffer contents region 1 is entered from (after the second host stretch), read at a reference. -/
abbrev VR3 (c : Dev nD) (b : Ref sig .tc) : Buf (Elt F) ((c : Thread nD τ).loc b) := Gen.V3 m (outsA m) c b

/-- What the regions leave: region 0's output array (read after item 1), region 1's two (read after item 3). -/
def outs : Gen.Outs (F := F) := fun J r c =>
  if J = 2 then outsA m J r c
  else if h0 : r = main_v10_0 then h0 ▸ ((dat1 (VR3 m) c).arrAt 6 cfg1.N)
  else if h1 : r = main_v10_1 then h1 ▸ ((dat1 (VR3 m) c).arrAt 7 cfg1.N)
  else m ((c : Thread nD τ).loc r)

theorem outs_v2 (c : Dev nD) : outs m 2 main_v2 c = (dat0 (VR1 m) c).arrAt 2 cfg0.N := by
  simp only [outs, outsA, if_true, dite_true]
theorem outs_v10_0 (c : Dev nD) : outs m 4 main_v10_0 c = (dat1 (VR3 m) c).arrAt 6 cfg1.N := by
  simp only [outs, dite_true]; rfl
theorem outs_v10_1 (c : Dev nD) : outs m 4 main_v10_1 c = (dat1 (VR3 m) c).arrAt 7 cfg1.N := by
  simp only [outs]; rfl

/-- The contents after item 1 and after item 2 do not depend on what region 1 leaves. -/
theorem V2_outs (c : Dev nD) : Gen.V2 m (outs m) c = Gen.V2 m (outsA m) c := rfl
theorem V3_outs (c : Dev nD) : Gen.V3 m (outs m) c = Gen.V3 m (outsA m) c := rfl

end Cert.KernelIdeal.Hand

end
-- ==== Proof.KI.Obl0.lean ====
/-
  Region 0 (the cross-entropy kernel): the body obligation at the buffer contents `V` the region is entered from.
  Within a core's sixteen tiles the body does one of three things. At the first tile it resets the 1x1 scratch to
  zero and stores the tile's update of zero; at a middle tile it stores the tile's update of the running sum the
  tile before left; at the last tile it does the same and then lays the updated sum into entry (0,0) of the
  otherwise zero 8x128 output block. Each is stated as a triple with the buffers' contents after it written out
  over the payload terms; a whole-block store read back is its payload. The output window is idle away from a
  core's last tile: its buffer is handed back as found. The other region's scoped buffers ride through untouched.
-/
import proofs.«419968_j17102559773294_3_alg».proof.Proof.KI.Defs0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block access, as a constant function. -/
theorem hz0 : (![0, 0] : Fin 2 → Nat) = fun _ => 0 := funext fun a => by fin_cases a <;> rfl

/-- A last store through the whole-block rectangle covers the block, whatever came before it. -/
theorem cover_last0 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons.mpr (Or.inl rfl), View.mem_set_unit_zero h inb y⟩

set_option maxHeartbeats 1000000 in
/-- The body at a core's first tile (first branch taken, second not): the logits and labels blocks are read and
    left as they were, the output block is not touched, and the scratch, whatever it held, ends at the tile's
    update of zero. -/
theorem runA0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : cond0_0 i) (hc1 : ¬cond0_1 i)
    (x0 : Vec F S384x5000 .f32) (x1 : Vec F S384x1 .i32) (xi2 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare xi2
          ∗ (∃ d, owns (c : Thread nD τ) arg5 fullShare d)
          ∗ (iprop(owns (c : Thread nD τ) arg2 fullShare x0 ∗ owns (c : Thread nD τ) arg3 fullShare x1 ∗ owns (c : Thread nD τ) arg4 fullShare xi2
              ∗ owns (c : Thread nD τ) arg5 fullShare (k0_pay2 x0 x1 k0_pay1)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, View.ld_unit_zero (S := S384x5000) hz0,
    View.ld_unit_zero (S := S384x1) hz0, View.readCov_unit_zero (S := S1x1) _ hz0]

set_option maxHeartbeats 1000000 in
/-- The body at a tile that is neither a core's first nor its last (neither branch taken): the input blocks are
    read and left as they were, the output block is not touched, and the scratch goes from the running sum `xs0`
    to the tile's update of it. -/
theorem runB0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : ¬cond0_0 i) (hc1 : ¬cond0_1 i)
    (x0 : Vec F S384x5000 .f32) (x1 : Vec F S384x1 .i32) (xi2 : Vec F S8x128 .f32) (xs0 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare xi2
          ∗ owns (c : Thread nD τ) arg5 fullShare xs0
          ∗ (iprop(owns (c : Thread nD τ) arg2 fullShare x0 ∗ owns (c : Thread nD τ) arg3 fullShare x1 ∗ owns (c : Thread nD τ) arg4 fullShare xi2
              ∗ owns (c : Thread nD τ) arg5 fullShare (k0_pay2 x0 x1 xs0)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, harg5.read_unread, View.ld_unit_zero (S := S384x5000) hz0,
    View.ld_unit_zero (S := S384x1) hz0, View.ld_unit_zero (S := S1x1) hz0, View.readCov_unit_zero (S := S1x1) _ hz0]

set_option maxHeartbeats 1000000 in
/-- The body at a core's last tile (first branch not taken, second taken): the input blocks are read and left as
    they were, the scratch goes from the running sum `xs0` to the tile's update of it, and the output block,
    whatever it held, ends at that updated sum laid into the block. -/
theorem runC0 (c : Dev nD) (i : grid0.Coords)
    (arg2 : Memref sig .tc .vmem S384x5000 .f32) (harg2 : arg2.IsWhole)
    (arg3 : Memref sig .tc .vmem S384x1 .i32) (harg3 : arg3.IsWhole)
    (arg4 : Memref sig .tc .vmem S8x128 .f32) (harg4 : arg4.IsWhole)
    (arg5 : Memref sig .tc .vmem S1x1 .f32) (harg5 : arg5.IsWhole)
    (hc0 : ¬cond0_0 i) (hc1 : cond0_1 i)
    (x0 : Vec F S384x5000 .f32) (x1 : Vec F S384x1 .i32) (xs0 : Vec F S1x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
          ∗ owns (c : Thread nD τ) arg5 fullShare xs0
          ∗ (iprop(owns (c : Thread nD τ) arg2 fullShare x0 ∗ owns (c : Thread nD τ) arg3 fullShare x1
              ∗ owns (c : Thread nD τ) arg4 fullShare (k0_pay3 (k0_pay2 x0 x1 xs0))
              ∗ owns (c : Thread nD τ) arg5 fullShare (k0_pay2 x0 x1 xs0)) -∗ K ⟨⟩))
      ⊢ wp frame (wpE (defs₀ (F := F)) Variants.none c none) E (cc0__ce_kernel i arg2 harg2 arg3 harg3 arg4 harg4 arg5 harg5) K := by
  simp only [cc0__ce_kernel_eq_skeleton]; unfold cc0__ce_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (cover_last0 hz0 _ _ _), View.canon_cons_unit_zero hz0]
    simp only [View.readAt_eq_ld, harg2.read_unread, harg3.read_unread, harg5.read_unread, View.ld_unit_zero (S := S384x5000) hz0,
      View.ld_unit_zero (S := S384x1) hz0, View.ld_unit_zero (S := S1x1) hz0, View.readCov_unit_zero (S := S1x1) _ hz0]
  iexists _; isplitr
  swap; · iexact HS0
  ipureintro
  sl_unfold_words
  rw [View.read_writes_eq_canon _ _ _ (cover_last0 hz0 _ _ _), View.canon_cons_unit_zero hz0]
  simp only [View.readAt_eq_ld, harg2.read_unread, harg3.read_unread, harg5.read_unread, View.ld_unit_zero (S := S384x5000) hz0,
    View.ld_unit_zero (S := S384x1) hz0, View.ld_unit_zero (S := S1x1) hz0, View.readCov_unit_zero (S := S1x1) _ hz0]

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last tile the output window is idle: the body stores nothing into it, -/
theorem idleAt0_2 : ∀ t : Fin cfg0.N, ¬cond0_1 (grid0.coords t) → cfg0.idle 2 (grid0.coords t) = true := by decide +kernel
/-- and the pipeline does not write its block back there. -/
theorem noFlush0_2 : ∀ t : Fin cfg0.N, ¬cond0_1 (grid0.coords t) → (cfg0.win 2).flush t = false := by decide +kernel
/-- At a core's last tile the output window is live. -/
theorem liveAt0_2 : ∀ t : Fin cfg0.N, cond0_1 (grid0.coords t) → cfg0.idle 2 (grid0.coords t) = false := by decide +kernel

/-! ## The staging memrefs and the invariant -/

/-- Each window's current staging memref at point `t`, spelled as the pipeline passes it, and its wholeness. -/
abbrev ms0_0 (t : Fin cfg0.N) : Memref sig .tc .vmem S384x5000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- What the launch hands the region, with the scratch split off as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [scM0_0, owns_whole]
  rfl

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's position within its core's sixteen
    tiles says which of the three runs applies; the invariant hands the body the scratch at the running sum the
    point before left (at anything at a core's first tile) and takes it back at this point's; the other scoped
    buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [scrAt0_next V c t h0]
    rw [PhiS0_castSucc V c t, PhiS0_pos V c _ _ hz]
    iintro ⟨⟨⟨HS0, Hr⟩, Hg⟩, Ho, ⟨%d0, H0⟩, ⟨%d1, H1⟩, ⟨%d2, H2⟩⟩
    iapply (runC0 c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    iexact H2
  · have hn1 : ¬cond0_1 (grid0.coords t) := fun h => h1 ((hcond0_1 t).mp h)
    rw [Dat.leavesExact_idle (dat0 V c) 2 t (idleAt0_2 t hn1) (noFlush0_2 t hn1)]
    by_cases h0 : t.val % 16 = 0
    · rw [scrAt0_first V c t h0]
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply (runA0 c (grid0.coords t) _ _ _ _ _ _ _ _ ((hcond0_0 t).mpr h0) hn1 (iblk0 V c 0 t) (iblk0 V c 1 t) _ Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply (runA0 c (grid0.coords t) _ _ _ _ _ _ _ _ ((hcond0_0 t).mpr h0) hn1 (iblk0 V c 0 t) (iblk0 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
    · have hz : t.val ≠ 0 := fun e => h0 (by rw [e])
      rw [scrAt0_next V c t h0]
      rw [PhiS0_castSucc V c t, PhiS0_pos V c _ _ hz]
      iintro ⟨⟨⟨HS0, Hr⟩, Hg⟩, Ho, ⟨%d0, H0⟩, ⟨%d1, H1⟩, ⟨%d2, H2⟩⟩
      iapply (runB0 c (grid0.coords t) _ _ _ _ _ _ _ _ (fun h => h0 ((hcond0_0 t).mp h)) hn1 (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the running sum in the scratch is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]; · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.Obl1.lean ====
/-
  Region 1 (the distance kernel): the body obligation of its pipeline at the buffer contents `V` the region is
  entered from. The body has three cases by the tile's position within its core's row of eight — the first tile
  (the two running sums are reset, then updated), a middle tile (updated), the last tile (updated, then each laid
  into its 8x128 output block) — and each case's run is stated with its result written over the kernel's payload
  terms: what the stores leave in a buffer is read back as the payload of the last whole-buffer store. The region
  invariant carries the two sums from point to point; the six input windows hold their blocks at every point; off
  the last tile the output windows are idle and go back untouched.
-/
import proofs.«419968_j17102559773294_3_alg».proof.Proof.KI.Defs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores read back -/

/-- The zero offsets of a whole-buffer access of rank two. -/
theorem hz1 : (![0, 0] : Fin 2 → Nat) = fun _ => 0 := funext fun a => by fin_cases a <;> rfl

/-- A list of stores whose last one (the head) is through the whole-shape rectangle covers the shape. -/
theorem cover_head1 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

/-! ## The body's three cases -/

set_option maxHeartbeats 1000000 in
/-- CASE A, a core's first tile (the first branch taken, the second not). On whole memrefs — the six inputs at their
    blocks, the two output blocks at any contents `xi6`, `xi7`, the two scratch sums at anything — the body runs to
    the continuation with the inputs and the output blocks as they were and each scratch at one tile's update of the
    zero sum: the reset stores zero, the update reads it back and stores the new sum over it. -/
theorem run1_A (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xi6 : Vec F S8x128 .f32) (xi7 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare (k1_pay1 (k1_pay9 x0 x3 x4 x5) (k1_pay10 x0 x3 x4) k1_pay6)
            ∗ owns (c : Thread nD τ) arg11 fullShare (k1_pay2 x0 x1 x2 k1_pay7)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [H7]
  · iexists _; isplitr; · ipureintro; exact hf7
    iexact H7
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

set_option maxHeartbeats 1000000 in
/-- CASE B, a middle tile (neither branch taken). The scratch sums enter at `xs0`, `xs1` and leave at one tile's
    update of them; the inputs and the two output blocks are handed back as they were. -/
theorem run1_B (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xi6 : Vec F S8x128 .f32) (xi7 : Vec F S8x128 .f32) (xs0 : Vec F S1x1 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare (k1_pay1 (k1_pay9 x0 x3 x4 x5) (k1_pay10 x0 x3 x4) xs0)
            ∗ owns (c : Thread nD τ) arg11 fullShare (k1_pay2 x0 x1 x2 xs1)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0; obtain rfl := harg11.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [H7]
  · iexists _; isplitr; · ipureintro; exact hf7
    iexact H7
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

set_option maxHeartbeats 1000000 in
/-- CASE C, a core's last tile (the first branch not taken, the second taken). The scratch sums enter at `xs0`,
    `xs1` and leave at one tile's update of them; each output block, whatever it held, leaves at its updated sum laid
    into the block's corner entry (zero elsewhere): the store reads the scratch back after the update. -/
theorem run1_C (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S5000x1024 .bf16) (harg5 : arg5.IsWhole) (arg6 : Memref sig .tc .vmem S1x5000 .f32) (harg6 : arg6.IsWhole) (arg7 : Memref sig .tc .vmem S256x1 .i32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S256x1024 .f32) (x1 : Vec F S256x1024 .f32) (x2 : Vec F S256x1024 .f32) (x3 : Vec F S5000x1024 .bf16) (x4 : Vec F S1x5000 .f32) (x5 : Vec F S256x1 .i32) (xs0 : Vec F S1x1 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay4 (k1_pay1 (k1_pay9 x0 x3 x4 x5) (k1_pay10 x0 x3 x4) xs0))
            ∗ owns (c : Thread nD τ) arg9 fullShare (k1_pay5 (k1_pay2 x0 x1 x2 xs1))
            ∗ owns (c : Thread nD τ) arg10 fullShare (k1_pay1 (k1_pay9 x0 x3 x4 x5) (k1_pay10 x0 x3 x4) xs0)
            ∗ owns (c : Thread nD τ) arg11 fullShare (k1_pay2 x0 x1 x2 xs1)) -∗ K ⟨⟩))
      ⊢ wp frame (wpE (defs₀ (F := F)) Variants.none c none) E (cc1__dist_kernel i arg2 harg2 arg3 harg3 arg4 harg4 arg5 harg5 arg6 harg6 arg7 harg7 arg8 harg8 arg9 harg9 arg10 harg10 arg11 harg11) K := by
  simp only [cc1__dist_kernel_eq_skeleton]; unfold cc1__dist_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0; obtain rfl := harg11.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    refine (View.read_writes_eq_canon _ _ _ (cover_head1 hz1 _ _ _)).trans ?_
    rw [View.canon_cons_unit_zero (S := S8x128) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  isplitl [H7]
  · iexists _; isplitr
    swap; · iexact H7
    ipureintro
    sl_unfold_words
    refine (View.read_writes_eq_canon _ _ _ (cover_head1 hz1 _ _ _)).trans ?_
    rw [View.canon_cons_unit_zero (S := S8x128) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  isplitl [HS0]
  · iexists _; isplitr
    swap; · iexact HS0
    ipureintro
    sl_unfold_words
    refine (View.read_writes_eq_canon _ _ _ (cover_head1 hz1 _ _ _)).trans ?_
    rw [View.canon_cons_unit_zero (S := S1x1) hz1]
    simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]
  iexists _; isplitr
  swap; · iexact HS1
  ipureintro
  sl_unfold_words
  refine (View.read_writes_eq_canon _ _ _ (cover_head1 hz1 _ _ _)).trans ?_
  rw [View.canon_cons_unit_zero (S := S1x1) hz1]
  simp only [View.readAt_eq_ld, harg2.read_unread, harg3.read_unread, harg4.read_unread, harg5.read_unread, harg6.read_unread, harg7.read_unread, View.ld_unit_zero (S := S256x1024) hz1, View.ld_unit_zero (S := S5000x1024) hz1, View.ld_unit_zero (S := S1x5000) hz1, View.ld_unit_zero (S := S256x1) hz1, View.ld_unit_zero (S := S1x1) hz1, harg10.read_unread, harg11.read_unread, View.readCov_unit_zero (S := S1x1) _ hz1]

variable (V : (c : Dev nD) → (b : Ref sig .tc) → Buf (Elt F) ((c : Thread nD τ).loc b))

/-! ## What the body finds in the input windows' buffers -/

/-- Each input window's current staging buffer holds the window's block at every point, fetched there or not
    (the exemplars and their squared norms are fetched once, at a core's first point, and stay resident). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## Where the output windows are idle -/

/-- An input window is never idle. -/
theorem liveAt1_in (w : Fin cfg1.W) (hw : w.val < 6) (t : Fin cfg1.N) : cfg1.idle w (grid1.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
/-- Off a core's last tile the body stores nothing into the two output blocks, -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
/-- and the pipeline does not write them back there; -/
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
/-- at the last tile it stores both. -/
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-! ## The staging memrefs and the invariant at the first point -/

/-- Each window's current staging memref at point `t`, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x128 .f32 := win1_7.stage (cfg1.slots t 7)
abbrev hs1_7 (t : Fin cfg1.N) : (ms1_7 t).IsWhole := hstage1_7 ((cfg1.slots t 7).cast nbuf1_7)

/-- What the launch hands the region, split at the region's two scratch buffers: each at some contents, every other
    scoped buffer unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [Pipeline.scopedRest_split_of_list spec1 c [cc1_scratch0, cc1_scratch1] (by decide) (by decide)]
  simp only [scM1_0, scM1_1, owns_whole]; rfl

/-! ## The body obligation, at a generic point -/

/-- What the body is called with at point `t`: the invariant, the core's debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' buffers hold their blocks; the point's position within its core's row says
    which case runs; the invariant hands over the two running sums as the point before left them (at anything at a
    core's first tile, where the body resets them) and takes them back at this point's; off the last tile the output
    buffers go back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [scrAt1_first V c t h0]
    dsimp only
    unfold upd1_0 upd1_1
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [show (dat1 V c).leavesExact 7 t = owns (c : Thread nD τ) (ms1_7 t) fullShare ((dat1 V c).after 7 t) from by
        unfold Dat.leavesExact; rw [liveAt1_7 t ((hcond1_1 t).mpr h1)], after1_7]
      rw [scrAt1_next V c t h0]
      dsimp only
      unfold upd1_0 upd1_1
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [scrAt1_next V c t h0]
      dsimp only
      unfold upd1_0 upd1_1
      rw [PhiS1_castSucc V c t, PhiS1_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the running sums' values are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hr⟩, Hg⟩
  isplitr [Hg]
  · isplitr [Hr]
    · isplitl [HS0]
      · iexists _; iexact HS0
      iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Run.lean ====
/-
  The program's launch. @main is: a host stretch (the labels concatenated and laid out as a column), the
  cross-entropy region, a host stretch (its output summed and divided by the row count; the exemplars narrowed, their
  squared norms; the anchor labels as a column), the distance region, a last host stretch (the two outputs summed,
  the weighted total). Between two items every unscoped buffer of the core is held at a known valuation: the launch
  contents, then the host stretch's operations applied, then a region's output arrays replaced by what its
  write-backs leave (the proof data's arrays after the last point). Each region enters the pipeline rule with its
  arrays split out of that valuation and returns them to it; the generator register and the core's empty debt ride
  along. The run ends with every unscoped buffer at the last valuation, read against the final memory.
-/
import proofs.«419968_j17102559773294_3_alg».proof.Proof.KI.Outs
import proofs.«419968_j17102559773294_3_alg».proof.Proof.KI.Obl0
import proofs.«419968_j17102559773294_3_alg».proof.Proof.KI.Obl1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The contents after region 0 and after region 1, read at a reference. -/
abbrev VR2 (c : Dev nD) (b : Ref sig .tc) : Buf (Elt F) ((c : Thread nD τ).loc b) := Gen.V2 m (outs m) c b
abbrev VR3' (c : Dev nD) (b : Ref sig .tc) : Buf (Elt F) ((c : Thread nD τ).loc b) := Gen.V3 m (outs m) c b
abbrev VR4 (c : Dev nD) (b : Ref sig .tc) : Buf (Elt F) ((c : Thread nD τ).loc b) := Gen.V4 m (outs m) c b

/-! ## A region's arrays at its exit are the next valuation's -/

theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (Gen.V2_of m (outs m) c main_arg3 (by decide)).symm)
  | ⟨1, _⟩ => exact ((dat0 (VR1 m) c).arrAt_in 1 rfl _).trans ((A_eq0 (VR1 m) c 1).trans (Gen.V2_of m (outs m) c main_v1 (by decide)).symm)
  | ⟨2, _⟩ =>
    show _ = Function.update (Gen.V1 m c) main_v2 (outs m 2 main_v2 c) main_v2
    rw [Function.update_self, outs_v2]; rfl
theorem hrest0 (c : Dev nD) : ∀ b, b ∉ Finset.univ.image (Pipeline.arrRef spec0) → VR2 m c b = VR1 m c b :=
  fun b hb => Gen.V2_of m (outs m) c b (by
    intro h; rw [List.mem_singleton] at h; subst h
    exact hb (Finset.mem_image.mpr ⟨2, Finset.mem_univ _, rfl⟩))

theorem hF1 (c : Dev nD) (w : Fin cfg1.W) : (dat1 (VR3 m) c).arrAt w cfg1.N = VR4 m c (Pipeline.arrRef spec1 w) := by
  match w with
  | ⟨0, _⟩ => exact ((dat1 (VR3 m) c).arrAt_in 0 rfl _).trans ((A_eq1 (VR3 m) c 0).trans (Gen.V4_of m (outs m) c main_arg0 (by decide)).symm)
  | ⟨1, _⟩ => exact ((dat1 (VR3 m) c).arrAt_in 1 rfl _).trans ((A_eq1 (VR3 m) c 1).trans (Gen.V4_of m (outs m) c main_arg1 (by decide)).symm)
  | ⟨2, _⟩ => exact ((dat1 (VR3 m) c).arrAt_in 2 rfl _).trans ((A_eq1 (VR3 m) c 2).trans (Gen.V4_of m (outs m) c main_arg2 (by decide)).symm)
  | ⟨3, _⟩ => exact ((dat1 (VR3 m) c).arrAt_in 3 rfl _).trans ((A_eq1 (VR3 m) c 3).trans (Gen.V4_of m (outs m) c main_v5 (by decide)).symm)
  | ⟨4, _⟩ => exact ((dat1 (VR3 m) c).arrAt_in 4 rfl _).trans ((A_eq1 (VR3 m) c 4).trans (Gen.V4_of m (outs m) c main_v8 (by decide)).symm)
  | ⟨5, _⟩ => exact ((dat1 (VR3 m) c).arrAt_in 5 rfl _).trans ((A_eq1 (VR3 m) c 5).trans (Gen.V4_of m (outs m) c main_v9 (by decide)).symm)
  | ⟨6, _⟩ =>
    show _ = Function.update (Function.update (Gen.V3 m (outs m) c) main_v10_0 (outs m 4 main_v10_0 c)) main_v10_1 (outs m 4 main_v10_1 c) main_v10_0
    rw [Function.update_of_ne (StableHlo.devRef_ne_of_ne (by decide) : (Proc.devRef .tc main_v10_0 : DevRef τ sig) ≠ Proc.devRef .tc main_v10_1),
      Function.update_self, outs_v10_0]; rfl
  | ⟨7, _⟩ =>
    show _ = Function.update (Function.update (Gen.V3 m (outs m) c) main_v10_0 (outs m 4 main_v10_0 c)) main_v10_1 (outs m 4 main_v10_1 c) main_v10_1
    rw [Function.update_self, outs_v10_1]; rfl
theorem hrest1 (c : Dev nD) : ∀ b, b ∉ Finset.univ.image (Pipeline.arrRef spec1) → VR4 m c b = VR3' m c b :=
  fun b hb => Gen.V4_of m (outs m) c b (by
    intro h; rw [List.mem_cons, List.mem_singleton] at h
    rcases h with h | h
    · subst h; exact hb (Finset.mem_image.mpr ⟨6, Finset.mem_univ _, rfl⟩)
    · subst h; exact hb (Finset.mem_image.mpr ⟨7, Finset.mem_univ _, rfl⟩))

/-! ## The regions as segments -/

set_option backward.isDefEq.respectTransparency.types false in
/-- Region 0 over the thread state: entered from every unscoped buffer at the contents after the first host stretch,
    left with its output array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    rw [Pipeline.ownSems0_none]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the second host stretch,
    left with its two output arrays replaced. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR3 m) c)
    unfold Pipeline.ΦA
    iintro ⟨Hp, -, Hr⟩
    isplitl [Hr]; · iexact Hr
    iexact Hp
  hout c := by
    rw [Pipeline.ownSems0_none]
    refine BIBase.Entails.trans (hout1 (VR3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (VR4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items on core `c`: the three host stretches from their boundary's contents, the two regions. -/
abbrev segs (c : Dev nD) : List (Pipeline.Seg (pcfgs (F := F)) adm (pdats m) () defs₀ 𝒱₀ L lv) :=
  Gen.segs m (outs m) 𝒱₀ L lv (fun _ => R) () (pdats m) (reg0 m) (reg1 m) c

/-- After the last host stretch: the buffers and the generator register are what the run ends with, beside the
    core owing nothing. -/
theorem hlast (c : Dev nD) :
    (iprop(StableHlo.held (c : Thread nD τ) (Pipeline.ucRefs τ sig) (Gen.V5 m (outs m) c) ∗ R c) : sProp 𝕄)
      ⊢ iprop(iprop(StableHlo.held (c : Thread nD τ) (Pipeline.ucRefs τ sig) (Gen.V5 m (outs m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of @main terminates, and the final memory
    holds every unscoped buffer of every core at the last valuation: the launch contents with the three host stretches
    applied and the regions' output arrays at what their write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V5 m (outs m) c b) :=
  Pipeline.θ_run_regions_kit_dev (pcfgs (F := F)) adm (pdats m) () cellOf_inj emb₁ defs₀ 𝒱₀ L lv m ρ main (segs m)
    (fun c Q => by
      rewrite [main_chain c, Pipeline.Seg.run_eq_chain,
        show (segs m c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c)⟩) (run_all m ρ)

end Cert.KernelIdeal.Hand

end
-- ==== Proof.RefStagesSoft.lean ====
/-
  The reference's softmax leg, stretch by stretch: what each stretch of the line leaves in the buffers read later, from any
  contents entering it that hold the earlier stages. A stretch is opened into its operations, each operation's result
  is read at its buffer, the typed references' transports cancel, and what is left is the stage's definition.
-/
import proofs.«419968_j17102559773294_3_alg».proof.Proof.RefRead

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

local notation "⟪" r "⟫" => Proc.devRef Proc.tc r

/-! ## The softmax leg -/

/-- A typed reference's transport there and back is the identity. -/
theorem ofBuf_toBuf {T : BufTy} (x : TRef sig T) (v : T.Contents (Elt F)) : x.ofBuf (x.toBuf v) = v := by
  obtain ⟨r, rfl, _, _⟩ := x; rfl

set_option maxRecDepth 65536 in
theorem S1_v0 (W : Valuation τ sig (Elt F)) (x4 x5 : (⟨S4096, .i32⟩ : BufTy).Contents (Elt F))
    (h4 : W ⟪main_arg4⟫ = x4) (h5 : W ⟪main_arg5⟫ = x5) :
    after (((ops (F := F)).drop 0).take 9) W ⟪main_v0⟫ = val_main_v0 (F := F) x4 x5 := by
  simp only [ops, List.drop_succ_cons, List.drop_zero, List.take_succ_cons, List.take_zero]
  after_results
  subst h4 h5
  rfl

set_option maxRecDepth 65536 in
/-- The row maxima subtracted, read through the typed references: every transport cancels, and what is left is the
    stages' definitions. -/
theorem S1_c0v5_typed (W : Valuation τ sig (Elt F)) :
    (TRef.of (T := ⟨S12288x5000, .f32⟩) main_call0_v5).ofBuf (after (((ops (F := F)).drop 0).take 9) W ⟪main_call0_v5⟫)
      = val_main_call0_v5 (F := F) ((TRef.of (T := ⟨S12288x5000, .f32⟩) main_arg3).ofBuf (W ⟪main_arg3⟫)) := by
  simp only [ops, List.drop_succ_cons, List.drop_zero, List.take_succ_cons, List.take_zero]
  after_results
  simp only [ofBuf_toBuf]
  unfold val_main_call0_v5 val_main_call0_v4 val_main_call0_v3 val_main_call0_v2 val_main_call0_v1 val_main_call0_v0
    val_main_call0_cst val_main_call0_cst_0
  rfl

theorem S1_c0v5 (W : Valuation τ sig (Elt F)) (x3 : (⟨S12288x5000, .f32⟩ : BufTy).Contents (Elt F)) (h3 : W ⟪main_arg3⟫ = x3) :
    after (((ops (F := F)).drop 0).take 9) W ⟪main_call0_v5⟫ = val_main_call0_v5 (F := F) x3 := by
  subst h3
  exact S1_c0v5_typed W

set_option maxRecDepth 65536 in
theorem S2_v1 (W : Valuation τ sig (Elt F)) (x3 : (⟨S12288x5000, .f32⟩ : BufTy).Contents (Elt F))
    (h5 : W ⟪main_call0_v5⟫ = val_main_call0_v5 (F := F) x3) :
    after (((ops (F := F)).drop 9).take 8) W ⟪main_v1⟫ = val_main_v1 (F := F) x3 := by
  simp only [ops, List.drop_succ_cons, List.drop_zero, List.take_succ_cons, List.take_zero]
  after_results
  rw [h5]
  rfl

set_option maxRecDepth 65536 in
theorem S2_v2 (W : Valuation τ sig (Elt F)) (x4 x5 : (⟨S4096, .i32⟩ : BufTy).Contents (Elt F))
    (h0 : W ⟪main_v0⟫ = val_main_v0 (F := F) x4 x5) :
    after (((ops (F := F)).drop 9).take 8) W ⟪main_v2⟫ = val_main_v2 (F := F) x4 x5 := by
  simp only [ops, List.drop_succ_cons, List.drop_zero, List.take_succ_cons, List.take_zero]
  after_results
  rw [h0]
  rfl

set_option maxRecDepth 65536 in
theorem S3_c1v5 (W : Valuation τ sig (Elt F)) (x4 x5 : (⟨S4096, .i32⟩ : BufTy).Contents (Elt F))
    (h2 : W ⟪main_v2⟫ = val_main_v2 (F := F) x4 x5) :
    after (((ops (F := F)).drop 17).take 8) W ⟪main_call1_v5⟫ = val_main_call1_v5 (F := F) x4 x5 := by
  simp only [ops, List.drop_succ_cons, List.drop_zero, List.take_succ_cons, List.take_zero]
  after_results
  rw [h2]
  rfl

set_option maxRecDepth 65536 in
theorem S4_c1v12 (W : Valuation τ sig (Elt F)) (x4 x5 : (⟨S4096, .i32⟩ : BufTy).Contents (Elt F))
    (h5 : W ⟪main_call1_v5⟫ = val_main_call1_v5 (F := F) x4 x5) :
    after (((ops (F := F)).drop 25).take 10) W ⟪main_call1_v12⟫ = val_main_call1_v12 (F := F) x4 x5 := by
  simp only [ops, List.drop_succ_cons, List.drop_zero, List.take_succ_cons, List.take_zero]
  after_results
  simp only [cast_eq]
  rw [h5]
  rfl

set_option maxRecDepth 65536 in
theorem S5_v6 (W : Valuation τ sig (Elt F)) (x3 : (⟨S12288x5000, .f32⟩ : BufTy).Contents (Elt F))
    (x4 x5 : (⟨S4096, .i32⟩ : BufTy).Contents (Elt F)) (h1 : W ⟪main_v1⟫ = val_main_v1 (F := F) x3)
    (h5 : W ⟪main_call1_v5⟫ = val_main_call1_v5 (F := F) x4 x5)
    (h12 : W ⟪main_call1_v12⟫ = val_main_call1_v12 (F := F) x4 x5) :
    after (((ops (F := F)).drop 35).take 9) W ⟪main_v6⟫ = val_main_v6 (F := F) x3 x4 x5 := by
  simp only [ops, List.drop_succ_cons, List.drop_zero, List.take_succ_cons, List.take_zero]
  after_results
  rw [h1, h5, h12]
  rfl

set_option maxRecDepth 65536 in
/-- The log-probabilities pass the wrapped-label stretch and the range-test stretch. -/
theorem pass_v1 (W : Valuation τ sig (Elt F)) :
    after (((ops (F := F)).drop 17).take 18) W ⟪main_v1⟫ = W ⟪main_v1⟫ := by
  simp only [ops, List.drop_succ_cons, List.drop_zero, List.take_succ_cons, List.take_zero]
  after_results

set_option maxRecDepth 65536 in
theorem pass_c1v5 (W : Valuation τ sig (Elt F)) :
    after (((ops (F := F)).drop 25).take 10) W ⟪main_call1_v5⟫ = W ⟪main_call1_v5⟫ := by
  simp only [ops, List.drop_succ_cons, List.drop_zero, List.take_succ_cons, List.take_zero]
  after_results

end Cert.ReferenceIdeal.Stages

end
-- ==== Proof.RefStagesCenter.lean ====
/-
  The reference's center leg, stretch by stretch: what each stretch of the line leaves in the buffers read later, from any
  contents entering it that hold the earlier stages. A stretch is opened into its operations, each operation's result
  is read at its buffer, the typed references' transports cancel, and what is left is the stage's definition.
-/
import proofs.«419968_j17102559773294_3_alg».proof.Proof.RefRead

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

local notation "⟪" r "⟫" => Proc.devRef Proc.tc r

/-! ## The center leg -/

set_option maxRecDepth 65536 in
theorem C1_v15 (W : Valuation τ sig (Elt F)) (x0 : (⟨S4096x1024, .f32⟩ : BufTy).Contents (Elt F))
    (x6 : (⟨S5000x1024, .f32⟩ : BufTy).Contents (Elt F)) (h0 : W ⟪main_arg0⟫ = x0) (h6 : W ⟪main_arg6⟫ = x6) :
    after (((ops (F := F)).drop 44).take 11) W ⟪main_v15⟫ = val_main_v15 (F := F) x0 x6 := by
  simp only [ops, List.drop_succ_cons, List.drop_zero, List.take_succ_cons, List.take_zero]
  after_results
  subst h0 h6
  rfl

set_option maxRecDepth 65536 in
theorem C2_v23 (W : Valuation τ sig (Elt F)) (x0 : (⟨S4096x1024, .f32⟩ : BufTy).Contents (Elt F))
    (x6 : (⟨S5000x1024, .f32⟩ : BufTy).Contents (Elt F)) (h0 : W ⟪main_arg0⟫ = x0) (h6 : W ⟪main_arg6⟫ = x6)
    (h15 : W ⟪main_v15⟫ = val_main_v15 (F := F) x0 x6) :
    after (((ops (F := F)).drop 55).take 11) W ⟪main_v23⟫ = val_main_v23 (F := F) x0 x6 := by
  simp only [ops, List.drop_succ_cons, List.drop_zero, List.take_succ_cons, List.take_zero]
  after_results
  subst h0 h6
  rw [h15]
  rfl

set_option maxRecDepth 65536 in
theorem C2_v24 (W : Valuation τ sig (Elt F)) (x4 : (⟨S4096, .i32⟩ : BufTy).Contents (Elt F)) (h4 : W ⟪main_arg4⟫ = x4) :
    after (((ops (F := F)).drop 55).take 11) W ⟪main_v24⟫ = val_main_v24 (F := F) x4 := by
  simp only [ops, List.drop_succ_cons, List.drop_zero, List.take_succ_cons, List.take_zero]
  after_results
  subst h4
  rfl

set_option maxRecDepth 65536 in
theorem C3_c2v5 (W : Valuation τ sig (Elt F)) (x4 : (⟨S4096, .i32⟩ : BufTy).Contents (Elt F))
    (h24 : W ⟪main_v24⟫ = val_main_v24 (F := F) x4) :
    after (((ops (F := F)).drop 66).take 8) W ⟪main_call2_v5⟫ = val_main_call2_v5 (F := F) x4 := by
  simp only [ops, List.drop_succ_cons, List.drop_zero, List.take_succ_cons, List.take_zero]
  after_results
  rw [h24]
  try simp only [cast_cast, cast_eq]
  rfl

set_option maxRecDepth 65536 in
theorem C4_c2v12 (W : Valuation τ sig (Elt F)) (x4 : (⟨S4096, .i32⟩ : BufTy).Contents (Elt F))
    (h5 : W ⟪main_call2_v5⟫ = val_main_call2_v5 (F := F) x4) :
    after (((ops (F := F)).drop 74).take 10) W ⟪main_call2_v12⟫ = val_main_call2_v12 (F := F) x4 := by
  simp only [ops, List.drop_succ_cons, List.drop_zero, List.take_succ_cons, List.take_zero]
  after_results
  rw [h5]
  try simp only [cast_cast, cast_eq]
  rfl

set_option maxRecDepth 65536 in
theorem C5_v26 (W : Valuation τ sig (Elt F)) (x0 : (⟨S4096x1024, .f32⟩ : BufTy).Contents (Elt F))
    (x4 : (⟨S4096, .i32⟩ : BufTy).Contents (Elt F)) (x6 : (⟨S5000x1024, .f32⟩ : BufTy).Contents (Elt F))
    (h23 : W ⟪main_v23⟫ = val_main_v23 (F := F) x0 x6) (h5 : W ⟪main_call2_v5⟫ = val_main_call2_v5 (F := F) x4)
    (h12 : W ⟪main_call2_v12⟫ = val_main_call2_v12 (F := F) x4) :
    after (((ops (F := F)).drop 84).take 7) W ⟪main_v26⟫ = val_main_v26 (F := F) x0 x4 x6 := by
  simp only [ops, List.drop_succ_cons, List.drop_zero, List.take_succ_cons, List.take_zero]
  after_results
  rw [h23, h5, h12]
  try simp only [cast_cast, cast_eq]
  rfl

set_option maxRecDepth 65536 in
theorem C5_v27 (W : Valuation τ sig (Elt F)) (x0 : (⟨S4096x1024, .f32⟩ : BufTy).Contents (Elt F))
    (x6 : (⟨S5000x1024, .f32⟩ : BufTy).Contents (Elt F)) (h23 : W ⟪main_v23⟫ = val_main_v23 (F := F) x0 x6) :
    after (((ops (F := F)).drop 84).take 7) W ⟪main_v27⟫ = val_main_v27 (F := F) x0 x6 := by
  simp only [ops, List.drop_succ_cons, List.drop_zero, List.take_succ_cons, List.take_zero]
  after_results
  rw [h23]
  rfl

set_option maxRecDepth 65536 in
theorem C6_v43 (W : Valuation τ sig (Elt F)) (x0 : (⟨S4096x1024, .f32⟩ : BufTy).Contents (Elt F))
    (x4 : (⟨S4096, .i32⟩ : BufTy).Contents (Elt F)) (x6 : (⟨S5000x1024, .f32⟩ : BufTy).Contents (Elt F))
    (h26 : W ⟪main_v26⟫ = val_main_v26 (F := F) x0 x4 x6) (h27 : W ⟪main_v27⟫ = val_main_v27 (F := F) x0 x6) :
    after (((ops (F := F)).drop 108).take 7) W ⟪main_v43⟫ = val_main_v43 (F := F) x0 x4 x6 := by
  simp only [ops, List.drop_succ_cons, List.drop_zero, List.take_succ_cons, List.take_zero]
  after_results
  rw [h26, h27]
  try simp only [cast_cast, cast_eq]
  rfl

set_option maxRecDepth 65536 in
/-- The distances pass the wrapped-label stretch and the range-test stretch. -/
theorem pass_v23 (W : Valuation τ sig (Elt F)) :
    after (((ops (F := F)).drop 66).take 18) W ⟪main_v23⟫ = W ⟪main_v23⟫ := by
  simp only [ops, List.drop_succ_cons, List.drop_zero, List.take_succ_cons, List.take_zero]
  after_results

set_option maxRecDepth 65536 in
theorem pass_c2v5 (W : Valuation τ sig (Elt F)) :
    after (((ops (F := F)).drop 74).take 10) W ⟪main_call2_v5⟫ = W ⟪main_call2_v5⟫ := by
  simp only [ops, List.drop_succ_cons, List.drop_zero, List.take_succ_cons, List.take_zero]
  after_results

set_option maxRecDepth 65536 in
/-- The labelled distance and the least distance pass the triplet leg. -/
theorem pass_v26 (W : Valuation τ sig (Elt F)) :
    after (((ops (F := F)).drop 91).take 17) W ⟪main_v26⟫ = W ⟪main_v26⟫ := by
  simp only [ops, List.drop_succ_cons, List.drop_zero, List.take_succ_cons, List.take_zero]
  after_results

set_option maxRecDepth 65536 in
theorem pass_v27 (W : Valuation τ sig (Elt F)) :
    after (((ops (F := F)).drop 91).take 17) W ⟪main_v27⟫ = W ⟪main_v27⟫ := by
  simp only [ops, List.drop_succ_cons, List.drop_zero, List.take_succ_cons, List.take_zero]
  after_results

end Cert.ReferenceIdeal.Stages

end
-- ==== Proof.RefStagesRest.lean ====
/-
  No operation of the reference's line writes an argument; the triplet leg and the total, stretch by stretch; and the
  results that pass the later stretches unchanged.
-/
import proofs.«419968_j17102559773294_3_alg».proof.Proof.RefRead

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

local notation "⟪" r "⟫" => Proc.devRef Proc.tc r

/-! ## No operation writes an argument -/

set_option maxRecDepth 65536 in
theorem args_not_written (r : Ref sig .tc)
    (hr : r ∈ ([main_arg0, main_arg1, main_arg2, main_arg3, main_arg4, main_arg5, main_arg6] : List (Ref sig .tc))) :
    (ops (F := F)).Forall fun op => (Proc.devRef .tc r : DevRef τ sig) ∉ op.writes := by
  simp only [ops, List.Forall, nullary_writes, unary_writes, binary_writes, ternary_writes, reshape_writes, nary_writes,
    Finset.mem_singleton]
  simp only [List.mem_cons, List.not_mem_nil, or_false] at hr
  rcases hr with rfl | rfl | rfl | rfl | rfl | rfl | rfl <;>
    (repeat' apply And.intro) <;> exact devRef_ne_of_ne (by decide)

/-- An argument holds its launch contents after any first stretch of the line. -/
theorem arg_take (r : Ref sig .tc)
    (hr : r ∈ ([main_arg0, main_arg1, main_arg2, main_arg3, main_arg4, main_arg5, main_arg6] : List (Ref sig .tc)))
    (k : Nat) (V : Valuation τ sig (Elt F)) : after ((ops (F := F)).take k) V ⟪r⟫ = V ⟪r⟫ :=
  after_of_forall_not_mem _ V fun op hop =>
    (List.forall_iff_forall_mem.mp (args_not_written (F := F) r hr)) op (List.mem_of_mem_take hop)

theorem arg_all (r : Ref sig .tc)
    (hr : r ∈ ([main_arg0, main_arg1, main_arg2, main_arg3, main_arg4, main_arg5, main_arg6] : List (Ref sig .tc)))
    (V : Valuation τ sig (Elt F)) : after (ops (F := F)) V ⟪r⟫ = V ⟪r⟫ :=
  after_of_forall_not_mem _ V (List.forall_iff_forall_mem.mp (args_not_written (F := F) r hr))

/-! ## The triplet leg -/

set_option maxRecDepth 65536 in
theorem T1_v36 (W : Valuation τ sig (Elt F)) (x0 x1 x2 : (⟨S4096x1024, .f32⟩ : BufTy).Contents (Elt F))
    (h0 : W ⟪main_arg0⟫ = x0) (h1 : W ⟪main_arg1⟫ = x1) (h2 : W ⟪main_arg2⟫ = x2) :
    after (((ops (F := F)).drop 91).take 11) W ⟪main_v36⟫ = val_main_v36 (F := F) x0 x1 x2 := by
  simp only [ops, List.drop_succ_cons, List.drop_zero, List.take_succ_cons, List.take_zero]
  after_results
  rw [h0, h1, h2]
  rfl

set_option maxRecDepth 65536 in
theorem T2_v39 (W : Valuation τ sig (Elt F)) (x0 x1 x2 : (⟨S4096x1024, .f32⟩ : BufTy).Contents (Elt F))
    (h36 : W ⟪main_v36⟫ = val_main_v36 (F := F) x0 x1 x2) :
    after (((ops (F := F)).drop 102).take 6) W ⟪main_v39⟫ = val_main_v39 (F := F) x0 x1 x2 := by
  simp only [ops, List.drop_succ_cons, List.drop_zero, List.take_succ_cons, List.take_zero]
  after_results
  rw [h36]
  rfl

/-! ## The total, and what passes the later stretches -/

set_option maxRecDepth 65536 in
theorem Z_v50 (W : Valuation τ sig (Elt F)) (x0 x1 x2 : (⟨S4096x1024, .f32⟩ : BufTy).Contents (Elt F))
    (x3 : (⟨S12288x5000, .f32⟩ : BufTy).Contents (Elt F)) (x4 x5 : (⟨S4096, .i32⟩ : BufTy).Contents (Elt F))
    (x6 : (⟨S5000x1024, .f32⟩ : BufTy).Contents (Elt F))
    (h6 : W ⟪main_v6⟫ = val_main_v6 (F := F) x3 x4 x5) (h39 : W ⟪main_v39⟫ = val_main_v39 (F := F) x0 x1 x2)
    (h43 : W ⟪main_v43⟫ = val_main_v43 (F := F) x0 x4 x6) :
    after ((ops (F := F)).drop 115) W ⟪main_v50⟫ = val_main_v50 (F := F) x0 x1 x2 x3 x4 x5 x6 := by
  simp only [ops, List.drop_succ_cons, List.drop_zero, List.take_succ_cons, List.take_zero]
  after_results
  rw [h6, h39, h43]
  rfl

set_option maxRecDepth 65536 in
/-- The softmax result passes the center and the triplet legs. -/
theorem pass_v6_mid (W : Valuation τ sig (Elt F)) :
    after (((ops (F := F)).drop 44).take 71) W ⟪main_v6⟫ = W ⟪main_v6⟫ := by
  simp only [ops, List.drop_succ_cons, List.drop_zero, List.take_succ_cons, List.take_zero]
  after_results

set_option maxRecDepth 65536 in
theorem pass_v6_end (W : Valuation τ sig (Elt F)) :
    after ((ops (F := F)).drop 44) W ⟪main_v6⟫ = W ⟪main_v6⟫ := by
  simp only [ops, List.drop_succ_cons, List.drop_zero, List.take_succ_cons, List.take_zero]
  after_results

set_option maxRecDepth 65536 in
/-- The triplet result passes the end of the center leg. -/
theorem pass_v39_mid (W : Valuation τ sig (Elt F)) :
    after (((ops (F := F)).drop 108).take 7) W ⟪main_v39⟫ = W ⟪main_v39⟫ := by
  simp only [ops, List.drop_succ_cons, List.drop_zero, List.take_succ_cons, List.take_zero]
  after_results

set_option maxRecDepth 65536 in
theorem pass_v39_end (W : Valuation τ sig (Elt F)) :
    after ((ops (F := F)).drop 108) W ⟪main_v39⟫ = W ⟪main_v39⟫ := by
  simp only [ops, List.drop_succ_cons, List.drop_zero, List.take_succ_cons, List.take_zero]
  after_results

set_option maxRecDepth 65536 in
/-- The center result passes the total. -/
theorem pass_v43_end (W : Valuation τ sig (Elt F)) :
    after ((ops (F := F)).drop 115) W ⟪main_v43⟫ = W ⟪main_v43⟫ := by
  simp only [ops, List.drop_succ_cons, List.drop_zero, List.take_succ_cons, List.take_zero]
  after_results

end Cert.ReferenceIdeal.Stages

end
-- ==== Proof.RefStages.lean ====
/-
  The reference's line of 124 operations, read through its stages: after the whole line each result buffer holds its
  stage (RefRead's `val_`) of the arguments' entering contents, and each argument what it held. The line is cut into
  stretches `(ops.drop a).take n`; RefStagesSoft, RefStagesCenter and RefStagesRest say what each stretch leaves from
  any entering contents; here the stretches are chained: the fold over the first k + n operations is the fold over the
  next n from what the first k left.
-/
import proofs.«419968_j17102559773294_3_alg».proof.Proof.RefStagesSoft
import proofs.«419968_j17102559773294_3_alg».proof.Proof.RefStagesCenter
import proofs.«419968_j17102559773294_3_alg».proof.Proof.RefStagesRest

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

local notation "⟪" r "⟫" => Proc.devRef Proc.tc r

/-- The fold over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the first k + n operations: over the first k, then over the next n. -/
theorem after_take_add (l : List (HloOp τ sig (Elt F))) (k n : Nat) (V : Valuation τ sig (Elt F)) :
    after (l.take (k + n)) V = after ((l.drop k).take n) (after (l.take k) V) := by
  rw [List.take_add, after_app]

/-- The fold over a line: over its first k operations, then over the rest. -/
theorem after_drop (l : List (HloOp τ sig (Elt F))) (k : Nat) (V : Valuation τ sig (Elt F)) :
    after l V = after (l.drop k) (after (l.take k) V) := by
  rw [← after_app, List.take_append_drop]

/-- A stage: what the first k + n operations leave at `r` is what the next n leave there from what the first k left. -/
theorem step (k n : Nat) (V : Valuation τ sig (Elt F)) (r : DevRef τ sig) {v : r.ty.Contents (Elt F)}
    (h : after (((ops (F := F)).drop k).take n) (after ((ops (F := F)).take k) V) r = v) :
    after ((ops (F := F)).take (k + n)) V r = v :=
  (congrFun (after_take_add ops k n V) r).trans h

/-- The same at the end of the line. -/
theorem step_end (k : Nat) (V : Valuation τ sig (Elt F)) (r : DevRef τ sig) {v : r.ty.Contents (Elt F)}
    (h : after ((ops (F := F)).drop k) (after ((ops (F := F)).take k) V) r = v) :
    after (ops (F := F)) V r = v :=
  (congrFun (after_drop ops k V) r).trans h

/-! ## The stages, in order

After the first k operations each buffer still to be read holds its stage, a function of the arguments' launch contents. -/

section Assembly

variable (V : Valuation τ sig (Elt F))

/-! ### The softmax leg -/

theorem st9_v0 : after ((ops (F := F)).take 9) V ⟪main_v0⟫ = val_main_v0 (F := F) (V ⟪main_arg4⟫) (V ⟪main_arg5⟫) :=
  step 0 9 V _ (S1_v0 _ _ _ (arg_take main_arg4 (by decide) 0 V) (arg_take main_arg5 (by decide) 0 V))

theorem st9_c0v5 : after ((ops (F := F)).take 9) V ⟪main_call0_v5⟫ = val_main_call0_v5 (F := F) (V ⟪main_arg3⟫) :=
  step 0 9 V _ (S1_c0v5 _ _ (arg_take main_arg3 (by decide) 0 V))

theorem st17_v1 : after ((ops (F := F)).take 17) V ⟪main_v1⟫ = val_main_v1 (F := F) (V ⟪main_arg3⟫) :=
  step 9 8 V _ (S2_v1 _ _ (st9_c0v5 V))

theorem st17_v2 : after ((ops (F := F)).take 17) V ⟪main_v2⟫ = val_main_v2 (F := F) (V ⟪main_arg4⟫) (V ⟪main_arg5⟫) :=
  step 9 8 V _ (S2_v2 _ _ _ (st9_v0 V))

theorem st25_c1v5 :
    after ((ops (F := F)).take 25) V ⟪main_call1_v5⟫ = val_main_call1_v5 (F := F) (V ⟪main_arg4⟫) (V ⟪main_arg5⟫) :=
  step 17 8 V _ (S3_c1v5 _ _ _ (st17_v2 V))

theorem st35_c1v12 :
    after ((ops (F := F)).take 35) V ⟪main_call1_v12⟫ = val_main_call1_v12 (F := F) (V ⟪main_arg4⟫) (V ⟪main_arg5⟫) :=
  step 25 10 V _ (S4_c1v12 _ _ _ (st25_c1v5 V))

theorem st35_c1v5 :
    after ((ops (F := F)).take 35) V ⟪main_call1_v5⟫ = val_main_call1_v5 (F := F) (V ⟪main_arg4⟫) (V ⟪main_arg5⟫) :=
  step 25 10 V _ ((pass_c1v5 _).trans (st25_c1v5 V))

theorem st35_v1 : after ((ops (F := F)).take 35) V ⟪main_v1⟫ = val_main_v1 (F := F) (V ⟪main_arg3⟫) :=
  step 17 18 V _ ((pass_v1 _).trans (st17_v1 V))

theorem st44_v6 :
    after ((ops (F := F)).take 44) V ⟪main_v6⟫ = val_main_v6 (F := F) (V ⟪main_arg3⟫) (V ⟪main_arg4⟫) (V ⟪main_arg5⟫) :=
  step 35 9 V _ (S5_v6 _ _ _ _ (st35_v1 V) (st35_c1v5 V) (st35_c1v12 V))

theorem st115_v6 :
    after ((ops (F := F)).take 115) V ⟪main_v6⟫ = val_main_v6 (F := F) (V ⟪main_arg3⟫) (V ⟪main_arg4⟫) (V ⟪main_arg5⟫) :=
  step 44 71 V _ ((pass_v6_mid _).trans (st44_v6 V))

/-! ### The center leg -/

theorem st55_v15 : after ((ops (F := F)).take 55) V ⟪main_v15⟫ = val_main_v15 (F := F) (V ⟪main_arg0⟫) (V ⟪main_arg6⟫) :=
  step 44 11 V _ (C1_v15 _ _ _ (arg_take main_arg0 (by decide) 44 V) (arg_take main_arg6 (by decide) 44 V))

theorem st66_v23 : after ((ops (F := F)).take 66) V ⟪main_v23⟫ = val_main_v23 (F := F) (V ⟪main_arg0⟫) (V ⟪main_arg6⟫) :=
  step 55 11 V _ (C2_v23 _ _ _ (arg_take main_arg0 (by decide) 55 V) (arg_take main_arg6 (by decide) 55 V) (st55_v15 V))

theorem st66_v24 : after ((ops (F := F)).take 66) V ⟪main_v24⟫ = val_main_v24 (F := F) (V ⟪main_arg4⟫) :=
  step 55 11 V _ (C2_v24 _ _ (arg_take main_arg4 (by decide) 55 V))

theorem st74_c2v5 : after ((ops (F := F)).take 74) V ⟪main_call2_v5⟫ = val_main_call2_v5 (F := F) (V ⟪main_arg4⟫) :=
  step 66 8 V _ (C3_c2v5 _ _ (st66_v24 V))

theorem st84_c2v12 : after ((ops (F := F)).take 84) V ⟪main_call2_v12⟫ = val_main_call2_v12 (F := F) (V ⟪main_arg4⟫) :=
  step 74 10 V _ (C4_c2v12 _ _ (st74_c2v5 V))

theorem st84_c2v5 : after ((ops (F := F)).take 84) V ⟪main_call2_v5⟫ = val_main_call2_v5 (F := F) (V ⟪main_arg4⟫) :=
  step 74 10 V _ ((pass_c2v5 _).trans (st74_c2v5 V))

theorem st84_v23 : after ((ops (F := F)).take 84) V ⟪main_v23⟫ = val_main_v23 (F := F) (V ⟪main_arg0⟫) (V ⟪main_arg6⟫) :=
  step 66 18 V _ ((pass_v23 _).trans (st66_v23 V))

theorem st91_v26 :
    after ((ops (F := F)).take 91) V ⟪main_v26⟫ = val_main_v26 (F := F) (V ⟪main_arg0⟫) (V ⟪main_arg4⟫) (V ⟪main_arg6⟫) :=
  step 84 7 V _ (C5_v26 _ _ _ _ (st84_v23 V) (st84_c2v5 V) (st84_c2v12 V))

theorem st91_v27 : after ((ops (F := F)).take 91) V ⟪main_v27⟫ = val_main_v27 (F := F) (V ⟪main_arg0⟫) (V ⟪main_arg6⟫) :=
  step 84 7 V _ (C5_v27 _ _ _ (st84_v23 V))

theorem st108_v26 :
    after ((ops (F := F)).take 108) V ⟪main_v26⟫ = val_main_v26 (F := F) (V ⟪main_arg0⟫) (V ⟪main_arg4⟫) (V ⟪main_arg6⟫) :=
  step 91 17 V _ ((pass_v26 _).trans (st91_v26 V))

theorem st108_v27 : after ((ops (F := F)).take 108) V ⟪main_v27⟫ = val_main_v27 (F := F) (V ⟪main_arg0⟫) (V ⟪main_arg6⟫) :=
  step 91 17 V _ ((pass_v27 _).trans (st91_v27 V))

theorem st115_v43 :
    after ((ops (F := F)).take 115) V ⟪main_v43⟫ = val_main_v43 (F := F) (V ⟪main_arg0⟫) (V ⟪main_arg4⟫) (V ⟪main_arg6⟫) :=
  step 108 7 V _ (C6_v43 _ _ _ _ (st108_v26 V) (st108_v27 V))

/-! ### The triplet leg -/

theorem st102_v36 :
    after ((ops (F := F)).take 102) V ⟪main_v36⟫ = val_main_v36 (F := F) (V ⟪main_arg0⟫) (V ⟪main_arg1⟫) (V ⟪main_arg2⟫) :=
  step 91 11 V _ (T1_v36 _ _ _ _ (arg_take main_arg0 (by decide) 91 V) (arg_take main_arg1 (by decide) 91 V)
    (arg_take main_arg2 (by decide) 91 V))

theorem st108_v39 :
    after ((ops (F := F)).take 108) V ⟪main_v39⟫ = val_main_v39 (F := F) (V ⟪main_arg0⟫) (V ⟪main_arg1⟫) (V ⟪main_arg2⟫) :=
  step 102 6 V _ (T2_v39 _ _ _ _ (st102_v36 V))

theorem st115_v39 :
    after ((ops (F := F)).take 115) V ⟪main_v39⟫ = val_main_v39 (F := F) (V ⟪main_arg0⟫) (V ⟪main_arg1⟫) (V ⟪main_arg2⟫) :=
  step 108 7 V _ ((pass_v39_mid _).trans (st108_v39 V))

end Assembly

/-! ## The results after the whole line -/

theorem after_v6 (V : Valuation τ sig (Elt F)) :
    after (ops (F := F)) V ⟪main_v6⟫ = val_main_v6 (F := F) (V ⟪main_arg3⟫) (V ⟪main_arg4⟫) (V ⟪main_arg5⟫) :=
  step_end 44 V _ ((pass_v6_end _).trans (st44_v6 V))

theorem after_v39 (V : Valuation τ sig (Elt F)) :
    after (ops (F := F)) V ⟪main_v39⟫ = val_main_v39 (F := F) (V ⟪main_arg0⟫) (V ⟪main_arg1⟫) (V ⟪main_arg2⟫) :=
  step_end 108 V _ ((pass_v39_end _).trans (st108_v39 V))

theorem after_v43 (V : Valuation τ sig (Elt F)) :
    after (ops (F := F)) V ⟪main_v43⟫ = val_main_v43 (F := F) (V ⟪main_arg0⟫) (V ⟪main_arg4⟫) (V ⟪main_arg6⟫) :=
  step_end 115 V _ ((pass_v43_end _).trans (st115_v43 V))

theorem after_v50 (V : Valuation τ sig (Elt F)) :
    after (ops (F := F)) V ⟪main_v50⟫
      = val_main_v50 (F := F) (V ⟪main_arg0⟫) (V ⟪main_arg1⟫) (V ⟪main_arg2⟫) (V ⟪main_arg3⟫) (V ⟪main_arg4⟫) (V ⟪main_arg5⟫)
          (V ⟪main_arg6⟫) :=
  step_end 115 V _ (Z_v50 _ _ _ _ _ _ _ _ (st115_v6 V) (st115_v39 V) (st115_v43 V))

theorem after_arg0 (V : Valuation τ sig (Elt F)) : after (ops (F := F)) V ⟪main_arg0⟫ = V ⟪main_arg0⟫ :=
  arg_all main_arg0 (by decide) V
theorem after_arg1 (V : Valuation τ sig (Elt F)) : after (ops (F := F)) V ⟪main_arg1⟫ = V ⟪main_arg1⟫ :=
  arg_all main_arg1 (by decide) V
theorem after_arg2 (V : Valuation τ sig (Elt F)) : after (ops (F := F)) V ⟪main_arg2⟫ = V ⟪main_arg2⟫ :=
  arg_all main_arg2 (by decide) V
theorem after_arg3 (V : Valuation τ sig (Elt F)) : after (ops (F := F)) V ⟪main_arg3⟫ = V ⟪main_arg3⟫ :=
  arg_all main_arg3 (by decide) V
theorem after_arg4 (V : Valuation τ sig (Elt F)) : after (ops (F := F)) V ⟪main_arg4⟫ = V ⟪main_arg4⟫ :=
  arg_all main_arg4 (by decide) V
theorem after_arg5 (V : Valuation τ sig (Elt F)) : after (ops (F := F)) V ⟪main_arg5⟫ = V ⟪main_arg5⟫ :=
  arg_all main_arg5 (by decide) V
theorem after_arg6 (V : Valuation τ sig (Elt F)) : after (ops (F := F)) V ⟪main_arg6⟫ = V ⟪main_arg6⟫ :=
  arg_all main_arg6 (by decide) V

end Cert.ReferenceIdeal.Stages

end
-- ==== Proof.RefRunThm.lean ====
/-
  The reference program's run read back: every weakly fair execution of its @main (host operations only) terminates with
  each result buffer at its composed term of the argument arrays and the arguments unchanged. The final contents are
  the fold of the operations' results over the launch contents; that fold is evaluated stage by stage, one operation
  over the stages before it, and each closed term is its last stage.
-/
import proofs.«419968_j17102559773294_3_alg».proof.Proof.RefStages

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = res_main_v50 m c
      ∧ r.2.mem ((c.tc : Thread nD τ).loc main_v39) = shapeCast _ (Host.reduceAdd (maximumf (subf (Host.sqrt (Host.reduceAdd (mulf (subf (m ((c.tc : Thread nD τ).loc main_arg0)) (m ((c.tc : Thread nD τ).loc main_arg1))) (subf (m ((c.tc : Thread nD τ).loc main_arg0)) (m ((c.tc : Thread nD τ).loc main_arg1)))) (constant S_ .f32 0x00000000#32) reducesTo_S4096x1024_S4096_d1 h_S_)) (Host.sqrt (Host.reduceAdd (mulf (subf (m ((c.tc : Thread nD τ).loc main_arg0)) (m ((c.tc : Thread nD τ).loc main_arg2))) (subf (m ((c.tc : Thread nD τ).loc main_arg0)) (m ((c.tc : Thread nD τ).loc main_arg2)))) (constant S_ .f32 0x00000000#32) reducesTo_S4096x1024_S4096_d1 h_S_))) (broadcastInDim S4096 ![] bcast_S_S4096 (constant S_ .f32 0x00000000#32))) (constant S_ .f32 0x00000000#32) reducesTo_S4096_S_d0 h_S_) shapeCasts_S_S1
      ∧ r.2.mem ((c.tc : Thread nD τ).loc main_v6) = res_main_v6 m c
      ∧ r.2.mem ((c.tc : Thread nD τ).loc main_v43) = res_main_v43 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans ((Cert.ReferenceIdeal.Stages.after_v50 _).trans (Cert.ReferenceIdeal.Read.val_main_v50_eq m c).symm),
      (h c main_v39).trans ((Cert.ReferenceIdeal.Stages.after_v39 _).trans (Cert.ReferenceIdeal.Read.val_main_v39_eq _ _ _).symm),
      (h c main_v6).trans ((Cert.ReferenceIdeal.Stages.after_v6 _).trans (Cert.ReferenceIdeal.Read.val_main_v6_eq m c).symm),
      (h c main_v43).trans ((Cert.ReferenceIdeal.Stages.after_v43 _).trans (Cert.ReferenceIdeal.Read.val_main_v43_eq m c).symm),
      (h c main_arg0).trans (Cert.ReferenceIdeal.Stages.after_arg0 _),
      (h c main_arg1).trans (Cert.ReferenceIdeal.Stages.after_arg1 _),
      (h c main_arg2).trans (Cert.ReferenceIdeal.Stages.after_arg2 _),
      (h c main_arg3).trans (Cert.ReferenceIdeal.Stages.after_arg3 _),
      (h c main_arg4).trans (Cert.ReferenceIdeal.Stages.after_arg4 _),
      (h c main_arg5).trans (Cert.ReferenceIdeal.Stages.after_arg5 _),
      (h c main_arg6).trans (Cert.ReferenceIdeal.Stages.after_arg6 _)⟩)
    (run_seq scopedRefs_eq scopedSems_eq defs main (fun _ => ops) main_eq (fun _ => ops_sub) m ρ)

end Cert.ReferenceIdeal.Value

end
-- ==== Proof.KI.KVal.lean ====
/-
  The buffer contents at the boundaries of @main, read through its three host stretches: what the second and third
  stretches leave in their result buffers, as the host operations applied to the regions' output arrays; what the
  two regions are entered from, as the host operations applied to the launch contents; and the arguments at the end,
  which hold their launch contents.
-/
import proofs.«419968_j17102559773294_3_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The regions' output arrays, read off the valuations after the regions -/

/-- After region 0, `main_v2` holds region 0's output array. -/
theorem V2_v2 (c : Dev nD) : Gen.V2 m (outs m) c main_v2 = (dat0 (VR1 m) c).arrAt 2 cfg0.N := by
  show Function.update (Gen.V1 m c) (Proc.devRef .tc main_v2) (outs m 2 main_v2 c) (Proc.devRef .tc main_v2) = _
  rw [Function.update_self, outs_v2]

/-- After region 1, `main_v10_1` holds region 1's second output array. -/
theorem V4_v10_1 (c : Dev nD) : Gen.V4 m (outs m) c main_v10_1 = (dat1 (VR3 m) c).arrAt 7 cfg1.N := by
  show Function.update (Function.update (Gen.V3 m (outs m) c) (Proc.devRef .tc main_v10_0) (outs m 4 main_v10_0 c))
    (Proc.devRef .tc main_v10_1) (outs m 4 main_v10_1 c) (Proc.devRef .tc main_v10_1) = _
  rw [Function.update_self, outs_v10_1]

/-- After region 1, `main_v10_0` holds region 1's first output array. -/
theorem V4_v10_0 (c : Dev nD) : Gen.V4 m (outs m) c main_v10_0 = (dat1 (VR3 m) c).arrAt 6 cfg1.N := by
  show Function.update (Function.update (Gen.V3 m (outs m) c) (Proc.devRef .tc main_v10_0) (outs m 4 main_v10_0 c))
    (Proc.devRef .tc main_v10_1) (outs m 4 main_v10_1 c) (Proc.devRef .tc main_v10_0) = _
  rw [Function.update_of_ne (StableHlo.devRef_ne_of_ne (by decide)), Function.update_self, outs_v10_0]

/-! ## The results of the second and third host stretches -/

/-- `main_v4`: region 0's output array summed to a scalar and divided by the constant. -/
theorem k_v4 (c : Dev nD) : Gen.V5 m (outs m) c main_v4
    = Host.divf (Host.reduceAdd ((dat0 (VR1 m) c).arrAt 2 cfg0.N) (constant S_ .f32 0x00000000#32) reducesTo_S16x128_S_d0_1 h_S_)
        (constant S_ .f32 0x46400000#32) := by
  rw [Gen.V5_of m (outs m) c main_v4 (by decide), Gen.V4_of m (outs m) c main_v4 (by decide)]
  show StableHlo.after hostOps1 _ (Proc.devRef .tc main_v4) = _
  after_results
  rw [V2_v2]

/-- `main_v12`: region 1's second output array summed to a scalar. -/
theorem k_v12 (c : Dev nD) : Gen.V5 m (outs m) c main_v12
    = Host.reduceAdd ((dat1 (VR3 m) c).arrAt 7 cfg1.N) (constant S_ .f32 0x00000000#32) reducesTo_S16x128_S_d0_1 h_S_ := by
  show StableHlo.after hostOps2 _ (Proc.devRef .tc main_v12) = _
  after_results
  rw [V4_v10_1]

/-- `main_v11`: region 1's first output array summed to a scalar. -/
theorem k_v11 (c : Dev nD) : Gen.V5 m (outs m) c main_v11
    = Host.reduceAdd ((dat1 (VR3 m) c).arrAt 6 cfg1.N) (constant S_ .f32 0x00000000#32) reducesTo_S16x128_S_d0_1 h_S_ := by
  show StableHlo.after hostOps2 _ (Proc.devRef .tc main_v11) = _
  after_results
  rw [V4_v10_0]

/-- `main_v13`: the reshape of `main_v12`. -/
theorem k_v13 (c : Dev nD) : Gen.V5 m (outs m) c main_v13
    = shapeCast S1 (Gen.V5 m (outs m) c main_v12) shapeCasts_S_S1 := by
  rw [k_v12]
  show StableHlo.after hostOps2 _ (Proc.devRef .tc main_v13) = _
  after_results
  rw [V4_v10_1]
  rfl

/-- `main_v14`: the reshape of `main_v11`. -/
theorem k_v14 (c : Dev nD) : Gen.V5 m (outs m) c main_v14
    = shapeCast S1 (Gen.V5 m (outs m) c main_v11) shapeCasts_S_S1 := by
  rw [k_v11]
  show StableHlo.after hostOps2 _ (Proc.devRef .tc main_v14) = _
  after_results
  rw [V4_v10_0]
  rfl

/-- `main_v21`: the weighted sum of the three losses. -/
theorem k_v21 (c : Dev nD) : Gen.V5 m (outs m) c main_v21
    = addf (addf (broadcastInDim S1 ![] bcast_S_S1 (Gen.V5 m (outs m) c main_v4))
          (mulf (broadcastInDim S1 ![] bcast_S_S1 (constant S_ .f32 0x3F800000#32)) (Gen.V5 m (outs m) c main_v13)))
        (mulf (broadcastInDim S1 ![] bcast_S_S1 (constant S_ .f32 0x3F000000#32)) (Gen.V5 m (outs m) c main_v14)) := by
  have key : ∀ W : Valuation τ sig (Elt F), StableHlo.after hostOps2 W (Proc.devRef .tc main_v21)
      = addf (addf (broadcastInDim S1 ![] bcast_S_S1 (StableHlo.after hostOps2 W (Proc.devRef .tc main_v4)))
            (mulf (broadcastInDim S1 ![] bcast_S_S1 (constant S_ .f32 0x3F800000#32))
              (StableHlo.after hostOps2 W (Proc.devRef .tc main_v13))))
          (mulf (broadcastInDim S1 ![] bcast_S_S1 (constant S_ .f32 0x3F000000#32))
            (StableHlo.after hostOps2 W (Proc.devRef .tc main_v14))) := by
    intro W
    after_results
  exact key _

/-! ## What the regions are entered from -/

/-- Region 0 reads `main_arg3` as launched. -/
theorem in1_arg3 (c : Dev nD) : VR1 m c main_arg3 = m ((c : Thread nD τ).loc main_arg3) :=
  (Gen.V1_of m c main_arg3 (by decide)).trans rfl

/-- Region 0 reads `main_v1`: the three label arrays concatenated, as a column. -/
theorem in1_v1 (c : Dev nD) : VR1 m c main_v1
    = shapeCast S12288x1
        (concatenate S12288 0 [⟨S4096, m ((c : Thread nD τ).loc main_arg4)⟩, ⟨S4096, m ((c : Thread nD τ).loc main_arg4)⟩,
          ⟨S4096, m ((c : Thread nD τ).loc main_arg5)⟩] concatenates_S4096_S4096_S4096_S12288_d0)
        shapeCasts_S12288_S12288x1 := by
  show StableHlo.after hostOps0 _ (Proc.devRef .tc main_v1) = _
  after_results
  rfl

/-- An argument reaches region 1 as launched. -/
theorem V3A_arg (c : Dev nD) (r : Ref sig .tc) (h3 : r ∉ Gen.hostOps1_W) (h2 : r ∉ ([main_v2] : List (Ref sig .tc)))
    (h1 : r ∉ Gen.hostOps0_W) : Gen.V3 m (outsA m) c r = m ((c : Thread nD τ).loc r) :=
  (Gen.V3_of m (outsA m) c r h3).trans <| (Gen.V2_of m (outsA m) c r h2).trans <| (Gen.V1_of m c r h1).trans rfl
theorem V2A_arg (c : Dev nD) (r : Ref sig .tc) (h2 : r ∉ ([main_v2] : List (Ref sig .tc)))
    (h1 : r ∉ Gen.hostOps0_W) : Gen.V2 m (outsA m) c r = m ((c : Thread nD τ).loc r) :=
  (Gen.V2_of m (outsA m) c r h2).trans <| (Gen.V1_of m c r h1).trans rfl

theorem in3_arg0 (c : Dev nD) : VR3 m c main_arg0 = m ((c : Thread nD τ).loc main_arg0) :=
  V3A_arg m c main_arg0 (by decide) (by decide) (by decide)
theorem in3_arg1 (c : Dev nD) : VR3 m c main_arg1 = m ((c : Thread nD τ).loc main_arg1) :=
  V3A_arg m c main_arg1 (by decide) (by decide) (by decide)
theorem in3_arg2 (c : Dev nD) : VR3 m c main_arg2 = m ((c : Thread nD τ).loc main_arg2) :=
  V3A_arg m c main_arg2 (by decide) (by decide) (by decide)

/-- Region 1 reads `main_v5`: the exemplars truncated to bf16. -/
theorem in3_v5 (c : Dev nD) : VR3 m c main_v5 = truncf .bf16 (m ((c : Thread nD τ).loc main_arg6)) bitsLt_bf16_f32 := by
  show StableHlo.after hostOps1 _ (Proc.devRef .tc main_v5) = _
  after_results
  rw [V2A_arg m c main_arg6 (by decide) (by decide)]

/-- Region 1 reads `main_v8`: the exemplars' squared norms, as a row. -/
theorem in3_v8 (c : Dev nD) : VR3 m c main_v8
    = shapeCast S1x5000
        (Host.reduceAdd (mulf (m ((c : Thread nD τ).loc main_arg6)) (m ((c : Thread nD τ).loc main_arg6)))
          (constant S_ .f32 0x00000000#32) reducesTo_S5000x1024_S5000_d1 h_S_)
        shapeCasts_S5000_S1x5000 := by
  show StableHlo.after hostOps1 _ (Proc.devRef .tc main_v8) = _
  after_results
  rw [V2A_arg m c main_arg6 (by decide) (by decide)]
  rfl

/-- Region 1 reads `main_v9`: the first label array, as a column. -/
theorem in3_v9 (c : Dev nD) : VR3 m c main_v9
    = shapeCast S4096x1 (m ((c : Thread nD τ).loc main_arg4)) shapeCasts_S4096_S4096x1 := by
  show StableHlo.after hostOps1 _ (Proc.devRef .tc main_v9) = _
  after_results
  rw [V2A_arg m c main_arg4 (by decide) (by decide)]
  rfl

/-! ## The arguments at the end -/

theorem k_arg0 (c : Dev nD) : Gen.V5 m (outs m) c main_arg0 = m ((c : Thread nD τ).loc main_arg0) := Gen.V5_main_arg0 m (outs m) c
theorem k_arg1 (c : Dev nD) : Gen.V5 m (outs m) c main_arg1 = m ((c : Thread nD τ).loc main_arg1) := Gen.V5_main_arg1 m (outs m) c
theorem k_arg2 (c : Dev nD) : Gen.V5 m (outs m) c main_arg2 = m ((c : Thread nD τ).loc main_arg2) := Gen.V5_main_arg2 m (outs m) c
theorem k_arg3 (c : Dev nD) : Gen.V5 m (outs m) c main_arg3 = m ((c : Thread nD τ).loc main_arg3) := Gen.V5_main_arg3 m (outs m) c
theorem k_arg4 (c : Dev nD) : Gen.V5 m (outs m) c main_arg4 = m ((c : Thread nD τ).loc main_arg4) := Gen.V5_main_arg4 m (outs m) c
theorem k_arg5 (c : Dev nD) : Gen.V5 m (outs m) c main_arg5 = m ((c : Thread nD τ).loc main_arg5) := Gen.V5_main_arg5 m (outs m) c
theorem k_arg6 (c : Dev nD) : Gen.V5 m (outs m) c main_arg6 = m ((c : Thread nD τ).loc main_arg6) := Gen.V5_main_arg6 m (outs m) c

end Cert.KernelIdeal.Hand

end
-- ==== Proof.Spec.lean ====
/-
  The three scalar losses as functions of the argument arrays, over the extended reals, in the two arrangements the
  programs compute them in. Arrays are plain functions of their coordinates; labels are 32-bit words.

  Softmax leg. For a row `x` of 5000 logits, `rowMax x` is its maximum, `lse x` the logarithm of the sum of
  `exp (x j - rowMax x)`. The kernel picks the labelled logit by a masked sum (`pick`), the reference by indexing
  (`at`); both then subtract the maximum and `lse`. The kernel adds, tile by tile of 384 rows, the NEGATED tile sums
  (`softK`); the reference sums all 12288 rows (`softR`) and negates after dividing.

  Center leg. `sq A E R j` is the clamped squared distance |A R|² + |E j|² - 2 A R·E j of anchor row `R` to exemplar
  `j`. The kernel takes the masked sum and the minimum of the squares and then the roots (`centerRowK`); the
  reference takes the roots first (`centerRowR`). Triplet leg: one formula for both (`tripRow`); only the grouping of
  the sum over rows differs.
-/
import Idealize.ShloMosaic.PureOps.Ideal
import Idealize.ShloMosaic.PureOps.Ideal.Laws

noncomputable section

namespace Cert.Spec

open Idealize.ShloMosaic

/-- The f32 word of -∞, +∞ and of 2.0, as the programs carry them. -/
abbrev negInf : EReal := Ideal.ofBits .f32 0xFF800000#32
abbrev posInf : EReal := Ideal.ofBits .f32 0x7F800000#32
abbrev two : EReal := Ideal.ofBits .f32 0x40000000#32

/-! ## The softmax leg -/

/-- A row's maximum (the fold of `max` from -∞). -/
def rowMax (x : Fin 5000 → EReal) : EReal := (Finset.univ : Finset (Fin 5000)).fold max negInf x
/-- The logarithm of the sum of the exponentials of the row shifted by its maximum. -/
def lse (x : Fin 5000 → EReal) : EReal := Ideal.log (∑ j : Fin 5000, Ideal.exp (x j - rowMax x))
/-- The labelled entry by a masked sum: the column whose index, as a word, is the label. -/
def pick (x : Fin 5000 → EReal) (l : BitVec 32) : EReal := ∑ j : Fin 5000, if BitVec.ofNat 32 j.val = l then x j else 0
/-- The labelled entry by indexing (0 when the label is no column). -/
def at5000 (x : Fin 5000 → EReal) (l : BitVec 32) : EReal := if h : l.toNat < 5000 then x ⟨l.toNat, h⟩ else 0
/-- A row's log-probability of its label, the kernel's way and the reference's. -/
def ceK (x : Fin 5000 → EReal) (l : BitVec 32) : EReal := (pick x l - rowMax x) - lse x
def ceR (x : Fin 5000 → EReal) (l : BitVec 32) : EReal := (at5000 x l - rowMax x) - lse x

/-- Row `r` of tile `t` when `n` tiles of `b` rows cover `n * b` rows. -/
def tileRow (n b : ℕ) (t : Fin n) (r : Fin b) : Fin (n * b) :=
  ⟨b * t.val + r.val, by
    have h1 := t.isLt; have h2 := r.isLt
    calc b * t.val + r.val < b * t.val + b := by omega
      _ = b * (t.val + 1) := by ring
      _ ≤ b * n := Nat.mul_le_mul_left b h1
      _ = n * b := Nat.mul_comm b n⟩

/-- The kernel's sum: over the 32 tiles of 384 rows, zero minus the tile's sum of log-probabilities. -/
def softK (O : Fin 12288 → Fin 5000 → EReal) (lab : Fin 12288 → BitVec 32) : EReal :=
  ∑ t : Fin 32, (0 - ∑ r : Fin 384, ceK (O (tileRow 32 384 t r)) (lab (tileRow 32 384 t r)))
/-- The reference's sum over all rows. -/
def softR (O : Fin 12288 → Fin 5000 → EReal) (lab : Fin 12288 → BitVec 32) : EReal :=
  ∑ R : Fin 12288, ceR (O R) (lab R)

/-! ## The center leg -/

/-- The clamped squared distance of anchor row `R` to exemplar `j`. -/
def sq (A : Fin 4096 → Fin 1024 → EReal) (E : Fin 5000 → Fin 1024 → EReal) (R : Fin 4096) (j : Fin 5000) : EReal :=
  max (((∑ k : Fin 1024, A R k * A R k) + (∑ k : Fin 1024, E j k * E j k)) - two * (∑ k : Fin 1024, A R k * E j k)) 0
/-- The kernel's row term: roots after the masked sum and after the minimum. -/
def centerRowK (A : Fin 4096 → Fin 1024 → EReal) (E : Fin 5000 → Fin 1024 → EReal) (la : Fin 4096 → BitVec 32) (R : Fin 4096) : EReal :=
  max (Ideal.sqrt (pick (sq A E R) (la R)) - Ideal.sqrt ((Finset.univ : Finset (Fin 5000)).fold min posInf (sq A E R))) 0
/-- The reference's row term: roots first. -/
def centerRowR (A : Fin 4096 → Fin 1024 → EReal) (E : Fin 5000 → Fin 1024 → EReal) (la : Fin 4096 → BitVec 32) (R : Fin 4096) : EReal :=
  max (at5000 (fun j => Ideal.sqrt (sq A E R j)) (la R) - (Finset.univ : Finset (Fin 5000)).fold min posInf (fun j => Ideal.sqrt (sq A E R j))) 0
/-- The kernel's sum over 16 tiles of 256 rows, and the reference's over all rows. -/
def centerK (A : Fin 4096 → Fin 1024 → EReal) (E : Fin 5000 → Fin 1024 → EReal) (la : Fin 4096 → BitVec 32) : EReal :=
  ∑ t : Fin 16, ∑ r : Fin 256, centerRowK A E la (tileRow 16 256 t r)
def centerR (A : Fin 4096 → Fin 1024 → EReal) (E : Fin 5000 → Fin 1024 → EReal) (la : Fin 4096 → BitVec 32) : EReal :=
  ∑ R : Fin 4096, centerRowR A E la R

/-! ## The triplet leg -/

/-- The hinge of the anchor-positive distance minus the anchor-negative distance. -/
def tripRow (A P N : Fin 4096 → Fin 1024 → EReal) (R : Fin 4096) : EReal :=
  max (Ideal.sqrt (∑ k : Fin 1024, (A R k - P R k) * (A R k - P R k))
        - Ideal.sqrt (∑ k : Fin 1024, (A R k - N R k) * (A R k - N R k))) 0
def tripK (A P N : Fin 4096 → Fin 1024 → EReal) : EReal :=
  ∑ t : Fin 16, ∑ r : Fin 256, tripRow A P N (tileRow 16 256 t r)
def tripR (A P N : Fin 4096 → Fin 1024 → EReal) : EReal :=
  ∑ R : Fin 4096, tripRow A P N R

end Cert.Spec

end
-- ==== Proof.KI.Val0.lean ====
/-
  Region 0's output, summed by the host, at the extended reals.

  The grid has 32 points, 16 per core. Point `t` reads rows 384·t … 384·t+383 of the 12288x5000 logits and of the
  12288x1 labels. For one row `x` with label `l` the body takes the masked sum that picks the labelled logit,
  subtracts the row's maximum and the logarithm of the sum of the exponentials of the row shifted by that maximum:
  `Cert.Spec.ceK x l`. It adds zero minus the tile's sum of these 384 numbers to a 1x1 running sum, which a core's
  first tile starts from zero. So after point `n` the running sum is the sum of the terms of the core's tiles up
  to `n` (induction on the point), and after a core's last tile it is the sum of the core's sixteen terms.

  The 16x128 output array is written back twice, once per core after its last tile, through the 8x128 block at block
  row `core`: the running sum at entry (0,0) of the block, zero at every other entry. The two blocks tile the array, so
  the array ends with core `k`'s sum at entry (8k, 0) and zeros elsewhere. The host's sum of all its entries from
  zero is therefore the two cores' sums, that is the sum over all 32 tiles of zero minus the tile's sum:
  `Cert.Spec.softK`. Only commutativity and associativity of + and 0 + x = x on the extended reals are used.
-/
import proofs.«419968_j17102559773294_3_alg».proof.Proof.KI.Defs0
import proofs.«419968_j17102559773294_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val0

/-- The index the one-axis reductions along the columns insert: row `r`, column `k`. -/
theorem lift_col (r : Fin 384) (k : Fin 5000) : reduces_S384x5000_S384.lift (ix1 r) k = ix2 r k := by
  funext c
  match c with
  | ⟨0, _⟩ => rfl
  | ⟨1, _⟩ => rfl

/-- The index the reduction along the rows of a column vector inserts: row `k`, column 0. -/
theorem lift_row (u : Fin 1) (k : Fin 384) : reduces_S384x1_S1.lift (ix1 u) k = ix2 k u := by
  funext c
  match c with
  | ⟨0, _⟩ => rfl
  | ⟨1, _⟩ => rfl

/-- A vector of 384 entries cast to a column reads entry `r` at `(r, u)`. -/
theorem col_apply {α : Type} (v : S384.Idx → α) (r : Fin 384) (u : Fin 1) :
    shapeCast S384x1 v shapeCasts_S384_S384x1 (ix2 r u) = v (ix1 r) :=
  shapeCast_apply v shapeCasts_S384_S384x1 (ix2 r u) (ix1 r) (by
    rw [Shape.rowMajor_val_two, Shape.rowMajor_val_one]
    show r.val = r.val * 1 + u.val
    omega)

/-- A column broadcast along the rows reads the column's entry of the row. -/
theorem bcol_apply {α : Type} (v : S384x1.Idx → α) (r : Fin 384) (k : Fin 5000) :
    broadcastTo S384x5000 v broadcasts_S384x1_S384x5000 (ix2 r k) = v (ix2 r (0 : Fin 1)) := by
  refine broadcastTo_apply v broadcasts_S384x1_S384x5000 (ix2 r k) (ix2 r (0 : Fin 1)) fun ax => ?_
  match ax with
  | ⟨0, _⟩ => rfl
  | ⟨1, _⟩ => rfl

/-- The one entry of a length-one vector cast to 1x1. -/
theorem one_apply {α : Type} (v : S1.Idx → α) (u w : Fin 1) :
    shapeCast S1x1 v shapeCasts_S1_S1x1 (ix2 u w) = v (ix1 (0 : Fin 1)) :=
  shapeCast_apply v shapeCasts_S1_S1x1 (ix2 u w) (ix1 (0 : Fin 1)) (by
    rw [Shape.rowMajor_val_two, Shape.rowMajor_val_one]
    show 0 = u.val * 1 + w.val
    omega)

/-- A row's maximum, as the payload takes it: the fold of `max` from -∞ along the row. -/
theorem rowmax_apply (x : FVec Ideal S384x5000 .f32) (r : Fin 384) (hφ : FKind.Formats .f32)
    (hacc : (0xFF800000#32 : BitVec 32) = FKind.maximumf.neutral .f32 hφ) :
    multiReduction .maximumf [1] S384 x 0xFF800000#32 reduces_S384x5000_S384 hφ hacc (ix1 r)
      = Cert.Spec.rowMax (fun j => x (ix2 r j)) := by
  refine (Ideal.multiReduction_maximumf_single x _ reduces_S384x5000_S384 hφ hacc (ix1 r)).trans ?_
  unfold Cert.Spec.rowMax
  exact congrArg (fun f => (Finset.univ : Finset (Fin 5000)).fold max (Ideal.ofBits .f32 0xFF800000#32) f)
    (funext fun k => congrArg x (lift_col r k))

/-- A row's sum, as the payload takes it. -/
theorem rowsum_apply (y : FVec Ideal S384x5000 .f32) (r : Fin 384) (hφ : FKind.Formats .f32)
    (hacc : (0x00000000#32 : BitVec 32) = FKind.add.neutral .f32 hφ) :
    multiReduction .add [1] S384 y 0x00000000#32 reduces_S384x5000_S384 hφ hacc (ix1 r) = ∑ k : Fin 5000, y (ix2 r k) := by
  refine (Ideal.multiReduction_add_single y _ reduces_S384x5000_S384 hφ hacc (ix1 r)).trans ?_
  exact Finset.sum_congr rfl fun k _ => congrArg y (lift_col r k)

/-- The sum of a column of 384 entries. -/
theorem colsum_apply (y : FVec Ideal S384x1 .f32) (hφ : FKind.Formats .f32)
    (hacc : (0x00000000#32 : BitVec 32) = FKind.add.neutral .f32 hφ) :
    multiReduction .add [0] S1 y 0x00000000#32 reduces_S384x1_S1 hφ hacc (ix1 (0 : Fin 1)) = ∑ k : Fin 384, y (ix2 k (0 : Fin 1)) := by
  refine (Ideal.multiReduction_add_single y _ reduces_S384x1_S1 hφ hacc (ix1 (0 : Fin 1))).trans ?_
  exact Finset.sum_congr rfl fun k _ => congrArg y (lift_row 0 k)

/-- THE TILE'S UPDATE at its one entry: what the scratch held plus zero minus the tile's sum, over its 384 rows, of
    the row's log-probability of its label (the masked sum picks the labelled logit; the row's maximum and the
    logarithm of the shifted exponentials' sum are subtracted). -/
theorem pay2_apply (x : FVec Ideal S384x5000 .f32) (l : IVec S384x1 32) (s : FVec Ideal S1x1 .f32) :
    k0_pay2 (F := Ideal) x l s (ix2 (0 : Fin 1) (0 : Fin 1))
      = s (ix2 0 0) + (0 - ∑ r : Fin 384, Cert.Spec.ceK (fun j => x (ix2 r j)) (l (ix2 r 0))) := by
  unfold k0_pay2
  dsimp only
  refine (congrFun (shapeCast_self _ _) _).trans ?_
  refine (congrArg (fun z => s (ix2 0 0) + (Ideal.ofBits .f32 0x00000000#32 - z)) ?_).trans (by rw [Ideal.ofBits_zero_f32])
  refine (one_apply _ 0 0).trans ?_
  refine (colsum_apply _ _ _).trans ?_
  refine Finset.sum_congr rfl fun r _ => ?_
  unfold Cert.Spec.ceK
  refine congrArg₂ (· - ·) (congrArg₂ (· - ·) ?_ ?_) ?_
  · refine (col_apply _ r 0).trans ?_
    refine (rowsum_apply _ r _ _).trans ?_
    unfold Cert.Spec.pick
    refine Finset.sum_congr rfl fun k _ => ?_
    show Scalar.select (IntOp.cmpi .eq (iota .tc S384x5000 32 [1] iota_S384x5000_d1_w32 (ix2 r k))
        (broadcastTo S384x5000 (shapeCast S384x1 l shapeCasts_S384x1_S384x1) broadcasts_S384x1_S384x5000 (ix2 r k)))
      (x (ix2 r k)) (Ideal.ofBits .f32 0x00000000#32) = _
    rw [iota_single_apply, bcol_apply, shapeCast_self]
    unfold Scalar.select
    rw [Ideal.ofBits_zero_f32]
    exact if_congr IntOp.cmpi_eq rfl rfl
  · exact (col_apply _ r 0).trans (rowmax_apply x r _ _)
  · unfold Cert.Spec.lse
    refine congrArg Ideal.log ?_
    refine (col_apply _ r 0).trans ?_
    refine (rowsum_apply _ r _ _).trans ?_
    refine Finset.sum_congr rfl fun k _ => ?_
    refine congrArg Ideal.exp ?_
    refine congrArg (x (ix2 r k) - ·) ?_
    refine (bcol_apply _ r k).trans ?_
    exact (col_apply _ r 0).trans (rowmax_apply x r _ _)

/-! ## The blocks are rows of the arrays -/

variable (V : (c : Dev nD) → (b : Ref sig .tc) → Buf (Elt Ideal) ((c : Thread nD τ).loc b))

/-- The logits' block at point `t`, at its literal type. -/
abbrev xblk (c : Dev nD) (t : Fin cfg0.N) : FVec Ideal S384x5000 .f32 := iblk0 V c 0 t
/-- The labels' block at point `t`, at its literal type. -/
abbrev lblk (c : Dev nD) (t : Fin cfg0.N) : IVec S384x1 32 := iblk0 V c 1 t
/-- The logits as the region finds them, at their literal type. -/
abbrev xarr (c : Dev nD) : FVec Ideal S12288x5000 .f32 := V c main_arg3
/-- The labels as the region finds them, at their literal type. -/
abbrev larr (c : Dev nD) : IVec S12288x1 32 := V c main_v1

/-- The printed index maps over the grid: both input windows sit at block row `t`, block column 0; the output's
    block row is the core's, `t / 16`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0 :=
  (by decide +kernel : ∀ t : Fin grid0.N, _)

/-- Row `r` of the logits' block at point `t` is row `384 t + r` of the logits. -/
theorem xblk_apply (c : Dev nD) (t : Fin cfg0.N) (r : Fin 384) (j : Fin 5000) (R : Fin 12288)
    (hR : R.val = 384 * t.val + r.val) : xblk V c t (ix2 r j) = xarr V c (ix2 R j) := by
  obtain ⟨e0, e1, -, -, -, -⟩ := idx_facts t
  show V c main_arg3 (((cfg0.win 0).blk t).view.emb (ix2 r j)) = V c main_arg3 (ix2 R j)
  refine congrArg (V c main_arg3) (funext fun a => Fin.ext ?_)
  match a with
  | ⟨0, _⟩ => show win0_0.index t (0 : Fin 2) * 384 + 1 * r.val = R.val; omega
  | ⟨1, _⟩ => show win0_0.index t (1 : Fin 2) * 5000 + 1 * j.val = j.val; omega

/-- Row `r` of the labels' block at point `t` is row `384 t + r` of the labels. -/
theorem lblk_apply (c : Dev nD) (t : Fin cfg0.N) (r : Fin 384) (R : Fin 12288)
    (hR : R.val = 384 * t.val + r.val) : lblk V c t (ix2 r (0 : Fin 1)) = larr V c (ix2 R (0 : Fin 1)) := by
  obtain ⟨-, -, e0, e1, -, -⟩ := idx_facts t
  show V c main_v1 (((cfg0.win 1).blk t).view.emb (ix2 r (0 : Fin 1))) = V c main_v1 (ix2 R (0 : Fin 1))
  refine congrArg (V c main_v1) (funext fun a => Fin.ext ?_)
  match a with
  | ⟨0, _⟩ => show win0_1.index t (0 : Fin 2) * 384 + 1 * r.val = R.val; omega
  | ⟨1, _⟩ => show win0_1.index t (1 : Fin 2) * 1 + 1 * 0 = 0; omega

/-! ## The running sum -/

/-- The reset value's one entry is zero. -/
theorem pay1_apply : k0_pay1 (F := Ideal) (ix2 (0 : Fin 1) (0 : Fin 1)) = 0 := by
  unfold k0_pay1
  refine (congrFun (shapeCast_self _ _) _).trans ?_
  exact Ideal.ofBits_zero_f32

/-- Tile `n`'s term of the kernel's sum: zero minus the sum, over the tile's 384 rows, of the row's log-probability
    of its label (zero past the grid). -/
def tileTerm (c : Dev nD) (n : ℕ) : EReal :=
  if h : n < cfg0.N then
    0 - ∑ r : Fin 384, Cert.Spec.ceK (fun j => xblk V c ⟨n, h⟩ (ix2 r j)) (lblk V c ⟨n, h⟩ (ix2 r (0 : Fin 1)))
  else 0

/-- One point's update of the running sum: a core's first tile starts from zero, every other from what the point
    before left, and each adds its own term. -/
theorem scr_step (c : Dev nD) (t : Fin cfg0.N) :
    (scrAt0 V c t.val t.isLt : FVec Ideal S1x1 .f32) (ix2 (0 : Fin 1) (0 : Fin 1))
      = (if t.val % 16 = 0 then 0
          else (scrAt0 V c (t.val - 1) (Nat.lt_of_le_of_lt (Nat.sub_le _ _) t.isLt) : FVec Ideal S1x1 .f32) (ix2 (0 : Fin 1) (0 : Fin 1)))
        + tileTerm V c t.val := by
  have ht : tileTerm V c t.val
      = 0 - ∑ r : Fin 384, Cert.Spec.ceK (fun j => xblk V c t (ix2 r j)) (lblk V c t (ix2 r (0 : Fin 1))) := by
    unfold tileTerm; rw [dif_pos t.isLt]
  rw [ht]
  by_cases h : t.val % 16 = 0
  · rw [if_pos h, scrAt0_first V c t h]
    refine (pay2_apply (xblk V c t) (lblk V c t) (k0_pay1 (F := Ideal))).trans ?_
    rw [pay1_apply]
  · rw [if_neg h, scrAt0_next V c t h]
    exact pay2_apply (xblk V c t) (lblk V c t) _

/-- The running sum after point `n` is the sum of the terms of the core's tiles up to `n`. -/
theorem scr_closed (c : Dev nD) (n : ℕ) (hn : n < cfg0.N) :
    (scrAt0 V c n hn : FVec Ideal S1x1 .f32) (ix2 (0 : Fin 1) (0 : Fin 1))
      = ∑ i ∈ Finset.range (n % 16 + 1), tileTerm V c (n - n % 16 + i) := by
  induction n with
  | zero =>
    refine (scr_step V c ⟨0, hn⟩).trans ?_
    show (if (0 : ℕ) % 16 = 0 then (0 : EReal) else _) + tileTerm V c 0 = _
    rw [if_pos rfl, zero_add]
    simp
  | succ n ih =>
    refine (scr_step V c ⟨n + 1, hn⟩).trans ?_
    show (if (n + 1) % 16 = 0 then (0 : EReal)
      else (scrAt0 V c (n + 1 - 1) _ : FVec Ideal S1x1 .f32) (ix2 (0 : Fin 1) (0 : Fin 1))) + tileTerm V c (n + 1) = _
    by_cases h0 : (n + 1) % 16 = 0
    · rw [if_pos h0, zero_add, h0]
      simp
    · rw [if_neg h0]
      have ih' := ih (Nat.lt_of_succ_lt hn)
      have e1 : (n + 1) % 16 = n % 16 + 1 := by omega
      have e2 : n + 1 - (n % 16 + 1) = n - n % 16 := by omega
      have e3 : n - n % 16 + (n % 16 + 1) = n + 1 := by omega
      rw [e1, e2, Finset.sum_range_succ, e3]
      exact congrArg (· + tileTerm V c (n + 1)) ih'

/-- At a core's last tile the running sum is the sum of the core's sixteen terms. -/
theorem scr_last (c : Dev nD) (k : ℕ) (hk : 16 * k + 15 < cfg0.N) :
    (scrAt0 V c (16 * k + 15) hk : FVec Ideal S1x1 .f32) (ix2 (0 : Fin 1) (0 : Fin 1))
      = ∑ i ∈ Finset.range 16, tileTerm V c (16 * k + i) := by
  refine (scr_closed V c _ hk).trans ?_
  have e1 : (16 * k + 15) % 16 = 15 := by omega
  have e2 : 16 * k + 15 - 15 = 16 * k := by omega
  rw [e1, e2]

/-- A tile's term over the arrays: the tile's rows are rows `384 t …` of the logits and of the labels. -/
theorem tileTerm_eq (c : Dev nD) (t : Fin 32) :
    tileTerm V c t.val = 0 - ∑ r : Fin 384,
      Cert.Spec.ceK (fun j => xarr V c (ix2 (Cert.Spec.tileRow 32 384 t r) j)) (larr V c (ix2 (Cert.Spec.tileRow 32 384 t r) (0 : Fin 1))) := by
  have hN : cfg0.N = 32 := N_0
  have h : t.val < cfg0.N := by rw [hN]; exact t.isLt
  unfold tileTerm
  rw [dif_pos h]
  refine congrArg (fun z : EReal => 0 - z) (Finset.sum_congr rfl fun r _ => ?_)
  have e : (fun j => xblk V c ⟨t.val, h⟩ (ix2 r j)) = fun j => xarr V c (ix2 (Cert.Spec.tileRow 32 384 t r) j) :=
    funext fun j => xblk_apply V c ⟨t.val, h⟩ r j (Cert.Spec.tileRow 32 384 t r) rfl
  rw [e, lblk_apply V c ⟨t.val, h⟩ r (Cert.Spec.tileRow 32 384 t r) rfl]

/-- The two cores' sums together are the kernel's sum over all 32 tiles. -/
theorem cores_sum (c : Dev nD) :
    (∑ i ∈ Finset.range 16, tileTerm V c (16 * 0 + i)) + (∑ i ∈ Finset.range 16, tileTerm V c (16 * 1 + i))
      = Cert.Spec.softK (fun R j => xarr V c (ix2 R j)) (fun R => larr V c (ix2 R (0 : Fin 1))) := by
  unfold Cert.Spec.softK
  rw [show (∑ t : Fin 32, (0 - ∑ r : Fin 384, Cert.Spec.ceK ((fun R j => xarr V c (ix2 R j)) (Cert.Spec.tileRow 32 384 t r))
        ((fun R => larr V c (ix2 R (0 : Fin 1))) (Cert.Spec.tileRow 32 384 t r))))
      = ∑ t : Fin 32, tileTerm V c t.val from Finset.sum_congr rfl fun t _ => (tileTerm_eq V c t).symm,
    Fin.sum_univ_eq_sum_range (fun n => tileTerm V c n) 32, show (32 : ℕ) = 16 + 16 from rfl, Finset.sum_range_add]
  simp only [Nat.mul_zero, Nat.zero_add, Nat.mul_one]

/-! ## The output block and the output array -/

/-- A 32-bit word of a small number is the zero word only for zero. -/
theorem ofNat_eq_zero (n : ℕ) (h : n < 4294967296) : BitVec.ofNat 32 n = 0#32 ↔ n = 0 := by
  constructor
  · intro e
    have e' := congrArg BitVec.toNat e
    rw [BitVec.toNat_ofNat, Nat.mod_eq_of_lt h] at e'
    exact e'
  · rintro rfl; rfl

/-- A 1x1 vector broadcast to 8x128 reads its one entry everywhere. -/
theorem b11_apply {α : Type} (v : S1x1.Idx → α) (a : Fin 8) (b : Fin 128) :
    broadcastTo S8x128 v broadcasts_S1x1_S8x128 (ix2 a b) = v (ix2 (0 : Fin 1) (0 : Fin 1)) := by
  refine broadcastTo_apply v broadcasts_S1x1_S8x128 (ix2 a b) (ix2 (0 : Fin 1) (0 : Fin 1)) fun ax => ?_
  match ax with
  | ⟨0, _⟩ => rfl
  | ⟨1, _⟩ => rfl

/-- THE OUTPUT BLOCK: the running sum at entry (0,0), zero at every other entry. -/
theorem pay3_apply (s : FVec Ideal S1x1 .f32) (a : Fin 8) (b : Fin 128) :
    k0_pay3 (F := Ideal) s (ix2 a b) = if a.val = 0 ∧ b.val = 0 then s (ix2 (0 : Fin 1) (0 : Fin 1)) else 0 := by
  unfold k0_pay3
  dsimp only
  show Scalar.select (IntOp.andi (IntOp.cmpi .eq (iota .tc S8x128 32 [0] iota_S8x128_d0_w32 (ix2 a b)) 0#32)
        (IntOp.cmpi .eq (iota .tc S8x128 32 [1] iota_S8x128_d1_w32 (ix2 a b)) 0#32))
      (broadcastTo S8x128 (shapeCast S1x1 s shapeCasts_S1x1_S1x1) broadcasts_S1x1_S8x128 (ix2 a b))
      (Ideal.ofBits .f32 0x00000000#32) = _
  rw [iota_single_apply, iota_single_apply, b11_apply, shapeCast_self, Ideal.ofBits_zero_f32]
  unfold Scalar.select
  refine if_congr ?_ rfl rfl
  refine IntOp.andi_eq_one.trans ?_
  exact and_congr (IntOp.cmpi_eq.trans (ofNat_eq_zero a.val (by have := a.isLt; omega)))
    (IntOp.cmpi_eq.trans (ofNat_eq_zero b.val (by have := b.isLt; omega)))

/-- The same at any index of the block. -/
theorem pay3_idx (s : FVec Ideal S1x1 .f32) (y : S8x128.Idx) :
    k0_pay3 (F := Ideal) s y = if (y 0).val = 0 ∧ (y 1).val = 0 then s (ix2 (0 : Fin 1) (0 : Fin 1)) else 0 := by
  rw [eq_ix2 y]
  exact pay3_apply s (y 0) (y 1)

/-- The running sum's entry depends on the point only. -/
theorem scr_congr (c : Dev nD) {n n' : ℕ} (e : n = n') (h : n < cfg0.N) (h' : n' < cfg0.N) :
    (scrAt0 V c n h : FVec Ideal S1x1 .f32) (ix2 (0 : Fin 1) (0 : Fin 1))
      = (scrAt0 V c n' h' : FVec Ideal S1x1 .f32) (ix2 (0 : Fin 1) (0 : Fin 1)) := by
  subst e; rfl

/-- What core `k` ends with: its running sum after its last tile (zero past the grid). -/
def coreSum (c : Dev nD) (k : ℕ) : EReal :=
  if h : 16 * k + 15 < cfg0.N then (scrAt0 V c (16 * k + 15) h : FVec Ideal S1x1 .f32) (ix2 (0 : Fin 1) (0 : Fin 1)) else 0

/-- The output array after the region: core `k`'s sum at entry (8k, 0), zero at every other entry. -/
def outArr (c : Dev nD) (i : S16x128.Idx) : EReal :=
  if (i 0).val % 8 = 0 ∧ (i 1).val = 0 then coreSum V c ((i 0).val / 8) else 0

/-- WHAT A CORE'S LAST POINT WRITES BACK is its block of that array. -/
theorem flushed_eq (c : Dev nD) (t : Fin cfg0.N) (hf : (cfg0.win 2).flush t = true) :
    (dat0 V c).flushed 2 t = ((cfg0.win 2).blk t).view.read (Elt Ideal) (outArr V c) := by
  have h15 : t.val % 16 = 15 := (flush0_2 t).mp hf
  have hN : cfg0.N = 32 := N_0
  have htN := t.isLt
  obtain ⟨-, -, -, -, e0, e1⟩ := idx_facts t
  show (cfg0.win 2).cut (grid0.coords t) ((dat0 V c).after 2 t) = _
  rw [after0_2]
  funext y
  have hy0 : (y 0).val < 8 := (y 0).isLt
  have hy1 : (y 1).val < 128 := (y 1).isLt
  refine (pay3_idx (scrAt0 V c t.val t.isLt) _).trans ?_
  show (if (y 0).val = 0 ∧ (y 1).val = 0 then (scrAt0 V c t.val t.isLt : FVec Ideal S1x1 .f32) (ix2 (0 : Fin 1) (0 : Fin 1)) else 0)
    = outArr V c (((cfg0.win 2).blk t).view.emb y)
  have h0 : ((((cfg0.win 2).blk t).view.emb y) 0).val = t.val / 16 * 8 + (y 0).val := by
    show win0_2.index t (0 : Fin 2) * 8 + 1 * (y 0).val = _; omega
  have h1 : ((((cfg0.win 2).blk t).view.emb y) 1).val = (y 1).val := by
    show win0_2.index t (1 : Fin 2) * 128 + 1 * (y 1).val = _; omega
  unfold outArr
  rw [h0, h1]
  by_cases hy : (y 0).val = 0 ∧ (y 1).val = 0
  · have hd : (t.val / 16 * 8 + (y 0).val) / 8 = t.val / 16 := by omega
    have hlt : 16 * (t.val / 16) + 15 < cfg0.N := by omega
    rw [if_pos hy, if_pos ⟨by omega, hy.2⟩, hd]
    unfold coreSum
    rw [dif_pos hlt]
    exact scr_congr V c (by omega) _ _
  · rw [if_neg hy, if_neg (fun h => hy ⟨by omega, h.2⟩)]

/-- Every entry of the array lies in the block one of the two last points writes back. -/
theorem covered (i : S16x128.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 128 := (i 1).isLt
  obtain ⟨t, htv⟩ : ∃ t : Fin cfg0.N, t.val = 16 * ((i 0).val / 8) + 15 := ⟨⟨16 * ((i 0).val / 8) + 15, by omega⟩, rfl⟩
  obtain ⟨-, -, -, -, e0, e1⟩ := idx_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 128 ≤ (i 1).val ∧ (i 1).val < win0_2.index t (1 : Fin 2) * 128 + 128
    omega

/-- So the array ends holding exactly that. -/
theorem final0 (c : Dev nD) : (dat0 V c).arrAt 2 cfg0.N = outArr V c :=
  (dat0 V c).arrAt_eq_of_cover 2 (outArr V c) (flushed_eq V c) covered

/-! ## The host's sum of the array -/

/-- The sum of all the array's entries is the two cores' sums. -/
theorem outArr_sum (c : Dev nD) : ∑ i : S16x128.Idx, outArr V c i = coreSum V c 0 + coreSum V c 1 := by
  rw [sum_idx2]
  have inner : ∀ a : Fin 16, ∑ b : Fin 128, outArr V c (ix2 a b) = if a.val % 8 = 0 then coreSum V c (a.val / 8) else 0 := by
    intro a
    have e : ∀ b : Fin 128, outArr V c (ix2 a b) = if a.val % 8 = 0 ∧ b.val = 0 then coreSum V c (a.val / 8) else 0 :=
      fun b => rfl
    rw [Finset.sum_congr rfl fun b _ => e b,
      Fintype.sum_eq_single (0 : Fin 128) (fun b hb => if_neg (fun h : a.val % 8 = 0 ∧ b.val = 0 => hb (Fin.ext h.2)))]
    show (if a.val % 8 = 0 ∧ (0 : ℕ) = 0 then coreSum V c (a.val / 8) else 0) = _
    simp
  rw [Finset.sum_congr rfl fun a _ => inner a,
    Fin.sum_univ_eq_sum_range (fun n => if n % 8 = 0 then coreSum V c (n / 8) else 0) 16]
  simp [Finset.sum_range_succ]

end Val0

open Val0

variable (V : (c : Dev nD) → (b : Ref sig .tc) → Buf (Elt Ideal) ((c : Thread nD τ).loc b))

/-- THE VALUE of region 0's output under the host's sum: the kernel's sum over the 32 tiles of the negated tile
    sums of the rows' log-probabilities. -/
theorem val0 (c : Dev nD) :
    Host.reduceAdd (F := Ideal) ((dat0 (F := Ideal) V c).arrAt 2 cfg0.N) (constant (F := Ideal) S_ .f32 0x00000000#32) reducesTo_S16x128_S_d0_1 h_S_
      = fun _ => Cert.Spec.softK (fun R j => V c main_arg3 (ValueIdx.ix2 R j)) (fun R => V c main_v1 (ValueIdx.ix2 R 0)) := by
  have hN : cfg0.N = 32 := N_0
  rw [final0]
  funext j
  show Ideal.hostReduceAdd reducesTo_S16x128_S_d0_1 (outArr V c) (Ideal.ofBits .f32 0x00000000#32) j = _
  rw [Ideal.hostReduceAdd_total reducesTo_S16x128_S_d0_1 (fun b => b.elim0), Ideal.ofBits_zero_f32, zero_add, outArr_sum]
  unfold coreSum
  rw [dif_pos (by omega), dif_pos (by omega), scr_last, scr_last]
  exact cores_sum V c

end Cert.KernelIdeal.Hand

end
-- ==== Proof.KI.Val1.lean ====
/-
  Region 1's two outputs at the ideal values. Each of the 16 grid points adds to two running sums its tile's 256 rows:
  the center term `max (sqrt (the labelled clamped square) - sqrt (the least clamped square)) 0`, the clamped square of
  anchor row `R` and exemplar `j` being `max (|A R|² + |E j|² - 2 A R · E j) 0` (the product contracts the last axis of
  both operands; the labelled entry is picked by a masked sum), and the triplet term
  `max (sqrt |A R - P R|² - sqrt |A R - N R|²) 0`. A core's sums start from 0 at its first tile and are laid at entry
  (0, 0) of an otherwise zero 8x128 block at its last, so each 16x128 output array ends with the first core's sum at
  (0, 0), the second's at (8, 0), and zero elsewhere; the host's sum of the array from 0 is then the sum of the 16 tiles'
  terms. Over the extended reals addition is commutative and associative and `0 + x = x`: no finiteness is used.
-/
import proofs.«419968_j17102559773294_3_alg».proof.Proof.KI.Defs1
import proofs.«419968_j17102559773294_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## Reductions and layout operations read at an index -/

/-- Over row `r`, the index whose dropped column coordinate is `k` is `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- Over column `v`, the index whose dropped row coordinate is `k` is `(k, v)`. -/
theorem lift_col {a b : ℕ} (h : (⟨2, ![a, b]⟩ : Shape).Reduces [0] ⟨1, ![b]⟩) (v : Fin b) (k : Fin a) :
    h.lift (ix1 v) k = ix2 k v := by
  funext c; apply Fin.ext
  match c with
  | ⟨0, _⟩ => rfl
  | ⟨1, _⟩ => rfl

/-- A sum along the columns, at row `r`. -/
theorem sumRow_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

/-- A sum along the rows, at column `v`. -/
theorem sumCol_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (v : Fin b) :
    multiReduction .add [0] ⟨1, ![b]⟩ src acc h hφ hacc (ix1 v) = ∑ k : Fin a, src (ix2 k v) := by
  refine (Ideal.multiReduction_add_single src acc h hφ hacc (ix1 v)).trans ?_
  exact Finset.sum_congr rfl fun k _ => congrArg src (lift_col h v k)

/-- A minimum along the columns, at row `r`: the fold of `min` from the accumulator's value. -/
theorem minRow_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single _ _ src (ix1 r)).trans ?_
  exact congrArg (Finset.fold min (Ideal.ofBits φ acc) · (Finset.univ : Finset (Fin b))) (funext fun k => congrArg src (lift_row h r k))

/-- A vector cast to a column reads its entry at the row. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column broadcast over the columns reads its entry at the row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast over a matrix reads that entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The triplet payload at its entry -/

/-- One tile's update of the triplet sum: the sum before plus, over the tile's 256 rows, the hinge of the
    anchor-positive distance minus the anchor-negative distance. -/
theorem pay2_apply (a p n : (⟨2, ![256, 1024]⟩ : Shape).Idx → EReal) (s : (⟨2, ![1, 1]⟩ : Shape).Idx → EReal) (u v : Fin 1) :
    k1_pay2 (F := Ideal) a p n s (ix2 u v) = s (ix2 u v) + ∑ r : Fin 256,
      max (Ideal.sqrt (∑ k : Fin 1024, (a (ix2 r k) - p (ix2 r k)) * (a (ix2 r k) - p (ix2 r k)))
         - Ideal.sqrt (∑ k : Fin 1024, (a (ix2 r k) - n (ix2 r k)) * (a (ix2 r k) - n (ix2 r k)))) 0 := by
  unfold k1_pay2
  rw [shapeCast_self]
  refine congrArg (s (ix2 u v) + ·) ?_
  refine (shapeCast_a_1a_apply _ shapeCasts_S1_S1x1 u v).trans ?_
  refine (sumCol_apply _ _ reduces_S256x1_S1 _ _ v).trans ?_
  refine Finset.sum_congr rfl fun r _ => ?_
  show max (Ideal.sqrt _ - Ideal.sqrt _) (Ideal.ofBits .f32 0x00000000#32) = _
  rw [Ideal.ofBits_zero_f32]
  refine congrArg₂ (fun x y => max (Ideal.sqrt x - Ideal.sqrt y) 0) ?_ ?_
  · refine (shapeCast_a_a1_apply _ shapeCasts_S256_S256x1 r v).trans ?_
    exact sumRow_apply _ _ reduces_S256x1024_S256 _ _ r
  · refine (shapeCast_a_a1_apply _ shapeCasts_S256_S256x1 r v).trans ?_
    exact sumRow_apply _ _ reduces_S256x1024_S256 _ _ r

/-! ## The blocks: a window's block at point `t` read off its array -/

variable (V : (c : Dev nD) → (b : Ref sig .tc) → Buf (Elt Ideal) ((c : Thread nD τ).loc b))

theorem N1_eq : cfg1.N = 16 := N_1

/-- The printed index maps, decided over the grid: the three row windows and the label window sit at block row
    `t`, the exemplar windows at block (0, 0), the two output windows at block row `t / 8` (the core). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val / 8 ∧ win1_6.index t (1 : Fin 2) = 0
    ∧ win1_7.index t (0 : Fin 2) = t.val / 8 ∧ win1_7.index t (1 : Fin 2) = 0 :=
  (by decide +kernel : ∀ t : Fin grid1.N, _)

/-- Row `r` of the anchor block at point `t` is row `256 t + r` of the anchors. -/
theorem blk0_apply (c : Dev nD) (t : Fin cfg1.N) (r : Fin 256) (k : Fin 1024) (R : Fin 4096) (hR : R.val = 256 * t.val + r.val) :
    (iblk1 V c 0 t : (⟨2, ![256, 1024]⟩ : Shape).Idx → EReal) (ix2 r k) = V c main_arg0 (ix2 R k) := by
  unfold iblk1
  rw [View.read_apply]
  show V c main_arg0 _ = V c main_arg0 _
  congr 1
  funext a; apply Fin.ext
  match a with
  | ⟨0, _⟩ => show win1_0.index t 0 * 256 + 1 * r.val = R.val; rw [(idx_facts1 t).1, hR]; omega
  | ⟨1, _⟩ => show win1_0.index t 1 * 1024 + 1 * k.val = k.val; rw [(idx_facts1 t).2.1]; omega

/-- The same for the positives … -/
theorem blk1_apply (c : Dev nD) (t : Fin cfg1.N) (r : Fin 256) (k : Fin 1024) (R : Fin 4096) (hR : R.val = 256 * t.val + r.val) :
    (iblk1 V c 1 t : (⟨2, ![256, 1024]⟩ : Shape).Idx → EReal) (ix2 r k) = V c main_arg1 (ix2 R k) := by
  unfold iblk1
  rw [View.read_apply]
  show V c main_arg1 _ = V c main_arg1 _
  congr 1
  funext a; apply Fin.ext
  match a with
  | ⟨0, _⟩ => show win1_1.index t 0 * 256 + 1 * r.val = R.val; rw [(idx_facts1 t).2.2.1, hR]; omega
  | ⟨1, _⟩ => show win1_1.index t 1 * 1024 + 1 * k.val = k.val; rw [(idx_facts1 t).2.2.2.1]; omega

/-- … and the negatives. -/
theorem blk2_apply (c : Dev nD) (t : Fin cfg1.N) (r : Fin 256) (k : Fin 1024) (R : Fin 4096) (hR : R.val = 256 * t.val + r.val) :
    (iblk1 V c 2 t : (⟨2, ![256, 1024]⟩ : Shape).Idx → EReal) (ix2 r k) = V c main_arg2 (ix2 R k) := by
  unfold iblk1
  rw [View.read_apply]
  show V c main_arg2 _ = V c main_arg2 _
  congr 1
  funext a; apply Fin.ext
  match a with
  | ⟨0, _⟩ => show win1_2.index t 0 * 256 + 1 * r.val = R.val; rw [(idx_facts1 t).2.2.2.2.1, hR]; omega
  | ⟨1, _⟩ => show win1_2.index t 1 * 1024 + 1 * k.val = k.val; rw [(idx_facts1 t).2.2.2.2.2.1]; omega

/-- The value of row `r` of tile `t` as a row of the whole arrays. -/
theorem tileRow_val (t : Fin 16) (r : Fin 256) : (Cert.Spec.tileRow 16 256 t r).val = 256 * t.val + r.val := rfl

/-! ## The triplet sum over the points -/

/-- The zero the two running sums are reset to. -/
theorem pay7_apply (i : (⟨2, ![1, 1]⟩ : Shape).Idx) : k1_pay7 (F := Ideal) i = 0 := by
  unfold k1_pay7
  rw [shapeCast_self]
  exact Ideal.ofBits_zero_f32

/-- The triplet term of tile `n`: the sum of its 256 rows' hinges (0 past the grid). -/
def tripTile (c : Dev nD) (n : ℕ) : EReal :=
  if h : n < 16 then
    ∑ r : Fin 256, Cert.Spec.tripRow (fun R k => V c main_arg0 (ix2 R k)) (fun R k => V c main_arg1 (ix2 R k))
      (fun R k => V c main_arg2 (ix2 R k)) (Cert.Spec.tileRow 16 256 ⟨n, h⟩ r)
  else 0

/-- One point's update of the triplet sum adds its tile's term. -/
theorem upd1_1_apply (c : Dev nD) (t : Fin cfg1.N) (s : (⟨2, ![1, 1]⟩ : Shape).Idx → EReal) :
    upd1_1 V c t s (ix2 (0 : Fin 1) (0 : Fin 1)) = s (ix2 (0 : Fin 1) (0 : Fin 1)) + tripTile V c t.val := by
  have ht : t.val < 16 := by have := t.isLt; have := N1_eq; omega
  unfold upd1_1 tripTile
  rw [dif_pos ht]
  refine (pay2_apply (iblk1 V c 0 t) (iblk1 V c 1 t) (iblk1 V c 2 t) s 0 0).trans ?_
  refine congrArg (s (ix2 (0 : Fin 1) (0 : Fin 1)) + ·) (Finset.sum_congr rfl fun r _ => ?_)
  unfold Cert.Spec.tripRow
  have e0 : ∀ k : Fin 1024, (iblk1 V c 0 t : (⟨2, ![256, 1024]⟩ : Shape).Idx → EReal) (ix2 r k)
      = V c main_arg0 (ix2 (Cert.Spec.tileRow 16 256 ⟨t.val, ht⟩ r) k) := fun k => blk0_apply V c t r k _ rfl
  have e1 : ∀ k : Fin 1024, (iblk1 V c 1 t : (⟨2, ![256, 1024]⟩ : Shape).Idx → EReal) (ix2 r k)
      = V c main_arg1 (ix2 (Cert.Spec.tileRow 16 256 ⟨t.val, ht⟩ r) k) := fun k => blk1_apply V c t r k _ rfl
  have e2 : ∀ k : Fin 1024, (iblk1 V c 2 t : (⟨2, ![256, 1024]⟩ : Shape).Idx → EReal) (ix2 r k)
      = V c main_arg2 (ix2 (Cert.Spec.tileRow 16 256 ⟨t.val, ht⟩ r) k) := fun k => blk2_apply V c t r k _ rfl
  simp only [e0, e1, e2]

theorem scrAt1_zero_snd (c : Dev nD) (hn : 0 < cfg1.N) : (scrAt1 V c 0 hn).2 = upd1_1 V c ⟨0, hn⟩ (k1_pay7 (F := Ideal)) := rfl
theorem scrAt1_succ_snd (c : Dev nD) (n : ℕ) (hn : n + 1 < cfg1.N) :
    (scrAt1 V c (n + 1) hn).2
      = upd1_1 V c ⟨n + 1, hn⟩ (if (n + 1) % 8 = 0 then (k1_pay7 (F := Ideal)) else (scrAt1 V c n (Nat.lt_of_succ_lt hn)).2) := rfl

/-- The triplet sum after point `n`: the terms of the core's tiles up to `n`. -/
theorem trip_inv (c : Dev nD) : ∀ (n : ℕ) (hn : n < cfg1.N),
    (scrAt1 V c n hn).2 (ix2 (0 : Fin 1) (0 : Fin 1)) = ∑ i ∈ Finset.range (n % 8 + 1), tripTile V c (n - n % 8 + i) := by
  intro n
  induction n with
  | zero =>
    intro hn
    rw [scrAt1_zero_snd, upd1_1_apply, pay7_apply]
    simp
  | succ n ih =>
    intro hn
    rw [scrAt1_succ_snd, upd1_1_apply]
    by_cases h : (n + 1) % 8 = 0
    · rw [if_pos h, pay7_apply, h]
      simp
    · rw [if_neg h, ih]
      have e1 : (n + 1) % 8 = n % 8 + 1 := by omega
      have e2 : n + 1 - (n % 8 + 1) = n - n % 8 := by omega
      have e3 : n - n % 8 + (n % 8 + 1) = n + 1 := by omega
      rw [e1, e2, Finset.sum_range_succ (fun i => tripTile V c (n - n % 8 + i)) (n % 8 + 1), e3]

/-! ## From the two written blocks to the output arrays -/

/-- An index is `(a, b)` when its coordinates are. -/
theorem idx2_eq_iff {n0 n1 : ℕ} (i : (⟨2, ![n0, n1]⟩ : Shape).Idx) (a : Fin n0) (b : Fin n1) :
    i = ix2 a b ↔ (i 0).val = a.val ∧ (i 1).val = b.val := by
  constructor
  · rintro rfl; exact ⟨rfl, rfl⟩
  · rintro ⟨h0, h1⟩
    funext d; apply Fin.ext
    match d with
    | ⟨0, _⟩ => exact h0
    | ⟨1, _⟩ => exact h1

theorem ofNat32_eq_zero_iff (n : ℕ) (hn : n < 4294967296) : BitVec.ofNat 32 n = 0#32 ↔ n = 0 := by
  constructor
  · intro h
    have h' := congrArg BitVec.toNat h
    rw [BitVec.toNat_ofNat] at h'
    have : (0#32 : BitVec 32).toNat = 0 := rfl
    omega
  · rintro rfl; rfl

/-- The mask of an output block's first entry. -/
theorem pay3_one_iff (R : Fin 8) (C : Fin 128) : k1_pay3 (ix2 R C) = 1#1 ↔ R.val = 0 ∧ C.val = 0 := by
  unfold k1_pay3
  show IntOp.andi (IntOp.cmpi .eq (iota .tc S8x128 32 [0] iota_S8x128_d0_w32 (ix2 R C)) 0#32)
      (IntOp.cmpi .eq (iota .tc S8x128 32 [1] iota_S8x128_d1_w32 (ix2 R C)) 0#32) = 1#1 ↔ _
  rw [IntOp.andi_eq_one, IntOp.cmpi_eq, IntOp.cmpi_eq, iota_single_apply, iota_single_apply]
  have hR := R.isLt; have hC := C.isLt
  exact and_congr (ofNat32_eq_zero_iff R.val (by omega)) (ofNat32_eq_zero_iff C.val (by omega))

/-- A running sum laid into an 8x128 block: the sum at entry (0, 0), zero elsewhere (the center sum's block … -/
theorem pay4_apply (s : (⟨2, ![1, 1]⟩ : Shape).Idx → EReal) (R : Fin 8) (C : Fin 128) :
    k1_pay4 (F := Ideal) s (ix2 R C) = if R.val = 0 ∧ C.val = 0 then s (ix2 (0 : Fin 1) (0 : Fin 1)) else 0 := by
  unfold k1_pay4
  rw [shapeCast_self]
  show Scalar.select (k1_pay3 (ix2 R C)) (broadcastTo S8x128 s broadcasts_S1x1_S8x128 (ix2 R C)) (Ideal.ofBits .f32 0x00000000#32) = _
  rw [broadcastTo_11_ab_apply, Ideal.ofBits_zero_f32]
  unfold Scalar.select
  exact if_congr (pay3_one_iff R C) rfl rfl

/-- … and the triplet sum's). -/
theorem pay5_apply (s : (⟨2, ![1, 1]⟩ : Shape).Idx → EReal) (R : Fin 8) (C : Fin 128) :
    k1_pay5 (F := Ideal) s (ix2 R C) = if R.val = 0 ∧ C.val = 0 then s (ix2 (0 : Fin 1) (0 : Fin 1)) else 0 := by
  unfold k1_pay5
  rw [shapeCast_self]
  show Scalar.select (k1_pay3 (ix2 R C)) (broadcastTo S8x128 s broadcasts_S1x1_S8x128 (ix2 R C)) (Ideal.ofBits .f32 0x00000000#32) = _
  rw [broadcastTo_11_ab_apply, Ideal.ofBits_zero_f32]
  unfold Scalar.select
  exact if_congr (pay3_one_iff R C) rfl rfl

/-- What an output array ends holding: the first core's final sum at (0, 0), the second core's at (8, 0), zero elsewhere. -/
def outArr (s7 s15 : EReal) : (⟨2, ![16, 128]⟩ : Shape).Idx → EReal :=
  fun i => (if i = ix2 (0 : Fin 16) (0 : Fin 128) then s7 else 0) + (if i = ix2 (8 : Fin 16) (0 : Fin 128) then s15 else 0)

/-- A laid-out sum is its core's block of that array: block row `q` holds the sum of core `q`. -/
theorem lay_outArr (s7 s15 : EReal) (blk : (⟨2, ![8, 128]⟩ : Shape).Idx → EReal) (s00 : EReal)
    (hblk : ∀ (R : Fin 8) (C : Fin 128), blk (ix2 R C) = if R.val = 0 ∧ C.val = 0 then s00 else 0) (q : ℕ)
    (hs : (q = 0 ∧ s00 = s7) ∨ (q = 1 ∧ s00 = s15))
    (j : (⟨2, ![8, 128]⟩ : Shape).Idx) (i : (⟨2, ![16, 128]⟩ : Shape).Idx)
    (h0 : (i 0).val = q * 8 + 1 * (j 0).val) (h1 : (i 1).val = 0 * 128 + 1 * (j 1).val) :
    blk j = outArr s7 s15 i := by
  obtain ⟨R, C, rfl⟩ : ∃ (R : Fin 8) (C : Fin 128), j = ix2 R C := ⟨j 0, j 1, eq_ix2 j⟩
  rw [hblk]
  unfold outArr
  have hR := R.isLt; have hC := C.isLt
  have h0' : (i 0).val = q * 8 + R.val := by rw [h0]; show q * 8 + 1 * R.val = _; omega
  have h1' : (i 1).val = C.val := by rw [h1]; show 0 * 128 + 1 * C.val = _; omega
  have c0 : i = ix2 (0 : Fin 16) (0 : Fin 128) ↔ (i 0).val = 0 ∧ (i 1).val = 0 := idx2_eq_iff i 0 0
  have c8 : i = ix2 (8 : Fin 16) (0 : Fin 128) ↔ (i 0).val = 8 ∧ (i 1).val = 0 := idx2_eq_iff i 8 0
  rcases hs with ⟨rfl, hs⟩ | ⟨rfl, hs⟩
  · have n8 : ¬ i = ix2 (8 : Fin 16) (0 : Fin 128) := fun e => by have := c8.mp e; omega
    rw [if_neg n8, add_zero, hs]
    exact if_congr (c0.trans (by omega)).symm rfl rfl
  · have n0 : ¬ i = ix2 (0 : Fin 16) (0 : Fin 128) := fun e => by have := c0.mp e; omega
    rw [if_neg n0, zero_add, hs]
    exact if_congr (c8.trans (by omega)).symm rfl rfl

theorem lt7 : 7 < cfg1.N := by have := N1_eq; omega
theorem lt15 : 15 < cfg1.N := by have := N1_eq; omega

/-- An index of a 16x128 output array is in point `t`'s block iff each coordinate is in the block's range. -/
theorem mem_blk7 (t : Fin cfg1.N) (i : (⟨2, ![16, 128]⟩ : Shape).Idx) :
    i ∈ ((cfg1.win 7).blk t).view.set ↔ ∀ a : Fin 2, win1_7.index t a * S8x128.size a ≤ (i a).val ∧ (i a).val < win1_7.index t a * S8x128.size a + S8x128.size a := by
  show i ∈ ((View.whole main_v10_1).slice (win1_7.rect t)).set ↔ _
  rw [View.set_slice_whole, Rect.mem_set_unit]
  exact Iff.rfl

/-- The two written blocks cover the triplet output array. -/
theorem cover7 (i : (⟨2, ![16, 128]⟩ : Shape).Idx) :
    ∃ t : Fin cfg1.N, (cfg1.win 7).flush t = true ∧ i ∈ ((cfg1.win 7).blk t).view.set := by
  have hN := N1_eq
  have hi0 : (i 0).val < 16 := (i 0).isLt
  have hi1 : (i 1).val < 128 := (i 1).isLt
  refine ⟨⟨8 * ((i 0).val / 8) + 7, by omega⟩, (flush1_7 _).mpr (by show (8 * ((i 0).val / 8) + 7) % 8 = 7; omega), ?_⟩
  rw [mem_blk7]
  obtain ⟨-, -, -, -, -, -, -, -, -, -, -, -, -, -, e0, e1⟩ := idx_facts1 ⟨8 * ((i 0).val / 8) + 7, by omega⟩
  intro a
  match a with
  | ⟨0, _⟩ =>
    show win1_7.index _ (0 : Fin 2) * 8 ≤ (i 0).val ∧ (i 0).val < win1_7.index _ (0 : Fin 2) * 8 + 8
    rw [e0]; dsimp only; omega
  | ⟨1, _⟩ =>
    show win1_7.index _ (1 : Fin 2) * 128 ≤ (i 1).val ∧ (i 1).val < win1_7.index _ (1 : Fin 2) * 128 + 128
    rw [e1]; omega

/-- What a point that writes back writes to the triplet output: its core's block of the final array. -/
theorem flushed7_eq (c : Dev nD) (t : Fin cfg1.N) (hf : (cfg1.win 7).flush t = true) :
    (dat1 (F := Ideal) V c).flushed 7 t = ((cfg1.win 7).blk t).view.read (Elt Ideal)
      (outArr ((scrAt1 V c 7 lt7).2 (ix2 (0 : Fin 1) (0 : Fin 1))) ((scrAt1 V c 15 lt15).2 (ix2 (0 : Fin 1) (0 : Fin 1)))) := by
  have hN := N1_eq
  have hm : t.val % 8 = 7 := (flush1_7 t).mp hf
  obtain ⟨-, -, -, -, -, -, -, -, -, -, -, -, -, -, e0, e1⟩ := idx_facts1 t
  show (cfg1.win 7).cut (grid1.coords t) ((dat1 (F := Ideal) V c).after 7 t) = _
  rw [after1_7]
  funext j
  rw [View.read_apply]
  refine lay_outArr _ _ (k1_pay5 (F := Ideal) (scrAt1 V c t.val t.isLt).2) ((scrAt1 V c t.val t.isLt).2 (ix2 (0 : Fin 1) (0 : Fin 1)))
    (pay5_apply _) (t.val / 8) ?_ j (((cfg1.win 7).blk t).view.emb j) ?_ ?_
  · obtain ⟨n, hn⟩ := t
    have : n = 7 ∨ n = 15 := by dsimp only at hm; omega
    rcases this with rfl | rfl
    · exact Or.inl ⟨(by decide : 7 / 8 = 0), rfl⟩
    · exact Or.inr ⟨(by decide : 15 / 8 = 1), rfl⟩
  · show win1_7.index t (0 : Fin 2) * 8 + 1 * (j 0).val = _
    rw [e0]
  · show win1_7.index t (1 : Fin 2) * 128 + 1 * (j 1).val = _
    rw [e1]

/-- So the triplet output array ends holding the two cores' final sums. -/
theorem final7 (c : Dev nD) : (dat1 (F := Ideal) V c).arrAt 7 cfg1.N
    = outArr ((scrAt1 V c 7 lt7).2 (ix2 (0 : Fin 1) (0 : Fin 1))) ((scrAt1 V c 15 lt15).2 (ix2 (0 : Fin 1) (0 : Fin 1))) :=
  (dat1 (F := Ideal) V c).arrAt_eq_of_cover 7 _ (fun t hf => flushed7_eq V c t hf) cover7

/-- The host's sum of such an array from zero is the sum of the two cores' sums. -/
theorem hostSum_outArr (s7 s15 : EReal) :
    Host.reduceAdd (F := Ideal) (outArr s7 s15) (constant (F := Ideal) S_ .f32 0x00000000#32) reducesTo_S16x128_S_d0_1 h_S_
      = fun _ => s7 + s15 := by
  funext j
  show Ideal.hostReduceAdd reducesTo_S16x128_S_d0_1 (outArr s7 s15) (Ideal.ofBits .f32 0x00000000#32) j = _
  rw [Ideal.hostReduceAdd_total reducesTo_S16x128_S_d0_1 (fun b => b.elim0), Ideal.ofBits_zero_f32, zero_add]
  unfold outArr
  rw [Finset.sum_add_distrib, Finset.sum_ite_eq', Finset.sum_ite_eq', if_pos (Finset.mem_univ _), if_pos (Finset.mem_univ _)]

/-- THE TRIPLET LEG: the host's sum of the triplet output array is the sum over the 16 tiles of their rows' hinges. -/
theorem val1_trip (c : Dev nD) :
    Host.reduceAdd (F := Ideal) ((dat1 (F := Ideal) V c).arrAt 7 cfg1.N) (constant (F := Ideal) S_ .f32 0x00000000#32) reducesTo_S16x128_S_d0_1 h_S_
      = fun _ => Cert.Spec.tripK (fun R k => V c main_arg0 (ValueIdx.ix2 R k)) (fun R k => V c main_arg1 (ValueIdx.ix2 R k)) (fun R k => V c main_arg2 (ValueIdx.ix2 R k)) := by
  rw [final7, hostSum_outArr, trip_inv, trip_inv]
  funext _
  show (∑ i ∈ Finset.range 8, tripTile V c (0 + i)) + (∑ i ∈ Finset.range 8, tripTile V c (8 + i)) = _
  simp only [zero_add]
  rw [← Finset.sum_range_add (tripTile V c) 8 8]
  unfold Cert.Spec.tripK
  rw [← Fin.sum_univ_eq_sum_range (tripTile V c) 16]
  refine Finset.sum_congr rfl fun t _ => ?_
  unfold tripTile
  rw [dif_pos t.isLt]

/-! ## The center payloads at an index

The matmul contracts the last axis of both operands: at `(r, j)` it is the sum over `k` of anchor row `r` times
exemplar row `j`. -/

theorem lhs_dot_0 (i : S256x5000.Idx) (q : dot_S256x1024_S5000x1024_S256x5000_1_1_0_0_n_n.contr.Idx) :
    (dot_S256x1024_S5000x1024_S256x5000_1_1_0_0_n_n.lhsIdx i q 0).val = (i 0).val := by
  unfold DotDims.lhsIdx
  rw [dif_neg (show ¬(0 : Fin S256x1024.rank) ∈ dot_S256x1024_S5000x1024_S256x5000_1_1_0_0_n_n.lhsBatch by decide), dif_pos (show (0 : Fin S256x1024.rank) ∈ dot_S256x1024_S5000x1024_S256x5000_1_1_0_0_n_n.lhsNonContracting by decide)]
  rfl
theorem lhs_dot_1 (i : S256x5000.Idx) (q : dot_S256x1024_S5000x1024_S256x5000_1_1_0_0_n_n.contr.Idx) :
    (dot_S256x1024_S5000x1024_S256x5000_1_1_0_0_n_n.lhsIdx i q 1).val = (q ⟨0, by decide⟩).val :=
  dot_S256x1024_S5000x1024_S256x5000_1_1_0_0_n_n.lhsIdx_val_of_single rfl i q
theorem rhs_dot_0 (i : S256x5000.Idx) (q : dot_S256x1024_S5000x1024_S256x5000_1_1_0_0_n_n.contr.Idx) :
    (dot_S256x1024_S5000x1024_S256x5000_1_1_0_0_n_n.rhsIdx i q 0).val = (i 1).val := by
  unfold DotDims.rhsIdx
  rw [dif_neg (show ¬(0 : Fin S5000x1024.rank) ∈ dot_S256x1024_S5000x1024_S256x5000_1_1_0_0_n_n.rhsBatch by decide), dif_pos (show (0 : Fin S5000x1024.rank) ∈ dot_S256x1024_S5000x1024_S256x5000_1_1_0_0_n_n.rhsNonContracting by decide)]
  rfl
theorem rhs_dot_1 (i : S256x5000.Idx) (q : dot_S256x1024_S5000x1024_S256x5000_1_1_0_0_n_n.contr.Idx) :
    (dot_S256x1024_S5000x1024_S256x5000_1_1_0_0_n_n.rhsIdx i q 1).val = (q ⟨0, by decide⟩).val :=
  dot_S256x1024_S5000x1024_S256x5000_1_1_0_0_n_n.rhsIdx_val_of_single rfl i q

/-- The product of the anchor block with the exemplars, at `(r, j)`. -/
theorem dot_apply (a : FVec Ideal S256x1024 .bf16) (e : FVec Ideal S5000x1024 .bf16) (r : Fin 256) (j : Fin 5000) :
    matmul dot_S256x1024_S5000x1024_S256x5000_1_1_0_0_n_n none a e (constant (F := Ideal) S256x5000 .f32 0x00000000#32) (ix2 r j)
      = ∑ k : Fin 1024, a (ix2 r k) * e (ix2 j k) := by
  simp only [matmul]
  rw [Ideal.matmul_constant_zero_apply, ← Equiv.sum_comp (ValueIdx.contrEquiv1 dot_S256x1024_S5000x1024_S256x5000_1_1_0_0_n_n 1024 rfl rfl).symm]
  refine Finset.sum_congr rfl fun k _ => ?_
  have hk := ValueIdx.contrEquiv1_symm_val dot_S256x1024_S5000x1024_S256x5000_1_1_0_0_n_n 1024 rfl rfl k
  have el : dot_S256x1024_S5000x1024_S256x5000_1_1_0_0_n_n.lhsIdx (ix2 r j) ((ValueIdx.contrEquiv1 dot_S256x1024_S5000x1024_S256x5000_1_1_0_0_n_n 1024 rfl rfl).symm k) = ix2 r k := funext fun a => Fin.ext (by
    match a with
    | ⟨0, _⟩ => exact lhs_dot_0 _ _
    | ⟨1, _⟩ => exact (lhs_dot_1 _ _).trans hk)
  have er : dot_S256x1024_S5000x1024_S256x5000_1_1_0_0_n_n.rhsIdx (ix2 r j) ((ValueIdx.contrEquiv1 dot_S256x1024_S5000x1024_S256x5000_1_1_0_0_n_n 1024 rfl rfl).symm k) = ix2 j k := funext fun a => Fin.ext (by
    match a with
    | ⟨0, _⟩ => exact rhs_dot_0 _ _
    | ⟨1, _⟩ => exact (rhs_dot_1 _ _).trans hk)
  rw [el, er]

/-- A root at an index is the root of the entry. -/
theorem sqrt_apply {s : Shape} {φ : FTy} (x : FVec Ideal s φ) (i : s.Idx) : sqrt x i = Ideal.sqrt (x i) := rfl

/-- The clamped square at `(r, j)`: the anchor row's squared norm plus the exemplar's, minus twice their product, at least 0. -/
theorem pay8_apply (a : (⟨2, ![256, 1024]⟩ : Shape).Idx → EReal) (e : (⟨2, ![5000, 1024]⟩ : Shape).Idx → EReal)
    (e2 : (⟨2, ![1, 5000]⟩ : Shape).Idx → EReal) (r : Fin 256) (j : Fin 5000) :
    k1_pay8 (F := Ideal) a e e2 (ix2 r j)
      = max (((∑ k : Fin 1024, a (ix2 r k) * a (ix2 r k)) + e2 (ix2 (0 : Fin 1) j))
          - Cert.Spec.two * (∑ k : Fin 1024, a (ix2 r k) * e (ix2 j k))) 0 := by
  unfold k1_pay8
  simp only [shapeCast_self]
  show max ((_ + _) - Ideal.ofBits .f32 0x40000000#32 * _) (Ideal.ofBits .f32 0x00000000#32) = _
  rw [Ideal.ofBits_zero_f32]
  refine congrArg₂ (fun x y => max (x - Cert.Spec.two * y) 0) (congrArg₂ (· + ·) ?_ ?_) ?_
  · refine (broadcastTo_a1_ab_apply _ broadcasts_S256x1_S256x5000 r j).trans ?_
    refine (shapeCast_a_a1_apply _ shapeCasts_S256_S256x1 r 0).trans ?_
    exact sumRow_apply _ _ reduces_S256x1024_S256 _ _ r
  · exact broadcastTo_1b_ab_apply _ broadcasts_S1x5000_S256x5000 r j
  · exact dot_apply _ _ r j

/-- The root of the masked sum of a row's clamped squares: the column whose index is the row's label. -/
theorem pay9_apply (a : (⟨2, ![256, 1024]⟩ : Shape).Idx → EReal) (e : (⟨2, ![5000, 1024]⟩ : Shape).Idx → EReal)
    (e2 : (⟨2, ![1, 5000]⟩ : Shape).Idx → EReal) (l : (⟨2, ![256, 1]⟩ : Shape).Idx → BitVec 32) (r : Fin 256) (u : Fin 1) :
    k1_pay9 (F := Ideal) a e e2 l (ix2 r u)
      = Ideal.sqrt (∑ j : Fin 5000, if BitVec.ofNat 32 j.val = l (ix2 r (0 : Fin 1)) then k1_pay8 (F := Ideal) a e e2 (ix2 r j) else 0) := by
  unfold k1_pay9
  refine (sqrt_apply _ (ix2 r u)).trans ?_
  refine congrArg Ideal.sqrt ?_
  refine (shapeCast_a_a1_apply _ shapeCasts_S256_S256x1 r u).trans ?_
  refine (sumRow_apply _ _ reduces_S256x5000_S256 _ _ r).trans ?_
  refine Finset.sum_congr rfl fun j _ => ?_
  show Scalar.select (IntOp.cmpi .eq (iota .tc S256x5000 32 [1] iota_S256x5000_d1_w32 (ix2 r j))
      (broadcastTo S256x5000 (shapeCast S256x1 l shapeCasts_S256x1_S256x1) broadcasts_S256x1_S256x5000 (ix2 r j)))
      (k1_pay8 (F := Ideal) a e e2 (ix2 r j)) (Ideal.ofBits .f32 0x00000000#32) = _
  rw [iota_single_apply, shapeCast_self, broadcastTo_a1_ab_apply, Ideal.ofBits_zero_f32]
  unfold Scalar.select
  exact if_congr IntOp.cmpi_eq rfl rfl

/-- The root of the least of a row's clamped squares. -/
theorem pay10_apply (a : (⟨2, ![256, 1024]⟩ : Shape).Idx → EReal) (e : (⟨2, ![5000, 1024]⟩ : Shape).Idx → EReal)
    (e2 : (⟨2, ![1, 5000]⟩ : Shape).Idx → EReal) (r : Fin 256) (u : Fin 1) :
    k1_pay10 (F := Ideal) a e e2 (ix2 r u)
      = Ideal.sqrt ((Finset.univ : Finset (Fin 5000)).fold min Cert.Spec.posInf (fun j => k1_pay8 (F := Ideal) a e e2 (ix2 r j))) := by
  unfold k1_pay10
  refine (sqrt_apply _ (ix2 r u)).trans ?_
  refine congrArg Ideal.sqrt ?_
  refine (shapeCast_a_a1_apply _ shapeCasts_S256_S256x1 r u).trans ?_
  exact minRow_apply _ _ reduces_S256x5000_S256 _ _ r

/-- One tile's update of the center sum: the sum before plus, over the tile's 256 rows, the hinge of the two roots' difference. -/
theorem pay1_apply (x y : (⟨2, ![256, 1]⟩ : Shape).Idx → EReal) (s : (⟨2, ![1, 1]⟩ : Shape).Idx → EReal) (u v : Fin 1) :
    k1_pay1 (F := Ideal) x y s (ix2 u v) = s (ix2 u v) + ∑ r : Fin 256, max (x (ix2 r v) - y (ix2 r v)) 0 := by
  unfold k1_pay1
  rw [shapeCast_self]
  refine congrArg (s (ix2 u v) + ·) ?_
  refine (shapeCast_a_1a_apply _ shapeCasts_S1_S1x1 u v).trans ?_
  refine (sumCol_apply _ _ reduces_S256x1_S1 _ _ v).trans ?_
  refine Finset.sum_congr rfl fun r _ => ?_
  show max (_ - _) (Ideal.ofBits .f32 0x00000000#32) = _
  rw [Ideal.ofBits_zero_f32]

/-! ## The center sum over the points -/

/-- The exemplar window's block is the whole array of exemplars … -/
theorem blk3_apply (c : Dev nD) (t : Fin cfg1.N) (j : Fin 5000) (k : Fin 1024) :
    (iblk1 V c 3 t : (⟨2, ![5000, 1024]⟩ : Shape).Idx → EReal) (ix2 j k) = V c main_v5 (ix2 j k) := by
  obtain ⟨-, -, -, -, -, -, a30, a31, -⟩ := idx_facts1 t
  unfold iblk1
  rw [View.read_apply]
  show V c main_v5 _ = V c main_v5 _
  congr 1
  funext a; apply Fin.ext
  match a with
  | ⟨0, _⟩ => show win1_3.index t 0 * 5000 + 1 * j.val = j.val; rw [a30]; omega
  | ⟨1, _⟩ => show win1_3.index t 1 * 1024 + 1 * k.val = k.val; rw [a31]; omega

/-- … the squared-norm window's the whole row of squared norms … -/
theorem blk4_apply (c : Dev nD) (t : Fin cfg1.N) (j : Fin 5000) :
    (iblk1 V c 4 t : (⟨2, ![1, 5000]⟩ : Shape).Idx → EReal) (ix2 (0 : Fin 1) j) = V c main_v8 (ix2 (0 : Fin 1) j) := by
  obtain ⟨-, -, -, -, -, -, -, -, a40, a41, -⟩ := idx_facts1 t
  unfold iblk1
  rw [View.read_apply]
  show V c main_v8 _ = V c main_v8 _
  congr 1
  funext a; apply Fin.ext
  match a with
  | ⟨0, _⟩ => show win1_4.index t 0 * 1 + 1 * 0 = 0; rw [a40]
  | ⟨1, _⟩ => show win1_4.index t 1 * 5000 + 1 * j.val = j.val; rw [a41]; omega

/-- … and row `r` of the label block at point `t` is row `256 t + r` of the labels. -/
theorem blk5_apply (c : Dev nD) (t : Fin cfg1.N) (r : Fin 256) (R : Fin 4096) (hR : R.val = 256 * t.val + r.val) :
    (iblk1 V c 5 t : (⟨2, ![256, 1]⟩ : Shape).Idx → BitVec 32) (ix2 r (0 : Fin 1)) = V c main_v9 (ix2 R (0 : Fin 1)) := by
  obtain ⟨-, -, -, -, -, -, -, -, -, -, a50, a51, -⟩ := idx_facts1 t
  unfold iblk1
  rw [View.read_apply]
  show V c main_v9 _ = V c main_v9 _
  congr 1
  funext a; apply Fin.ext
  match a with
  | ⟨0, _⟩ => show win1_5.index t 0 * 256 + 1 * r.val = R.val; rw [a50, hR]; omega
  | ⟨1, _⟩ => show win1_5.index t 1 * 1 + 1 * 0 = 0; rw [a51]

theorem pay6_apply (i : (⟨2, ![1, 1]⟩ : Shape).Idx) : k1_pay6 (F := Ideal) i = 0 := by
  unfold k1_pay6
  rw [shapeCast_self]
  exact Ideal.ofBits_zero_f32

/-- Exemplar `j`'s entry of the squared-norm row, and entry `(j, k)` of the exemplars, as extended reals. -/
abbrev sqn1 (c : Dev nD) (j : Fin 5000) : EReal := V c main_v8 (ValueIdx.ix2 (0 : Fin 1) j)
abbrev exm1 (c : Dev nD) (j : Fin 5000) (k : Fin 1024) : EReal := V c main_v5 (ValueIdx.ix2 j k)

/-- The squared-norm row holds the exemplars' squared norms. -/
abbrev SqNorms (c : Dev nD) : Prop :=
  ∀ j : Fin 5000, sqn1 V c j = ∑ k : Fin 1024, exm1 V c j k * exm1 V c j k

/-- The clamped square of the blocks at point `t` is the clamped squared distance of anchor row `256 t + r` to exemplar `j`. -/
theorem pay8_blk (c : Dev nD) (he2 : SqNorms V c) (t : Fin cfg1.N) (ht : t.val < 16) (r : Fin 256) (j : Fin 5000) :
    k1_pay8 (F := Ideal) (iblk1 V c 0 t) (iblk1 V c 3 t) (iblk1 V c 4 t) (ix2 r j)
      = Cert.Spec.sq (fun R k => V c main_arg0 (ix2 R k)) (fun j k => V c main_v5 (ix2 j k)) (Cert.Spec.tileRow 16 256 ⟨t.val, ht⟩ r) j := by
  refine (pay8_apply (iblk1 V c 0 t) (iblk1 V c 3 t) (iblk1 V c 4 t) r j).trans ?_
  unfold Cert.Spec.sq
  have e0 : ∀ k : Fin 1024, (iblk1 V c 0 t : (⟨2, ![256, 1024]⟩ : Shape).Idx → EReal) (ix2 r k)
      = V c main_arg0 (ix2 (Cert.Spec.tileRow 16 256 ⟨t.val, ht⟩ r) k) := fun k => blk0_apply V c t r k _ rfl
  have e3 : ∀ k : Fin 1024, (iblk1 V c 3 t : (⟨2, ![5000, 1024]⟩ : Shape).Idx → EReal) (ix2 j k) = V c main_v5 (ix2 j k) :=
    fun k => blk3_apply V c t j k
  have e4 : (iblk1 V c 4 t : (⟨2, ![1, 5000]⟩ : Shape).Idx → EReal) (ix2 (0 : Fin 1) j) = V c main_v8 (ix2 (0 : Fin 1) j) :=
    blk4_apply V c t j
  simp only [e0, e3, e4]
  exact congrArg (fun z : EReal => max ((_ + z) - _) 0) (he2 j)

/-- The center term of tile `n`: the sum of its 256 rows' hinges (0 past the grid). -/
def centerTile (c : Dev nD) (n : ℕ) : EReal :=
  if h : n < 16 then
    ∑ r : Fin 256, Cert.Spec.centerRowK (fun R k => V c main_arg0 (ix2 R k)) (fun j k => V c main_v5 (ix2 j k))
      (fun R => V c main_v9 (ix2 R (0 : Fin 1))) (Cert.Spec.tileRow 16 256 ⟨n, h⟩ r)
  else 0

/-- One point's update of the center sum adds its tile's term. -/
theorem upd1_0_apply (c : Dev nD) (he2 : SqNorms V c) (t : Fin cfg1.N) (s : (⟨2, ![1, 1]⟩ : Shape).Idx → EReal) :
    upd1_0 V c t s (ix2 (0 : Fin 1) (0 : Fin 1)) = s (ix2 (0 : Fin 1) (0 : Fin 1)) + centerTile V c t.val := by
  have ht : t.val < 16 := by have := t.isLt; have := N1_eq; omega
  unfold upd1_0 centerTile
  rw [dif_pos ht]
  refine (pay1_apply (k1_pay9 (F := Ideal) (iblk1 V c 0 t) (iblk1 V c 3 t) (iblk1 V c 4 t) (iblk1 V c 5 t))
    (k1_pay10 (F := Ideal) (iblk1 V c 0 t) (iblk1 V c 3 t) (iblk1 V c 4 t)) s 0 0).trans ?_
  refine congrArg (s (ix2 (0 : Fin 1) (0 : Fin 1)) + ·) (Finset.sum_congr rfl fun r _ => ?_)
  unfold Cert.Spec.centerRowK
  refine congrArg₂ (fun x y => max (x - y) 0) ?_ ?_
  · refine (pay9_apply (iblk1 V c 0 t) (iblk1 V c 3 t) (iblk1 V c 4 t) (iblk1 V c 5 t) r 0).trans ?_
    refine congrArg Ideal.sqrt ?_
    unfold Cert.Spec.pick
    refine Finset.sum_congr rfl fun j _ => ?_
    rw [pay8_blk V c he2 t ht r j, blk5_apply V c t r (Cert.Spec.tileRow 16 256 ⟨t.val, ht⟩ r) rfl]
  · refine (pay10_apply (iblk1 V c 0 t) (iblk1 V c 3 t) (iblk1 V c 4 t) r 0).trans ?_
    refine congrArg Ideal.sqrt ?_
    exact congrArg (Finset.fold min Cert.Spec.posInf · (Finset.univ : Finset (Fin 5000))) (funext fun j => pay8_blk V c he2 t ht r j)

theorem scrAt1_zero_fst (c : Dev nD) (hn : 0 < cfg1.N) : (scrAt1 V c 0 hn).1 = upd1_0 V c ⟨0, hn⟩ (k1_pay6 (F := Ideal)) := rfl
theorem scrAt1_succ_fst (c : Dev nD) (n : ℕ) (hn : n + 1 < cfg1.N) :
    (scrAt1 V c (n + 1) hn).1
      = upd1_0 V c ⟨n + 1, hn⟩ (if (n + 1) % 8 = 0 then (k1_pay6 (F := Ideal)) else (scrAt1 V c n (Nat.lt_of_succ_lt hn)).1) := rfl

/-- The center sum after point `n`: the terms of the core's tiles up to `n`. -/
theorem center_inv (c : Dev nD) (he2 : SqNorms V c) : ∀ (n : ℕ) (hn : n < cfg1.N),
    (scrAt1 V c n hn).1 (ix2 (0 : Fin 1) (0 : Fin 1)) = ∑ i ∈ Finset.range (n % 8 + 1), centerTile V c (n - n % 8 + i) := by
  intro n
  induction n with
  | zero =>
    intro hn
    rw [scrAt1_zero_fst, upd1_0_apply V c he2, pay6_apply]
    simp
  | succ n ih =>
    intro hn
    rw [scrAt1_succ_fst, upd1_0_apply V c he2]
    by_cases h : (n + 1) % 8 = 0
    · rw [if_pos h, pay6_apply, h]
      simp
    · rw [if_neg h, ih]
      have e1 : (n + 1) % 8 = n % 8 + 1 := by omega
      have e2 : n + 1 - (n % 8 + 1) = n - n % 8 := by omega
      have e3 : n - n % 8 + (n % 8 + 1) = n + 1 := by omega
      rw [e1, e2, Finset.sum_range_succ (fun i => centerTile V c (n - n % 8 + i)) (n % 8 + 1), e3]

/-- An index of the center output array is in point `t`'s block iff each coordinate is in the block's range. -/
theorem mem_blk6 (t : Fin cfg1.N) (i : (⟨2, ![16, 128]⟩ : Shape).Idx) :
    i ∈ ((cfg1.win 6).blk t).view.set ↔ ∀ a : Fin 2, win1_6.index t a * S8x128.size a ≤ (i a).val ∧ (i a).val < win1_6.index t a * S8x128.size a + S8x128.size a := by
  show i ∈ ((View.whole main_v10_0).slice (win1_6.rect t)).set ↔ _
  rw [View.set_slice_whole, Rect.mem_set_unit]
  exact Iff.rfl

/-- The two written blocks cover the center output array. -/
theorem cover6 (i : (⟨2, ![16, 128]⟩ : Shape).Idx) :
    ∃ t : Fin cfg1.N, (cfg1.win 6).flush t = true ∧ i ∈ ((cfg1.win 6).blk t).view.set := by
  have hN := N1_eq
  have hi0 : (i 0).val < 16 := (i 0).isLt
  have hi1 : (i 1).val < 128 := (i 1).isLt
  refine ⟨⟨8 * ((i 0).val / 8) + 7, by omega⟩, (flush1_6 _).mpr (by show (8 * ((i 0).val / 8) + 7) % 8 = 7; omega), ?_⟩
  rw [mem_blk6]
  obtain ⟨-, -, -, -, -, -, -, -, -, -, -, -, e0, e1, -⟩ := idx_facts1 ⟨8 * ((i 0).val / 8) + 7, by omega⟩
  intro a
  match a with
  | ⟨0, _⟩ =>
    show win1_6.index _ (0 : Fin 2) * 8 ≤ (i 0).val ∧ (i 0).val < win1_6.index _ (0 : Fin 2) * 8 + 8
    rw [e0]; dsimp only; omega
  | ⟨1, _⟩ =>
    show win1_6.index _ (1 : Fin 2) * 128 ≤ (i 1).val ∧ (i 1).val < win1_6.index _ (1 : Fin 2) * 128 + 128
    rw [e1]; omega

/-- What a point that writes back writes to the center output: its core's block of the final array. -/
theorem flushed6_eq (c : Dev nD) (t : Fin cfg1.N) (hf : (cfg1.win 6).flush t = true) :
    (dat1 (F := Ideal) V c).flushed 6 t = ((cfg1.win 6).blk t).view.read (Elt Ideal)
      (outArr ((scrAt1 V c 7 lt7).1 (ix2 (0 : Fin 1) (0 : Fin 1))) ((scrAt1 V c 15 lt15).1 (ix2 (0 : Fin 1) (0 : Fin 1)))) := by
  have hN := N1_eq
  have hm : t.val % 8 = 7 := (flush1_6 t).mp hf
  obtain ⟨-, -, -, -, -, -, -, -, -, -, -, -, e0, e1, -⟩ := idx_facts1 t
  show (cfg1.win 6).cut (grid1.coords t) ((dat1 (F := Ideal) V c).after 6 t) = _
  rw [after1_6]
  funext j
  rw [View.read_apply]
  refine lay_outArr _ _ (k1_pay4 (F := Ideal) (scrAt1 V c t.val t.isLt).1) ((scrAt1 V c t.val t.isLt).1 (ix2 (0 : Fin 1) (0 : Fin 1)))
    (pay4_apply _) (t.val / 8) ?_ j (((cfg1.win 6).blk t).view.emb j) ?_ ?_
  · obtain ⟨n, hn⟩ := t
    have : n = 7 ∨ n = 15 := by dsimp only at hm; omega
    rcases this with rfl | rfl
    · exact Or.inl ⟨(by decide : 7 / 8 = 0), rfl⟩
    · exact Or.inr ⟨(by decide : 15 / 8 = 1), rfl⟩
  · show win1_6.index t (0 : Fin 2) * 8 + 1 * (j 0).val = _
    rw [e0]
  · show win1_6.index t (1 : Fin 2) * 128 + 1 * (j 1).val = _
    rw [e1]

/-- So the center output array ends holding the two cores' final sums. -/
theorem final6 (c : Dev nD) : (dat1 (F := Ideal) V c).arrAt 6 cfg1.N
    = outArr ((scrAt1 V c 7 lt7).1 (ix2 (0 : Fin 1) (0 : Fin 1))) ((scrAt1 V c 15 lt15).1 (ix2 (0 : Fin 1) (0 : Fin 1))) :=
  (dat1 (F := Ideal) V c).arrAt_eq_of_cover 6 _ (fun t hf => flushed6_eq V c t hf) cover6

/-- THE CENTER LEG: given the exemplars' squared norms, the host's sum of the center output array is the sum over the
    16 tiles of their rows' hinges of the labelled root minus the least root. -/
theorem val1_center (c : Dev nD)
    (he2 : ∀ j : Fin 5000, sqn1 V c j = ∑ k : Fin 1024, exm1 V c j k * exm1 V c j k) :
    Host.reduceAdd (F := Ideal) ((dat1 (F := Ideal) V c).arrAt 6 cfg1.N) (constant (F := Ideal) S_ .f32 0x00000000#32) reducesTo_S16x128_S_d0_1 h_S_
      = fun _ => Cert.Spec.centerK (fun R k => V c main_arg0 (ValueIdx.ix2 R k)) (fun j k => V c main_v5 (ValueIdx.ix2 j k))
          (fun R => V c main_v9 (ValueIdx.ix2 R 0)) := by
  rw [final6, hostSum_outArr, center_inv V c he2, center_inv V c he2]
  funext _
  show (∑ i ∈ Finset.range 8, centerTile V c (0 + i)) + (∑ i ∈ Finset.range 8, centerTile V c (8 + i)) = _
  simp only [zero_add]
  rw [← Finset.sum_range_add (centerTile V c) 8 8]
  unfold Cert.Spec.centerK
  rw [← Fin.sum_univ_eq_sum_range (centerTile V c) 16]
  refine Finset.sum_congr rfl fun t _ => ?_
  unfold centerTile
  rw [dif_pos t.isLt]

end Cert.KernelIdeal.Hand

end
-- ==== Proof.KI.Final.lean ====
/-
  The program's four results as the specification's functions of the launch memory's argument arrays, at the
  extended reals.

  Each result is a host term over the regions' output arrays; the regions' values are the specification's sums over
  tiles of the arrays the regions read; and what a region reads is, entry by entry, an argument array: the logits and
  the three row arrays as launched, the labels as a column (a reshape reads entry R at (R, 0)), the exemplars through
  a truncation that the extended reals do not see, and the exemplars' squared norms as the host's sums of squares
  from zero, laid out as a row. The total is read at its one index: a sum and two products with the words of 1.0 and
  0.5.
-/
import proofs.«419968_j17102559773294_3_alg».proof.Proof.KI.KVal
import proofs.«419968_j17102559773294_3_alg».proof.Proof.KI.Val0
import proofs.«419968_j17102559773294_3_alg».proof.Proof.KI.Val1
import proofs.«419968_j17102559773294_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx

namespace Final

/-! ## Layout operations read at an index -/

section Layout
variable {α : Type}

/-- An `[a]` array cast to a column `[a, 1]` reads, at `(i, u)`, the operand at `i`. -/
theorem kf_cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar cast to one entry reads the scalar. -/
theorem kf_cast_scalar (y : (⟨0, ![]⟩ : Shape).Idx → α) (h : (⟨0, ![]⟩ : Shape).ShapeCasts (⟨1, ![1]⟩ : Shape))
    (i : (⟨1, ![1]⟩ : Shape).Idx) : shapeCast (⟨1, ![1]⟩ : Shape) y h i = y ix0 := by
  unfold shapeCast
  exact congrArg y (eq_ix0 _)

/-- The index a reduction along the columns inserts: row `j`, column `k`. -/
theorem kf_lift_col (h : S5000x1024.Reduces [1] S5000) (j : Fin 5000) (k : Fin (S5000x1024.size 1)) :
    h.lift (ix1 j) k = ix2 j (⟨k.val, k.isLt⟩ : Fin 1024) := by
  funext a
  match a with
  | ⟨0, _⟩ => rfl
  | ⟨1, _⟩ => rfl

end Layout

end Final

open Final

/-! ## The argument arrays as functions of their coordinates -/

variable (m : (ℓ : Loc nD τ sig) → Buf (Elt Ideal) ℓ) (c : Dev nD)

/-- The logits, the anchors, the positives, the negatives and the exemplars, entry by entry. -/
abbrev O : Fin 12288 → Fin 5000 → EReal :=
  fun (R : Fin 12288) (j : Fin 5000) => (m ((c.tc : Thread nD τ).loc main_arg3) (ValueIdx.ix2 R j) : EReal)
abbrev A : Fin 4096 → Fin 1024 → EReal :=
  fun (R : Fin 4096) (k : Fin 1024) => (m ((c.tc : Thread nD τ).loc main_arg0) (ValueIdx.ix2 R k) : EReal)
abbrev P : Fin 4096 → Fin 1024 → EReal :=
  fun (R : Fin 4096) (k : Fin 1024) => (m ((c.tc : Thread nD τ).loc main_arg1) (ValueIdx.ix2 R k) : EReal)
abbrev N : Fin 4096 → Fin 1024 → EReal :=
  fun (R : Fin 4096) (k : Fin 1024) => (m ((c.tc : Thread nD τ).loc main_arg2) (ValueIdx.ix2 R k) : EReal)
abbrev E : Fin 5000 → Fin 1024 → EReal :=
  fun (j : Fin 5000) (k : Fin 1024) => (m ((c.tc : Thread nD τ).loc main_arg6) (ValueIdx.ix2 j k) : EReal)
/-- The anchors' labels, and the labels of the three stacked groups of rows of the logits. -/
abbrev la : Fin 4096 → BitVec 32 :=
  fun (R : Fin 4096) => m ((c.tc : Thread nD τ).loc main_arg4) (ValueIdx.ix1 R)
abbrev lab : Fin 12288 → BitVec 32 :=
  fun (R : Fin 12288) => concatenate S12288 0 [⟨S4096, m ((c.tc : Thread nD τ).loc main_arg4)⟩, ⟨S4096, m ((c.tc : Thread nD τ).loc main_arg4)⟩,
    ⟨S4096, m ((c.tc : Thread nD τ).loc main_arg5)⟩] concatenates_S4096_S4096_S4096_S12288_d0 (ValueIdx.ix1 R)

/-- The words of 12288.0, 1.0 and 0.5, as the program carries them. -/
abbrev c12288 : EReal := Ideal.ofBits .f32 0x46400000#32
abbrev one : EReal := Ideal.ofBits .f32 0x3F800000#32
abbrev half : EReal := Ideal.ofBits .f32 0x3F000000#32

namespace Final

/-! ## What the regions read, as those functions -/

theorem O_eq : (fun (R : Fin 12288) (j : Fin 5000) => VR1 m c main_arg3 (ValueIdx.ix2 R j)) = O m c :=
  funext fun R => funext fun j => congrFun (in1_arg3 m c) (ix2 R j)

theorem lab_eq : (fun (R : Fin 12288) => VR1 m c main_v1 (ValueIdx.ix2 R 0)) = lab m c :=
  funext fun R => (congrFun (in1_v1 m c) (ix2 R 0)).trans (kf_cast_col _ _ R 0)

theorem A_eq : (fun (R : Fin 4096) (k : Fin 1024) => VR3 m c main_arg0 (ValueIdx.ix2 R k)) = A m c :=
  funext fun R => funext fun k => congrFun (in3_arg0 m c) (ix2 R k)
theorem P_eq : (fun (R : Fin 4096) (k : Fin 1024) => VR3 m c main_arg1 (ValueIdx.ix2 R k)) = P m c :=
  funext fun R => funext fun k => congrFun (in3_arg1 m c) (ix2 R k)
theorem N_eq : (fun (R : Fin 4096) (k : Fin 1024) => VR3 m c main_arg2 (ValueIdx.ix2 R k)) = N m c :=
  funext fun R => funext fun k => congrFun (in3_arg2 m c) (ix2 R k)

/-- The exemplars reach region 1 truncated to bf16, which the extended reals do not see. -/
theorem E_eq : (fun (j : Fin 5000) (k : Fin 1024) => VR3 m c main_v5 (ValueIdx.ix2 j k)) = E m c :=
  funext fun j => funext fun k => congrFun (in3_v5 m c) (ix2 j k)

theorem la_eq : (fun (R : Fin 4096) => VR3 m c main_v9 (ValueIdx.ix2 R 0)) = la m c :=
  funext fun R => (congrFun (in3_v9 m c) (ix2 R 0)).trans (kf_cast_col _ _ R 0)

/-- The row of squared norms region 1 reads is, entry by entry, the sum of the squares of the exemplar's coordinates
    as region 1 reads them: the host sums the squares from zero. -/
abbrev sqnR (j : Fin 5000) : EReal := VR3 m c main_v8 (ValueIdx.ix2 (0 : Fin 1) j)
abbrev exmR (j : Fin 5000) (k : Fin 1024) : EReal := VR3 m c main_v5 (ValueIdx.ix2 j k)
theorem norms_eq (j : Fin 5000) : sqnR m c j = ∑ k : Fin 1024, exmR m c j k * exmR m c j k := by
  refine (congrFun (in3_v8 m c) (ix2 (0 : Fin 1) j)).trans ?_
  refine (shapeCast_a_1a_apply _ _ (0 : Fin 1) j).trans ?_
  refine (hostReduceAdd_apply _ _ _ _ _).trans ?_
  refine (Ideal.hostReduceAdd_single reducesTo_S5000x1024_S5000_d1 (by decide) _ _ _).trans ?_
  rw [constant_apply, Ideal.ofBits_zero_f32, zero_add]
  have hE : ∀ k : Fin 1024, exmR m c j k = E m c j k := fun k => congrFun (in3_v5 m c) (ix2 j k)
  refine Finset.sum_congr rfl fun k _ => ?_
  refine (congrArg _ (kf_lift_col _ j k)).trans ?_
  show E m c j ⟨k.val, k.isLt⟩ * E m c j ⟨k.val, k.isLt⟩ = exmR m c j ⟨k.val, k.isLt⟩ * exmR m c j ⟨k.val, k.isLt⟩
  rw [hE]

end Final

open Final

/-! ## The four results -/

/-- The softmax result: the kernel's sum of the negated tile sums, divided by the word of 12288.0. -/
theorem kf_soft : Gen.V5 m (outs m) c main_v4 = fun _ => Ideal.div (Cert.Spec.softK (O m c) (lab m c)) c12288 := by
  rw [k_v4, val0 (VR1 m) c, O_eq, lab_eq]
  rfl

/-- The triplet result: the kernel's sum over the tiles of the rows' hinges. -/
theorem kf_trip : Gen.V5 m (outs m) c main_v13 = fun _ => Cert.Spec.tripK (A m c) (P m c) (N m c) := by
  rw [k_v13, k_v12, val1_trip (VR3 m) c, A_eq, P_eq, N_eq]
  funext i
  exact kf_cast_scalar _ _ i

/-- The center result: the kernel's sum over the tiles of the rows' hinges against the exemplars. -/
theorem kf_center : Gen.V5 m (outs m) c main_v14 = fun _ => Cert.Spec.centerK (A m c) (E m c) (la m c) := by
  rw [k_v14, k_v11, val1_center (VR3 m) c (norms_eq m c), A_eq, E_eq, la_eq]
  funext i
  exact kf_cast_scalar _ _ i

/-- The three results at their one index, as extended reals. -/
abbrev softVal : EReal := Gen.V5 m (outs m) c main_v4 ValueIdx.ix0
abbrev tripVal : EReal := Gen.V5 m (outs m) c main_v13 (ValueIdx.ix1 0)
abbrev centerVal : EReal := Gen.V5 m (outs m) c main_v14 (ValueIdx.ix1 0)

/-- The total: the softmax result plus 1.0 times the triplet result plus 0.5 times the center result. -/
theorem kf_total : Gen.V5 m (outs m) c main_v21 = fun _ => (softVal m c + one * tripVal m c) + half * centerVal m c := by
  rw [k_v21]
  funext i
  have hi : (i 0).val < 1 := (i 0).isLt
  obtain rfl : i = ix1 (0 : Fin 1) := (eq_ix1 i).trans (congrArg ix1 (Fin.ext (Nat.lt_one_iff.mp hi)))
  rw [addf_apply, addf_apply, mulf_apply, mulf_apply, broadcastInDim_scalar_apply, broadcastInDim_scalar_apply,
    broadcastInDim_scalar_apply, constant_apply, constant_apply]

end Cert.KernelIdeal.Hand

end
-- ==== Proof.RefValue.lean ====
/-
  The reference program's results as the specification's functions of the argument arrays, at the ideal instance.

  Triplet leg: for every anchor row the two sums of squared differences over the 1024 coordinates, their roots, the
  hinge of the difference, and the sum over the 4096 rows from zero.
  Softmax leg: a row's log-softmax is (x - max x) - log (sum of exp (x - max x)); the maximum taken from -∞ and once
  more against -∞ is the row's maximum. The labelled column is read by a gather whose index is the label itself: a
  label below 5000 is non-negative as a signed word, so the wrap by 5000 does nothing, the range test passes and
  the clamp leaves it. The sum over the 12288 rows from zero, divided by the word of 12288.0, negated.
  Total: the softmax result plus 1.0 times the triplet result plus 0.5 times the center result, at the one index.
-/
import proofs.«419968_j17102559773294_3_alg».proof.Proof.RefRead
import proofs.«419968_j17102559773294_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Sums over index sets, by coordinates -/

/-- A rank-1 index set is its coordinate's. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  Fintype.sum_equiv idxEquiv1 f (fun a => f (ix1 a)) (fun j => congrArg f (eq_ix1 j))

/-- A cast of a scalar to one entry reads the scalar. -/
theorem shapeCast_scalar {α : Type} (y : (⟨0, ![]⟩ : Shape).Idx → α) (h : (⟨0, ![]⟩ : Shape).ShapeCasts (⟨1, ![1]⟩ : Shape))
    (i : (⟨1, ![1]⟩ : Shape).Idx) : shapeCast (⟨1, ![1]⟩ : Shape) y h i = y ix0 := by
  unfold shapeCast
  exact congrArg y (eq_ix0 _)

/-! ## The arguments as functions of their coordinates -/

variable (m : (ℓ : Loc nD τ sig) → Buf (Elt Ideal) ℓ) (c : Dev nD)

abbrev O : Fin 12288 → Fin 5000 → EReal :=
  fun (R : Fin 12288) (j : Fin 5000) => (m ((c.tc : Thread nD τ).loc main_arg3) (ValueIdx.ix2 R j) : EReal)
abbrev A : Fin 4096 → Fin 1024 → EReal :=
  fun (R : Fin 4096) (k : Fin 1024) => (m ((c.tc : Thread nD τ).loc main_arg0) (ValueIdx.ix2 R k) : EReal)
abbrev P : Fin 4096 → Fin 1024 → EReal :=
  fun (R : Fin 4096) (k : Fin 1024) => (m ((c.tc : Thread nD τ).loc main_arg1) (ValueIdx.ix2 R k) : EReal)
abbrev N : Fin 4096 → Fin 1024 → EReal :=
  fun (R : Fin 4096) (k : Fin 1024) => (m ((c.tc : Thread nD τ).loc main_arg2) (ValueIdx.ix2 R k) : EReal)
abbrev E : Fin 5000 → Fin 1024 → EReal :=
  fun (j : Fin 5000) (k : Fin 1024) => (m ((c.tc : Thread nD τ).loc main_arg6) (ValueIdx.ix2 j k) : EReal)
abbrev la : Fin 4096 → BitVec 32 :=
  fun (R : Fin 4096) => m ((c.tc : Thread nD τ).loc main_arg4) (ValueIdx.ix1 R)
abbrev lab : Fin 12288 → BitVec 32 :=
  fun (R : Fin 12288) => concatenate S12288 0 [⟨S4096, m ((c.tc : Thread nD τ).loc main_arg4)⟩, ⟨S4096, m ((c.tc : Thread nD τ).loc main_arg4)⟩,
    ⟨S4096, m ((c.tc : Thread nD τ).loc main_arg5)⟩] concatenates_S4096_S4096_S4096_S12288_d0 (ValueIdx.ix1 R)

abbrev c12288 : EReal := Ideal.ofBits .f32 0x46400000#32
abbrev one : EReal := Ideal.ofBits .f32 0x3F800000#32
abbrev half : EReal := Ideal.ofBits .f32 0x3F000000#32

/-! ## A reduce over one axis and a row gather, read at an index -/

section Layout
variable {α : Type}

/-- The reduced index `r` with column `k` put back is (r, k). -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext a; apply Fin.ext
  fin_cases a <;> rfl

/-- The reduced index (r, z) with the last coordinate put back is (r, z, k). -/
theorem lift2_ix3 {m : Nat} (h : (⟨3, ![m, 1, 1]⟩ : Shape).Reduces [2] (⟨2, ![m, 1]⟩ : Shape)) (r : Fin m) (z : Fin 1)
    (k : Fin ((⟨3, ![m, 1, 1]⟩ : Shape).size 2)) : h.lift (ix2 r z) k = ix3 r z (⟨k.val, k.isLt⟩ : Fin 1) := by
  funext a; apply Fin.ext
  fin_cases a <;> rfl

/-- A one-operand reduce over the columns, at row `r`: the fold of the body over the row from the initial value. -/
theorem hostReduce_row {m n : Nat} (f : α → α → α) [Std.Commutative f] [Std.Associative f]
    (x : (⟨2, ![m, n]⟩ : Shape).Idx → α) {u : Shape} (init : u.Idx → α)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce f x init h' hu (ix1 r)
      = (Finset.univ : Finset (Fin n)).fold f (init (Shape.Idx.first hu)) (fun k => x (ix2 r k)) := by
  rw [Host.reduce_eq_fold_single f x init h' h hu]
  have hf : (x ∘ h.lift (ix1 r)) = fun k : Fin n => x (ix2 r k) := funext fun k => congrArg x (lift1_ix2 h r k)
  exact congrArg (fun g => Finset.fold f (init (Shape.Idx.first hu)) g (Finset.univ : Finset (Fin n))) hf

/-- A one-operand reduce over a last axis of extent one: the one element combined with the initial value. -/
theorem hostReduce_unit {m : Nat} (f : α → α → α) [Std.Commutative f] [Std.Associative f]
    (x : (⟨3, ![m, 1, 1]⟩ : Shape).Idx → α) {u : Shape} (init : u.Idx → α)
    (h' : (⟨3, ![m, 1, 1]⟩ : Shape).ReducesTo [2] (⟨2, ![m, 1]⟩ : Shape))
    (h : (⟨3, ![m, 1, 1]⟩ : Shape).Reduces [2] (⟨2, ![m, 1]⟩ : Shape)) (hu : 0 < u.numel) (r : Fin m) (z : Fin 1) :
    Host.reduce f x init h' hu (ix2 r z) = f (x (ix3 r z (0 : Fin 1))) (init (Shape.Idx.first hu)) := by
  rw [Host.reduce_eq_fold_single f x init h' h hu]
  have hf : (x ∘ h.lift (ix2 r z)) = fun k : Fin 1 => x (ix3 r z k) := funext fun k => congrArg x (lift2_ix3 h r z k)
  refine (congrArg (fun g => Finset.fold f (init (Shape.Idx.first hu)) g (Finset.univ : Finset (Fin 1))) hf).trans ?_
  rw [show (Finset.univ : Finset (Fin 1)) = {0} from rfl, Finset.fold_singleton]

/-- The dimension numbers of a gather of one column per row: operand `[R, C]`, start indices `[R, 1, 1]`, result
    `[R, 1]`; axis 0 a batching axis on both, axis 1 collapsed and indexed. -/
abbrev rowDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- That gather at (r, z): the operand's row `r` at the start index, read signed and clamped into `[0, C − 1]`. -/
theorem gather_row_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) (z : Fin 1) :
    Host.gather (rowDims R C wf) x idx (ix2 r z)
      = x (ix2 r ⟨min (idx (ix3 r z (0 : Fin 1))).toInt.toNat (C - 1), by omega⟩) := by
  unfold Host.gather
  congr 1
  funext a
  refine Fin.ext ?_
  show (rowDims R C wf).start (ix2 r z) idx a + (rowDims R C wf).batchCoord (ix2 r z) a + (rowDims R C wf).offCoord (ix2 r z) a = _
  match a with
  | ⟨0, _⟩ =>
    rw [GatherDims.offCoord_eq_zero _ _ _ (fun h => ((GatherDims.mem_sKept _ _).mp h).2 (List.mem_singleton.mpr rfl))]
    rw [GatherDims.start_batching _ _ _ _ (List.mem_singleton.mpr rfl)]
    simp only [Nat.add_zero, Nat.zero_add]
    unfold GatherDims.batchCoord
    rw [dif_pos (show (⟨0, by decide⟩ : Fin 2) ∈ (rowDims R C wf).operandBatchingDims from List.mem_singleton.mpr rfl)]
    rfl
  | ⟨1, _⟩ =>
    rw [GatherDims.offCoord_eq_zero _ _ _ (fun h => ((GatherDims.mem_sKept _ _).mp h).1 (List.mem_singleton.mpr rfl))]
    rw [GatherDims.batchCoord_eq_zero _ _ _ (fun h => absurd (congrArg Fin.val (List.mem_singleton.mp h)) Nat.one_ne_zero)]
    simp only [Nat.add_zero]
    unfold GatherDims.start
    rw [dif_pos (show (⟨1, by decide⟩ : Fin 2) ∈ (rowDims R C wf).startIndexMap from List.mem_singleton.mpr rfl)]
    have hsi : (rowDims R C wf).siIdx (ix2 r z) ⟨List.idxOf (⟨1, by decide⟩ : Fin 2) (rowDims R C wf).startIndexMap,
        List.idxOf_lt_length_iff.2 (List.mem_singleton.mpr rfl)⟩ = ix3 r z (0 : Fin 1) := by
      funext b; refine Fin.ext ?_
      match b with
      | ⟨0, _⟩ => rfl
      | ⟨1, _⟩ => rfl
      | ⟨2, _⟩ => rfl
    rw [hsi]
    rfl

end Layout

/-! ## A label word below 5000 -/

theorem toInt_small (l : BitVec 32) (h : l.toNat < 5000) : l.toInt = (l.toNat : Int) := by
  rw [BitVec.toInt_eq_toNat_cond]
  rw [if_pos (by omega)]

theorem toInt_zero32 : (0#32 : BitVec 32).toInt = 0 := by decide
theorem toInt_4999 : (4999#32 : BitVec 32).toInt = 4999 := by decide

/-- It is not negative as a signed word … -/
theorem slt_zero (l : BitVec 32) (h : l.toNat < 5000) : IntOp.cmpi .slt l 0#32 = 0#1 := by
  have h0 : ¬ ((l.toNat : Int) < 0) := by omega
  show BitVec.ofBool (l.slt 0#32) = 0#1
  rw [BitVec.slt, toInt_small l h, toInt_zero32, decide_eq_false h0]
  rfl

theorem sge_zero (l : BitVec 32) (h : l.toNat < 5000) : IntOp.cmpi .sge l 0#32 = 1#1 := by
  have h0 : (0 : Int) ≤ (l.toNat : Int) := by omega
  show BitVec.ofBool ((0#32 : BitVec 32).sle l) = 1#1
  rw [BitVec.sle, toInt_small l h, toInt_zero32, decide_eq_true h0]
  rfl

/-- … it is at most 4999 … -/
theorem sle_max (l : BitVec 32) (h : l.toNat < 5000) : IntOp.cmpi .sle l 4999#32 = 1#1 := by
  have h0 : (l.toNat : Int) ≤ 4999 := by omega
  show BitVec.ofBool (l.sle 4999#32) = 1#1
  rw [BitVec.sle, toInt_small l h, toInt_4999, decide_eq_true h0]
  rfl

/-- … and the clamp into [0, 4999] leaves it. -/
theorem clamp_small (l : BitVec 32) (h : l.toNat < 5000) : min l.toInt.toNat (5000 - 1) = l.toNat := by
  rw [toInt_small l h, Int.toNat_natCast]
  omega

/-- The word of -∞ is the least extended real, so a maximum with it changes nothing. -/
theorem max_negInf (y : EReal) : max (Ideal.ofBits .f32 0xFF800000#32) y = y := by
  have hb : Ideal.ofBits .f32 0xFF800000#32 = ⊥ := by simp [Ideal.ofBits, Ideal.ieee]
  rw [hb]
  exact max_bot_left y

/-! ## The triplet leg -/

/-- The triplet result's term: the sum over the rows of the hinged difference of the two distances, cast to one entry. -/
abbrev trip39 : (⟨S1, .f32⟩ : BufTy).Contents (Elt Ideal) :=
  shapeCast S1 (Host.reduceAdd (F := Ideal) (maximumf (subf (Host.sqrt (Host.reduceAdd (F := Ideal) (mulf (subf (m ((c.tc : Thread nD τ).loc main_arg0)) (m ((c.tc : Thread nD τ).loc main_arg1))) (subf (m ((c.tc : Thread nD τ).loc main_arg0)) (m ((c.tc : Thread nD τ).loc main_arg1)))) (constant (F := Ideal) S_ .f32 0x00000000#32) reducesTo_S4096x1024_S4096_d1 h_S_)) (Host.sqrt (Host.reduceAdd (F := Ideal) (mulf (subf (m ((c.tc : Thread nD τ).loc main_arg0)) (m ((c.tc : Thread nD τ).loc main_arg2))) (subf (m ((c.tc : Thread nD τ).loc main_arg0)) (m ((c.tc : Thread nD τ).loc main_arg2)))) (constant (F := Ideal) S_ .f32 0x00000000#32) reducesTo_S4096x1024_S4096_d1 h_S_))) (broadcastInDim S4096 ![] bcast_S_S4096 (constant (F := Ideal) S_ .f32 0x00000000#32))) (constant (F := Ideal) S_ .f32 0x00000000#32) reducesTo_S4096_S_d0 h_S_) shapeCasts_S_S1

theorem idx_v30 (R : Fin 4096) (k : Fin 1024) : idx_main_v30 (ix1 R) k = ix2 R k :=
  funext fun a => Fin.ext (by match a with | ⟨0, _⟩ => rfl | ⟨1, _⟩ => rfl)
theorem idx_v34 (R : Fin 4096) (k : Fin 1024) : idx_main_v34 (ix1 R) k = ix2 R k :=
  funext fun a => Fin.ext (by match a with | ⟨0, _⟩ => rfl | ⟨1, _⟩ => rfl)

/-- One row of the triplet leg: the hinge of the difference of the two distances. -/
theorem trip_row (x0 x1 x2 : (⟨S4096x1024, .f32⟩ : BufTy).Contents (Elt Ideal)) (R : Fin 4096) :
    val_main_v37 (F := Ideal) x0 x1 x2 (ix1 R)
      = Cert.Spec.tripRow (fun R k => x0 (ix2 R k)) (fun R k => x1 (ix2 R k)) (fun R k => x2 (ix2 R k)) R := by
  rw [val_main_v37_apply, val_main_call3_v0_apply, val_main_call3_cst_apply, val_main_v36_apply, val_main_v31_apply,
    val_main_v35_apply, val_main_v30_apply, val_main_v34_apply, val_main_cst_6_apply, val_main_cst_7_apply]
  simp only [val_main_v29_apply, val_main_v33_apply, val_main_v28_apply, val_main_v32_apply, idx_v30, idx_v34,
    Ideal.ofBits_def, Ideal.ofBits_zero_f32, zero_add, Ideal.maximumf_def, Ideal.subf_def, Ideal.mulf_def,
    Ideal.hostUnary_sqrt_def]
  rfl

theorem ref_trip : trip39 m c = fun _ => Cert.Spec.tripR (A m c) (P m c) (N m c) := by
  funext i
  refine (congrFun (val_main_v39_eq (F := Ideal) (m ((c.tc : Thread nD τ).loc main_arg0)) (m ((c.tc : Thread nD τ).loc main_arg1))
    (m ((c.tc : Thread nD τ).loc main_arg2))) i).trans ?_
  unfold val_main_v39
  rw [shapeCast_scalar, val_main_v38_apply, val_main_cst_8_apply, Ideal.ofBits_def, Ideal.ofBits_zero_f32, zero_add, sum_idx1]
  unfold Cert.Spec.tripR
  exact Finset.sum_congr rfl fun R _ => trip_row _ _ _ R

/-! ## The softmax leg -/

section Soft
variable (x3 : (⟨S12288x5000, .f32⟩ : BufTy).Contents (Elt Ideal)) (x4 x5 : (⟨S4096, .i32⟩ : BufTy).Contents (Elt Ideal))

theorem idx_c0_v3v4 (R : Fin 12288) (j : Fin 5000) : idx_main_call0_v3 (idx_main_call0_v4 (ix2 R j)) = ix1 R :=
  funext fun a => Fin.ext (by match a with | ⟨0, _⟩ => rfl)
theorem idx_c0_v7 (R : Fin 12288) (k : Fin 5000) : idx_main_call0_v7 (ix1 R) k = ix2 R k :=
  funext fun a => Fin.ext (by match a with | ⟨0, _⟩ => rfl | ⟨1, _⟩ => rfl)
theorem idx_c0_v8v10 (R : Fin 12288) (j : Fin 5000) : idx_main_call0_v8 (idx_main_call0_v10 (ix2 R j)) = ix1 R :=
  funext fun a => Fin.ext (by match a with | ⟨0, _⟩ => rfl)

/-- A row's maximum: the reduce from -∞, once more against -∞. -/
theorem rowmax_row (R : Fin 12288) :
    val_main_call0_v2 (F := Ideal) x3 (ix1 R) = Cert.Spec.rowMax (fun j => x3 (ix2 R j)) := by
  rw [val_main_call0_v2_apply, val_main_call0_v1_apply, val_main_call0_cst_0_apply, Ideal.ofBits_def, Ideal.maximumf_def, max_negInf]
  unfold val_main_call0_v0
  refine (hostReduce_row (FloatOps.maximumf (F := Ideal) (φ := .f32)) x3 (val_main_call0_cst (F := Ideal))
    reducesTo_S12288x5000_S12288_d1 (by decide) h_S_ R).trans ?_
  rw [val_main_call0_cst_apply, Ideal.ofBits_def]
  rfl

/-- The row shifted by its maximum. -/
theorem shifted_row (R : Fin 12288) (j : Fin 5000) :
    val_main_call0_v5 (F := Ideal) x3 (ix2 R j) = x3 (ix2 R j) - Cert.Spec.rowMax (fun j => x3 (ix2 R j)) := by
  rw [val_main_call0_v5_apply, val_main_call0_v4_apply, val_main_call0_v3_apply, idx_c0_v3v4, rowmax_row, Ideal.subf_def]

/-- The logarithm of the sum of the exponentials of the shifted row. -/
theorem lse_row (R : Fin 12288) (j : Fin 5000) :
    val_main_call0_v10 (F := Ideal) x3 (ix2 R j) = Cert.Spec.lse (fun j => x3 (ix2 R j)) := by
  rw [val_main_call0_v10_apply, val_main_call0_v9_apply, val_main_call0_v8_apply, idx_c0_v8v10, val_main_call0_v7_apply,
    val_main_call0_cst_1_apply, Ideal.ofBits_def, Ideal.ofBits_zero_f32, zero_add, Ideal.hostUnary_log_def]
  simp only [val_main_call0_v6_apply, idx_c0_v7, shifted_row, Ideal.hostUnary_exp_def]
  rfl

/-- The log-softmax at (R, j). -/
theorem logsoftmax_at (R : Fin 12288) (j : Fin 5000) :
    val_main_v1 (F := Ideal) x3 (ix2 R j)
      = (x3 (ix2 R j) - Cert.Spec.rowMax (fun j => x3 (ix2 R j))) - Cert.Spec.lse (fun j => x3 (ix2 R j)) := by
  rw [val_main_v1_apply, shifted_row, lse_row, Ideal.subf_def]

theorem idx_c1_v5 (R : Fin 12288) : idx_main_call1_v5 (ix3 R (0 : Fin 1) (0 : Fin 1)) = ix2 R (0 : Fin 1) :=
  funext fun a => Fin.ext (by
    match a with
    | ⟨0, _⟩ => show ((R.val * 1 + 0) * 1 + 0) / 1 = R.val; omega
    | ⟨1, _⟩ => rfl)
theorem idx_v2 (R : Fin 12288) : idx_main_v2 (ix2 R (0 : Fin 1)) = ix1 R :=
  funext fun a => Fin.ext (by match a with | ⟨0, _⟩ => rfl)

/-- The wrapped index is the label itself. -/
theorem wrapped_label (R : Fin 12288) (h : (val_main_v0 (F := Ideal) x4 x5 (ix1 R)).toNat < 5000) :
    val_main_call1_v5 (F := Ideal) x4 x5 (ix3 R (0 : Fin 1) (0 : Fin 1)) = val_main_v0 (F := Ideal) x4 x5 (ix1 R) := by
  rw [val_main_call1_v5_apply, idx_c1_v5, val_main_call1_v4_apply, val_main_call1_v1_apply, val_main_call1_v0_apply,
    val_main_call1_c_apply, val_main_v2_apply, idx_v2, slt_zero _ h, select_zero]

/-- The range test passes. -/
theorem in_range (R : Fin 12288) (h : (val_main_v0 (F := Ideal) x4 x5 (ix1 R)).toNat < 5000) :
    val_main_call1_v12 (F := Ideal) x4 x5 (ix2 R (0 : Fin 1)) = 1#1 := by
  unfold val_main_call1_v12
  refine (hostReduce_unit (IntOp.andi (w := 1)) (val_main_call1_v11 (F := Ideal) x4 x5) (val_main_call1_c_3 (F := Ideal))
    reducesTo_S12288x1x1_S12288x1_d2 (by decide) h_S_ R 0).trans ?_
  rw [val_main_call1_c_3_apply, val_main_call1_v11_apply, val_main_call1_v7_apply, val_main_call1_v10_apply,
    val_main_call1_v6_apply, val_main_call1_c_2_apply, val_main_call1_v9_apply, val_main_call1_v8_apply,
    val_main_call1_c_1_apply, wrapped_label x4 x5 R h, sge_zero _ h, sle_max _ h]
  decide

/-- The gather reads the labelled column of the log-softmax. -/
theorem gathered (R : Fin 12288) (h : (val_main_v0 (F := Ideal) x4 x5 (ix1 R)).toNat < 5000) :
    val_main_call1_v13 (F := Ideal) x3 x4 x5 (ix2 R (0 : Fin 1))
      = val_main_v1 (F := Ideal) x3 (ix2 R ⟨(val_main_v0 (F := Ideal) x4 x5 (ix1 R)).toNat, h⟩) := by
  unfold val_main_call1_v13
  refine (gather_row_apply (by decide) gather_S12288x5000_S12288x1x1_S12288x1_n_1_0_0_1_2_11_wf (val_main_v1 (F := Ideal) x3)
    (val_main_call1_v5 (F := Ideal) x4 x5) R 0).trans ?_
  refine congrArg (fun q : Fin 5000 => val_main_v1 (F := Ideal) x3 (ix2 R q)) (Fin.ext ?_)
  show min (val_main_call1_v5 (F := Ideal) x4 x5 (ix3 R (0 : Fin 1) (0 : Fin 1))).toInt.toNat (5000 - 1) = _
  rw [wrapped_label x4 x5 R h]
  exact clamp_small _ h

/-- One row of the softmax leg: the labelled log-probability. -/
theorem soft_row (R : Fin 12288) (h : (val_main_v0 (F := Ideal) x4 x5 (ix1 R)).toNat < 5000) :
    val_main_v3 (F := Ideal) x3 x4 x5 (ix2 R (0 : Fin 1))
      = Cert.Spec.ceR (fun j => x3 (ix2 R j)) (val_main_v0 (F := Ideal) x4 x5 (ix1 R)) := by
  rw [val_main_v3_apply, in_range x4 x5 R h, select_one, gathered x3 x4 x5 R h, logsoftmax_at]
  unfold Cert.Spec.ceR Cert.Spec.at5000
  rw [dif_pos h]

end Soft

theorem ref_soft (hlab : ∀ R, (lab m c R).toNat < 5000) :
    Value.res_out2 m c = fun _ => -(Ideal.div (Cert.Spec.softR (O m c) (lab m c)) c12288) := by
  funext i
  refine (congrFun (val_main_v6_eq (F := Ideal) m c) i).trans ?_
  rw [val_main_v6_apply, val_main_v5_apply, val_main_v4_apply, val_main_cst_apply, val_main_cst_0_apply, Ideal.ofBits_def,
    Ideal.ofBits_def, Ideal.ofBits_zero_f32, zero_add, Ideal.hostNegf_def, Ideal.negf_def, Ideal.hostDivf_def, sum_idx2]
  unfold Cert.Spec.softR
  refine congrArg (fun s => -(Ideal.div s c12288)) (Finset.sum_congr rfl fun R _ => ?_)
  rw [Fin.sum_univ_one]
  exact soft_row _ _ _ R (hlab R)

/-! ## The total -/

/-- The three legs' results at their one index, as extended reals. -/
abbrev softVal : EReal := Value.res_out2 m c ValueIdx.ix0
abbrev tripVal : EReal := trip39 m c (ValueIdx.ix1 0)
abbrev centerVal : EReal := Value.res_out3 m c (ValueIdx.ix1 0)

theorem ref_total :
    Value.res_out0 m c = fun _ => (softVal m c + one * tripVal m c) + half * centerVal m c := by
  funext i
  have hi : (i 0).val < 1 := (i 0).isLt
  obtain rfl : i = ix1 (0 : Fin 1) := (eq_ix1 i).trans (congrArg ix1 (Fin.ext (Nat.lt_one_iff.mp hi)))
  refine (congrFun (val_main_v50_eq (F := Ideal) m c) (ix1 (0 : Fin 1))).trans ?_
  rw [val_main_v50_apply, val_main_v47_apply, val_main_v46_apply, val_main_v45_apply, val_main_v44_apply, val_main_cst_10_apply,
    val_main_v49_apply, val_main_v48_apply, val_main_cst_11_apply, Ideal.ofBits_def, Ideal.ofBits_def, Ideal.addf_def, Ideal.addf_def,
    Ideal.mulf_def, Ideal.mulf_def, ← val_main_v6_eq (F := Ideal) m c, ← val_main_v43_eq (F := Ideal) m c]
  rfl

end Cert.ReferenceIdeal.RefValue

end
-- ==== Proof.RefCenter.lean ====
/-
  The reference program's center-loss result as the specification's function, over the extended reals.

  Operation by operation: |A R|² and |E j|² are sums of squares along the feature axis (a host sum from the zero word
  is 0 plus the sum); the transpose followed by the contraction is the sum over k of A R k · E j k; the clamped squared
  distance is the maximum with 0 of (|A R|² + |E j|²) minus twice the product; then the square root. The gather along the
  label axis wraps a negative index by +5000, tests 0 ≤ i ≤ 4999, reads the clamped column and puts the NaN word where the
  test fails: for a label below 5000 as a natural number the word is non-negative read signed, the wrap does nothing, the
  test passes and the clamp is the identity, so the gather reads the labelled column. The minimum-reduce from +∞ along the
  columns is the fold of `min` from +∞ over the row. The difference, its maximum with 0, and the sum over the 4096 rows
  (0 plus the sum) give the specification's `centerR`; the last reshape, from rank 0 to [1], keeps the one element.
-/
import proofs.«419968_j17102559773294_3_alg».proof.Proof.RefRead
import proofs.«419968_j17102559773294_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.RefCenter

open Cert.ReferenceIdeal Cert.ReferenceIdeal.Gen Idealize.ShloMosaic Idealize.ShloMosaic.TcCoe Idealize.SL.Sem Idealize.ShloMosaic.StableHlo Idealize.ShloMosaic.ValueIdx

/-! ## Generic readings -/

/-- A rank-1 index is its coordinate. -/
def idxEquiv1 {n : Nat} : (⟨1, ![n]⟩ : Shape).Idx ≃ Fin n where
  toFun j := j 0
  invFun R := ix1 R
  left_inv j := (eq_ix1 j).symm
  right_inv R := rfl

/-- A sum over the indices of a rank-1 shape is the sum over its coordinate. -/
theorem sum_idx1 {M : Type*} [AddCommMonoid M] {n : Nat} (f : (⟨1, ![n]⟩ : Shape).Idx → M) :
    ∑ j, f j = ∑ R : Fin n, f (ix1 R) :=
  Fintype.sum_equiv idxEquiv1 _ _ (fun j => congrArg f (eq_ix1 j))

/-- The fold of the one-bit `and` from 1 over a family of ones is 1. -/
theorem fold_andi_ones {ι : Type} [DecidableEq ι] (s : Finset ι) :
    s.fold IntOp.andi (1#1) (fun _ : ι => (1#1 : BitVec 1)) = 1#1 := by
  induction s using Finset.induction_on with
  | empty => rfl
  | insert a s ha ih => rw [Finset.fold_insert ha, ih]; decide

/-- The `and`-reduce of an array of ones along its last, unit, axis is 1 everywhere. -/
theorem andreduce_one (x : IVec S4096x1x1 1) (hx : ∀ i, x i = 1#1) (j : S4096x1.Idx) :
    Host.reduce IntOp.andi x (constantI S_ 1 1#1) reducesTo_S4096x1x1_S4096x1_d2 h_S_ j = 1#1 := by
  classical
  refine (Host.reduce_eq_fold_single (IntOp.andi (w := 1)) x _ reducesTo_S4096x1x1_S4096x1_d2 (by decide) h_S_ j).trans ?_
  have hf : (x ∘ (show S4096x1x1.Reduces [2] S4096x1 from by decide).lift j) = fun _ => (1#1 : BitVec 1) :=
    funext fun k => hx _
  rw [hf]
  exact fold_andi_ones _

/-- The `min`-reduce from +∞ along the columns, at row R: the fold of `min` from +∞ over the row's entries. -/
theorem minreduce_row (x : FVec Ideal S4096x5000 .f32) (R : Fin 4096) :
    Host.reduce FloatOps.minimumf x (constant (F := Ideal) S_ .f32 0x7F800000#32) reducesTo_S4096x5000_S4096_d1 h_S_ (ix1 R)
      = (Finset.univ : Finset (Fin 5000)).fold min Cert.Spec.posInf (fun j => x (ix2 R j)) := by
  refine (Host.reduce_eq_fold_single (FloatOps.minimumf (F := Ideal) (φ := .f32)) x _ reducesTo_S4096x5000_S4096_d1 (by decide) h_S_ (ix1 R)).trans ?_
  show (Finset.univ : Finset (Fin 5000)).fold min Cert.Spec.posInf _ = _
  congr 1
  funext j
  exact congrArg x (funext fun a => Fin.ext (by match a with | ⟨0, _⟩ => rfl | ⟨1, _⟩ => rfl))

/-- The row gather read at (R, 0): the operand's row R at the start index, read signed and clamped into [0, 4999]. -/
theorem gather_row {α : Type} (x : S4096x5000.Idx → α) (idx : IVec S4096x1x1 32) (R : Fin 4096) :
    Host.gather gather_S4096x5000_S4096x1x1_S4096x1_n_1_0_0_1_2_11 x idx (ix2 R (0 : Fin 1))
      = x (ix2 R ⟨min (idx (ix3 R (0 : Fin 1) (0 : Fin 1))).toInt.toNat 4999, by omega⟩) := by
  unfold Host.gather
  refine congrArg x (funext fun a => Fin.ext ?_)
  match a with
  | ⟨0, _⟩ =>
    show gather_S4096x5000_S4096x1x1_S4096x1_n_1_0_0_1_2_11.start (ix2 R (0 : Fin 1)) idx 0
      + gather_S4096x5000_S4096x1x1_S4096x1_n_1_0_0_1_2_11.batchCoord (ix2 R (0 : Fin 1)) 0
      + gather_S4096x5000_S4096x1x1_S4096x1_n_1_0_0_1_2_11.offCoord (ix2 R (0 : Fin 1)) 0 = R.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S4096x5000_S4096x1x1_S4096x1_n_1_0_0_1_2_11.start (ix2 R (0 : Fin 1)) idx 1
      + gather_S4096x5000_S4096x1x1_S4096x1_n_1_0_0_1_2_11.batchCoord (ix2 R (0 : Fin 1)) 1
      + gather_S4096x5000_S4096x1x1_S4096x1_n_1_0_0_1_2_11.offCoord (ix2 R (0 : Fin 1)) 1 = _
    rw [GatherDims.batchCoord_eq_zero _ _ _ (by decide), GatherDims.offCoord_eq_zero _ _ _ (by decide)]
    simp only [Nat.add_zero]
    unfold GatherDims.start
    rw [dif_pos (by decide)]
    have hsi : gather_S4096x5000_S4096x1x1_S4096x1_n_1_0_0_1_2_11.siIdx (ix2 R (0 : Fin 1))
        ⟨List.idxOf (1 : Fin 2) gather_S4096x5000_S4096x1x1_S4096x1_n_1_0_0_1_2_11.startIndexMap,
          List.idxOf_lt_length_iff.2 (by decide)⟩ = ix3 R (0 : Fin 1) (0 : Fin 1) := by
      funext b; refine Fin.ext ?_
      match b with
      | ⟨0, _⟩ => rfl
      | ⟨1, _⟩ => rfl
      | ⟨2, _⟩ => rfl
    rw [hsi]
    rfl

/-! ## A label below 5000 -/

theorem toInt_label (l : BitVec 32) (hl : l.toNat < 5000) : l.toInt = (l.toNat : Int) :=
  StableHlo.Predicate.toInt_eq_toNat_of_lt (by omega)

/-- A label below 5000 is not negative read signed. -/
theorem slt_zero (l : BitVec 32) (hl : l.toNat < 5000) : IntOp.cmpi .slt l 0#32 = 0#1 := by
  apply eq_zero_of_ne_one
  rw [IntOp.cmpi_slt, toInt_label l hl, show (0#32 : BitVec 32).toInt = 0 from by decide]
  omega

theorem sge_zero (l : BitVec 32) (hl : l.toNat < 5000) : IntOp.cmpi .sge l 0#32 = 1#1 := by
  rw [IntOp.cmpi_sge, toInt_label l hl, show (0#32 : BitVec 32).toInt = 0 from by decide]
  omega

theorem sle_4999 (l : BitVec 32) (hl : l.toNat < 5000) : IntOp.cmpi .sle l 4999#32 = 1#1 := by
  rw [IntOp.cmpi_sle, toInt_label l hl, show (4999#32 : BitVec 32).toInt = 4999 from by decide]
  omega

/-- Read signed and clamped into [0, 4999], a label below 5000 is itself. -/
theorem clamp_label (l : BitVec 32) (hl : l.toNat < 5000) : min l.toInt.toNat 4999 = l.toNat := by
  rw [toInt_label l hl]
  omega

/-- The row gather read at (R, 0), at a column that is the clamped start index. -/
theorem gather_row' {α : Type} (x : S4096x5000.Idx → α) (idx : IVec S4096x1x1 32) (R : Fin 4096) (q : Fin 5000)
    (hq : min (idx (ix3 R (0 : Fin 1) (0 : Fin 1))).toInt.toNat 4999 = q.val) :
    Host.gather gather_S4096x5000_S4096x1x1_S4096x1_n_1_0_0_1_2_11 x idx (ix2 R (0 : Fin 1)) = x (ix2 R q) :=
  (gather_row x idx R).trans (congrArg (fun p => x (ix2 R p)) (Fin.ext hq))

/-- The `min`-reduce from +∞ along the columns, at row R, of an array whose row R is `g`. -/
theorem minreduce_row' (x : FVec Ideal S4096x5000 .f32) (R : Fin 4096) (g : Fin 5000 → EReal) (hx : ∀ j, x (ix2 R j) = g j) :
    Host.reduce FloatOps.minimumf x (constant (F := Ideal) S_ .f32 0x7F800000#32) reducesTo_S4096x5000_S4096_d1 h_S_ (ix1 R)
      = (Finset.univ : Finset (Fin 5000)).fold min Cert.Spec.posInf g :=
  (minreduce_row x R).trans (congrArg (fun f => (Finset.univ : Finset (Fin 5000)).fold min Cert.Spec.posInf f) (funext hx))

/-! ## The reference's center leg, operation by operation -/

section Chain

open Cert.ReferenceIdeal.Read

variable (x0 : (⟨S4096x1024, .f32⟩ : BufTy).Contents (Elt Ideal)) (x4 : (⟨S4096, .i32⟩ : BufTy).Contents (Elt Ideal))
  (x6 : (⟨S5000x1024, .f32⟩ : BufTy).Contents (Elt Ideal))

/-- The arrays as functions of their coordinates. -/
abbrev Aof : Fin 4096 → Fin 1024 → EReal := fun R k => x0 (ix2 R k)
abbrev Eof : Fin 5000 → Fin 1024 → EReal := fun j k => x6 (ix2 j k)
abbrev lof : Fin 4096 → BitVec 32 := fun R => x4 (ix1 R)

/-- |A R|². -/
theorem v8_read (R : Fin 4096) : val_main_v8 (F := Ideal) x0 (ix1 R) = ∑ k : Fin 1024, x0 (ix2 R k) * x0 (ix2 R k) := by
  rw [val_main_v8_apply, val_main_cst_1_apply, Ideal.ofBits_def, Ideal.ofBits_zero_f32, zero_add]
  refine Finset.sum_congr rfl fun k _ => ?_
  rw [val_main_v7_apply, Ideal.mulf_def]
  have e : idx_main_v8 (ix1 R) k = ix2 R k := funext fun a => by match a with | ⟨0, _⟩ => rfl | ⟨1, _⟩ => rfl
  rw [e]

/-- |E j|². -/
theorem v11_read (j : Fin 5000) : val_main_v11 (F := Ideal) x6 (ix1 j) = ∑ k : Fin 1024, x6 (ix2 j k) * x6 (ix2 j k) := by
  rw [val_main_v11_apply, val_main_cst_2_apply, Ideal.ofBits_def, Ideal.ofBits_zero_f32, zero_add]
  refine Finset.sum_congr rfl fun k _ => ?_
  rw [val_main_v10_apply, Ideal.mulf_def]
  have e : idx_main_v11 (ix1 j) k = ix2 j k := funext fun a => by match a with | ⟨0, _⟩ => rfl | ⟨1, _⟩ => rfl
  rw [e]

/-- A R · E j. -/
theorem v17_read (R : Fin 4096) (j : Fin 5000) :
    val_main_v17 (F := Ideal) x0 x6 (ix2 R j) = ∑ k : Fin 1024, x0 (ix2 R k) * x6 (ix2 j k) := by
  rw [val_main_v17_apply]
  refine Finset.sum_congr rfl fun k _ => ?_
  rw [val_main_v16_apply]
  have e1 : lidx_main_v17 (ix2 R j) k = ix2 R k := funext fun a => by match a with | ⟨0, _⟩ => rfl | ⟨1, _⟩ => rfl
  have e2 : idx_main_v16 (ridx_main_v17 (ix2 R j) k) = ix2 j k := funext fun a => by match a with | ⟨0, _⟩ => rfl | ⟨1, _⟩ => rfl
  rw [e1, e2]

/-- The clamped squared distance. -/
theorem v22_read (R : Fin 4096) (j : Fin 5000) :
    val_main_v22 (F := Ideal) x0 x6 (ix2 R j) = Cert.Spec.sq (Aof x0) (Eof x6) R j := by
  rw [val_main_v22_apply, val_main_v21_apply, val_main_cst_4_apply, val_main_v20_apply, val_main_v15_apply, val_main_v19_apply,
    val_main_v13_apply, val_main_v9_apply, val_main_v14_apply, val_main_v12_apply, val_main_v18_apply, val_main_cst_3_apply]
  have e1 : idx_main_v9 (idx_main_v13 (ix2 R j)) = ix1 R := funext fun a => by match a with | ⟨0, _⟩ => rfl
  have e2 : idx_main_v12 (idx_main_v14 (ix2 R j)) = ix1 j := funext fun a => by match a with | ⟨0, _⟩ => rfl
  rw [e1, e2, v8_read, v11_read, v17_read]
  simp only [Ideal.maximumf_def, Ideal.subf_def, Ideal.addf_def, Ideal.mulf_def, Ideal.ofBits_def, Ideal.ofBits_zero_f32]
  rfl

/-- The distance. -/
theorem v23_read (R : Fin 4096) (j : Fin 5000) :
    val_main_v23 (F := Ideal) x0 x6 (ix2 R j) = Ideal.sqrt (Cert.Spec.sq (Aof x0) (Eof x6) R j) := by
  rw [val_main_v23_apply, Ideal.hostUnary_sqrt_def, v22_read]

/-- The least distance of row R. -/
theorem v27_read (R : Fin 4096) :
    val_main_v27 (F := Ideal) x0 x6 (ix1 R)
      = (Finset.univ : Finset (Fin 5000)).fold min Cert.Spec.posInf (fun j => Ideal.sqrt (Cert.Spec.sq (Aof x0) (Eof x6) R j)) := by
  unfold val_main_v27 val_main_cst_5
  exact minreduce_row' _ R _ (fun j => v23_read x0 x6 R j)

/-- The wrapped label is the label. -/
theorem v5_read (R : Fin 4096) (hl : (lof x4 R).toNat < 5000) :
    val_main_call2_v5 (F := Ideal) x4 (ix3 R (0 : Fin 1) (0 : Fin 1)) = x4 (ix1 R) := by
  rw [val_main_call2_v5_apply]
  have e : idx_main_call2_v5 (ix3 R (0 : Fin 1) (0 : Fin 1)) = ix2 R (0 : Fin 1) := funext fun a => Fin.ext (by
    match a with
    | ⟨0, _⟩ => show ((R.val * 1 + (0 : Fin 1).val) * 1 + (0 : Fin 1).val) / 1 = R.val; simp
    | ⟨1, _⟩ => rfl)
  rw [e, val_main_call2_v4_apply, val_main_call2_v1_apply, val_main_v24_apply, val_main_call2_v0_apply, val_main_call2_c_apply]
  have e24 : idx_main_v24 (ix2 R (0 : Fin 1)) = ix1 R := funext fun a => by match a with | ⟨0, _⟩ => rfl
  rw [e24, slt_zero _ hl, select_zero]

/-- The range test passes everywhere. -/
theorem v11c_read (hla : ∀ R, (lof x4 R).toNat < 5000) (i : S4096x1x1.Idx) : val_main_call2_v11 (F := Ideal) x4 i = 1#1 := by
  obtain ⟨R, rfl⟩ : ∃ R : Fin 4096, i = ix3 R (0 : Fin 1) (0 : Fin 1) :=
    ⟨⟨(i 0).val, (i 0).isLt⟩, funext fun a => Fin.ext (by
      match a with
      | ⟨0, _⟩ => rfl
      | ⟨1, h⟩ => have h1 : (i ⟨1, h⟩).val < 1 := (i ⟨1, h⟩).isLt; show (i ⟨1, h⟩).val = 0; omega
      | ⟨2, h⟩ => have h1 : (i ⟨2, h⟩).val < 1 := (i ⟨2, h⟩).isLt; show (i ⟨2, h⟩).val = 0; omega)⟩
  rw [val_main_call2_v11_apply, val_main_call2_v7_apply, val_main_call2_v10_apply, v5_read x4 R (hla R), val_main_call2_v6_apply,
    val_main_call2_c_2_apply, val_main_call2_v9_apply, val_main_call2_v8_apply, val_main_call2_c_1_apply, sge_zero _ (hla R),
    sle_4999 _ (hla R)]
  decide

theorem v12_read (hla : ∀ R, (lof x4 R).toNat < 5000) (j : S4096x1.Idx) : val_main_call2_v12 (F := Ideal) x4 j = 1#1 := by
  unfold val_main_call2_v12 val_main_call2_c_3
  exact andreduce_one _ (v11c_read x4 hla) j

/-- The gather reads the labelled distance. -/
theorem v13_read (hla : ∀ R, (lof x4 R).toNat < 5000) (R : Fin 4096) :
    val_main_call2_v13 (F := Ideal) x0 x4 x6 (ix2 R (0 : Fin 1))
      = Ideal.sqrt (Cert.Spec.sq (Aof x0) (Eof x6) R ⟨(lof x4 R).toNat, hla R⟩) := by
  unfold val_main_call2_v13
  refine (gather_row' _ _ R ⟨(lof x4 R).toNat, hla R⟩ ?_).trans (v23_read x0 x6 R _)
  rw [v5_read x4 R (hla R)]
  exact clamp_label _ (hla R)

theorem v26_read (hla : ∀ R, (lof x4 R).toNat < 5000) (R : Fin 4096) :
    val_main_v26 (F := Ideal) x0 x4 x6 (ix1 R)
      = Ideal.sqrt (Cert.Spec.sq (Aof x0) (Eof x6) R ⟨(lof x4 R).toNat, hla R⟩) := by
  rw [val_main_v26_apply]
  have e : idx_main_v26 (ix1 R) = ix2 R (0 : Fin 1) := funext fun a => Fin.ext (by
    match a with
    | ⟨0, _⟩ => show R.val / 1 = R.val; simp
    | ⟨1, _⟩ => rfl)
  rw [e, val_main_v25_apply, v12_read x4 hla, select_one, v13_read x0 x4 x6 hla R]

/-- The row term. -/
theorem v41_read (hla : ∀ R, (lof x4 R).toNat < 5000) (R : Fin 4096) :
    val_main_v41 (F := Ideal) x0 x4 x6 (ix1 R) = Cert.Spec.centerRowR (Aof x0) (Eof x6) (lof x4) R := by
  rw [val_main_v41_apply, val_main_v40_apply, v26_read x0 x4 x6 hla R, v27_read, val_main_call4_v0_apply, val_main_call4_cst_apply]
  simp only [Ideal.maximumf_def, Ideal.subf_def, Ideal.ofBits_def, Ideal.ofBits_zero_f32]
  unfold Cert.Spec.centerRowR Cert.Spec.at5000
  rw [dif_pos (hla R)]

/-- The sum over the rows. -/
theorem v43_read (hla : ∀ R, (lof x4 R).toNat < 5000) (i : S1.Idx) :
    val_main_v43 (F := Ideal) x0 x4 x6 i = Cert.Spec.centerR (Aof x0) (Eof x6) (lof x4) := by
  unfold val_main_v43
  show val_main_v42 (F := Ideal) x0 x4 x6 _ = _
  rw [val_main_v42_apply, val_main_cst_9_apply, Ideal.ofBits_def, Ideal.ofBits_zero_f32, zero_add, sum_idx1]
  unfold Cert.Spec.centerR
  exact Finset.sum_congr rfl fun R _ => v41_read x0 x4 x6 hla R

end Chain

/-! ## The result -/

section Result

variable (m : (ℓ : Loc nD τ sig) → Buf (Elt Ideal) ℓ) (c : Dev nD)

/-- The anchors, the exemplars and the anchor labels the memory holds on device `c`, as functions of their coordinates. -/
def A : Fin 4096 → Fin 1024 → EReal := fun (R : Fin 4096) (k : Fin 1024) => (m ((c.tc : Thread nD τ).loc main_arg0) (ValueIdx.ix2 R k) : EReal)
def E : Fin 5000 → Fin 1024 → EReal := fun (j : Fin 5000) (k : Fin 1024) => (m ((c.tc : Thread nD τ).loc main_arg6) (ValueIdx.ix2 j k) : EReal)
def la : Fin 4096 → BitVec 32 := fun (R : Fin 4096) => m ((c.tc : Thread nD τ).loc main_arg4) (ValueIdx.ix1 R)

/-- With every anchor label a column, the reference's center-loss result is the specification's sum over the rows. -/
theorem ref_center (hla : ∀ R, (la m c R).toNat < 5000) :
    Cert.ReferenceIdeal.Value.res_out3 m c = fun _ => Cert.Spec.centerR (A m c) (E m c) (la m c) := by
  funext i
  exact (congrFun (Cert.ReferenceIdeal.Read.val_main_v43_eq (F := Ideal) m c) i).trans
    (v43_read (m ((c.tc : Thread nD τ).loc main_arg0)) (m ((c.tc : Thread nD τ).loc main_arg4))
      (m ((c.tc : Thread nD τ).loc main_arg6)) hla i)

end Result

end Cert.ReferenceIdeal.RefCenter

end
-- ==== Proof.Bridge.lean ====
/-
  The kernel's arrangement of each loss equals the reference's, over the extended reals.

  Regrouping: the sum over tiles of the sums over a tile's rows is the sum over all rows. Masked sum: with the label a
  column, the masked sum has one non-zero term, the labelled entry. Center leg: the square root is monotone on the
  extended reals and fixes ⊤, so it commutes with the minimum of a family taken from ⊤. Softmax leg: a row of real
  logits has a real maximum, a positive real sum of exponentials and a real logarithm of it, so every row's
  log-probability is a real number and the claim is arithmetic in ℝ.
-/
import proofs.«419968_j17102559773294_3_alg».proof.Proof.Spec

noncomputable section

namespace Cert.Spec

open Idealize.ShloMosaic

/-- Regrouping: the sum over tiles of the sums over a tile's rows is the sum over all rows. -/
theorem sum_tileRow {M : Type*} [AddCommMonoid M] (n b : ℕ) (f : Fin (n * b) → M) :
    ∑ t : Fin n, ∑ r : Fin b, f (tileRow n b t r) = ∑ R : Fin (n * b), f R := by
  rw [← Fintype.sum_prod_type']
  refine Fintype.sum_equiv finProdFinEquiv _ _ ?_
  rintro ⟨t, r⟩
  congr 1
  apply Fin.ext
  simp [tileRow, finProdFinEquiv]
  ring

theorem trip_bridge (A P N : Fin 4096 → Fin 1024 → EReal) : tripK A P N = tripR A P N :=
  sum_tileRow 16 256 (fun R => tripRow A P N R)

/-- The word of +∞ is ⊤, the word of -∞ is ⊥. -/
theorem posInf_eq : posInf = ⊤ := by
  simp [posInf, Ideal.ofBits, Ideal.ieee]
theorem negInf_eq : negInf = ⊥ := by
  simp [negInf, Ideal.ofBits, Ideal.ieee]

/-- With the label a column, the masked sum has one non-zero term: the labelled entry. -/
theorem pick_eq_at5000 (x : Fin 5000 → EReal) (l : BitVec 32) (h : l.toNat < 5000) : pick x l = at5000 x l := by
  unfold pick at5000
  rw [dif_pos h, Finset.sum_eq_single (⟨l.toNat, h⟩ : Fin 5000)]
  · simp
  · intro j _ hj
    rw [if_neg]
    intro hjl
    apply hj
    apply Fin.ext
    have h1 := congrArg BitVec.toNat hjl
    have h2 := j.isLt
    simp at h1
    show j.val = l.toNat
    omega
  · intro hh; exact absurd (Finset.mem_univ _) hh

/-- The square root is monotone on the extended reals. -/
theorem sqrt_mono : Monotone Ideal.sqrt := by
  intro x y hxy
  induction x using EReal.rec with
  | bot => simp
  | top =>
    have : y = ⊤ := top_le_iff.mp hxy
    subst this; simp
  | coe r =>
    induction y using EReal.rec with
    | bot => simp at hxy
    | top => simp
    | coe s =>
      have hrs : r ≤ s := by exact_mod_cast hxy
      simp only [Ideal.sqrt_coe]
      by_cases hr : r < 0
      · simp [hr]
      · have hs : ¬ s < 0 := by linarith
        rw [if_neg hr, if_neg hs]
        exact_mod_cast Real.sqrt_le_sqrt hrs

/-- A monotone map commutes with the minimum of a family, from ⊤. -/
theorem sqrt_fold_min {ι : Type*} (s : Finset ι) (f : ι → EReal) :
    Ideal.sqrt (s.fold min posInf f) = s.fold min posInf (fun j => Ideal.sqrt (f j)) := by
  have h := Finset.fold_hom (op := (min : EReal → EReal → EReal)) (op' := min) (s := s) (b := posInf) (f := f)
    (m := Ideal.sqrt) (fun a b => sqrt_mono.map_min)
  rw [← h, posInf_eq, Ideal.sqrt_top]

theorem centerRow_bridge (A : Fin 4096 → Fin 1024 → EReal) (E : Fin 5000 → Fin 1024 → EReal) (la : Fin 4096 → BitVec 32)
    (R : Fin 4096) (h : (la R).toNat < 5000) : centerRowK A E la R = centerRowR A E la R := by
  unfold centerRowK centerRowR
  rw [pick_eq_at5000 _ _ h, sqrt_fold_min]
  unfold at5000
  rw [dif_pos h, dif_pos h]

theorem center_bridge (A : Fin 4096 → Fin 1024 → EReal) (E : Fin 5000 → Fin 1024 → EReal) (la : Fin 4096 → BitVec 32)
    (hla : ∀ R, (la R).toNat < 5000) : centerK A E la = centerR A E la := by
  unfold centerK centerR
  rw [sum_tileRow 16 256 (fun R => centerRowK A E la R)]
  exact Finset.sum_congr rfl (fun R _ => centerRow_bridge A E la R (hla R))

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a row of real numbers is a real number. -/
theorem rowMax_real (x : Fin 5000 → EReal) (hx : ∀ j, ∃ r : ℝ, x j = (r : EReal)) :
    ∃ m : ℝ, rowMax x = (m : EReal) := by
  have hne_top : rowMax x ≠ ⊤ := by
    apply ne_of_lt
    unfold rowMax
    rw [Finset.fold_max_lt]
    refine ⟨by rw [negInf_eq]; exact bot_lt_top, fun j _ => ?_⟩
    obtain ⟨r, hr⟩ := hx j
    rw [hr]; exact EReal.coe_lt_top r
  have hne_bot : rowMax x ≠ ⊥ := by
    apply ne_of_gt
    unfold rowMax
    rw [Finset.lt_fold_max]
    right
    refine ⟨⟨0, by norm_num⟩, Finset.mem_univ _, ?_⟩
    obtain ⟨r, hr⟩ := hx ⟨0, by norm_num⟩
    rw [hr]; exact EReal.bot_lt_coe r
  exact ⟨(rowMax x).toReal, (EReal.coe_toReal hne_top hne_bot).symm⟩

/-- A row of real logits has a real log-probability at a label that is a column. -/
theorem ceR_real (x : Fin 5000 → EReal) (hx : ∀ j, ∃ r : ℝ, x j = (r : EReal)) (l : BitVec 32)
    (h : l.toNat < 5000) : ∃ c : ℝ, ceR x l = (c : EReal) := by
  obtain ⟨m, hm⟩ := rowMax_real x hx
  choose xr hxr using hx
  have hexp : ∀ j, Ideal.exp (x j - rowMax x) = ((Real.exp (xr j - m) : ℝ) : EReal) := by
    intro j; rw [hxr j, hm, ← EReal.coe_sub, Ideal.exp_coe]
  have hpos : 0 < ∑ j : Fin 5000, Real.exp (xr j - m) :=
    Finset.sum_pos (fun j _ => Real.exp_pos _) ⟨⟨0, by norm_num⟩, Finset.mem_univ _⟩
  have hlse : lse x = ((Real.log (∑ j : Fin 5000, Real.exp (xr j - m)) : ℝ) : EReal) := by
    unfold lse
    simp only [hexp]
    rw [← coe_finset_sum, Ideal.log_coe, if_neg (not_le.mpr hpos)]
  refine ⟨(xr ⟨l.toNat, h⟩ - m) - Real.log (∑ j : Fin 5000, Real.exp (xr j - m)), ?_⟩
  unfold ceR at5000
  rw [dif_pos h, hxr, hm, hlse, ← EReal.coe_sub, ← EReal.coe_sub]

/-- The word 0x46400000 is the real number 12288. -/
theorem c12288_eq : Ideal.ofBits .f32 0x46400000#32 = ((12288 : ℝ) : EReal) := by
  simp [Ideal.ofBits, Ideal.ieee, -EReal.coe_mul]; norm_num

theorem soft_bridge (O : Fin 12288 → Fin 5000 → EReal) (lab : Fin 12288 → BitVec 32)
    (hO : ∀ R j, ∃ x : ℝ, O R j = (x : EReal)) (hlab : ∀ R, (lab R).toNat < 5000) :
    Ideal.div (softK O lab) (Ideal.ofBits .f32 0x46400000#32)
      = -(Ideal.div (softR O lab) (Ideal.ofBits .f32 0x46400000#32)) := by
  have hc : ∀ R, ∃ c : ℝ, ceR (O R) (lab R) = (c : EReal) :=
    fun R => ceR_real (O R) (hO R) (lab R) (hlab R)
  choose c hc using hc
  have hK : softK O lab = ((-(∑ R : Fin 12288, c R) : ℝ) : EReal) := by
    unfold softK
    have h1 : ∀ t : Fin 32, (0 - ∑ r : Fin 384, ceK (O (tileRow 32 384 t r)) (lab (tileRow 32 384 t r)))
        = ((-(∑ r : Fin 384, c (tileRow 32 384 t r)) : ℝ) : EReal) := by
      intro t
      have h2 : ∀ r : Fin 384, ceK (O (tileRow 32 384 t r)) (lab (tileRow 32 384 t r))
          = (c (tileRow 32 384 t r) : EReal) := by
        intro r
        rw [← hc]; unfold ceK ceR; rw [pick_eq_at5000 _ _ (hlab _)]
      simp only [h2]
      rw [← coe_finset_sum, zero_sub, EReal.coe_neg]
    simp only [h1]
    rw [← coe_finset_sum, Finset.sum_neg_distrib, sum_tileRow 32 384 (fun R => c R)]
  have hR : softR O lab = ((∑ R : Fin 12288, c R : ℝ) : EReal) := by
    unfold softR
    simp only [hc]
    rw [← coe_finset_sum]
  rw [hK, hR, c12288_eq, Ideal.div_coe (by norm_num), Ideal.div_coe (by norm_num), ← EReal.coe_mul,
    ← EReal.coe_mul, ← EReal.coe_neg]
  congr 1
  ring

end Cert.Spec

end
-- ==== Proof.PreDecode.lean ====
/-
  What the precondition `finite_inputs` says of the arguments, at the ideal instance. The printed predicate is the
  conjunction (by `and` on one-bit words) of seven `jnp.all`: five of |x| < +∞ over the float arrays, two of
  0 ≤ l < 5000 (signed) over the label arrays. Each `jnp.all` that is 1 says its element predicate is 1 at every
  index. For a float entry x, max x (-x) < ⊤ in the extended reals says x is a real. For a 32-bit label l,
  0 ≤ l < 5000 read signed says l < 5000 read unsigned. Each entry of a concatenation is an entry of one of its
  pieces, so a bound on all pieces is a bound on the concatenation.
-/
import proofs.«419968_j17102559773294_3_alg».proof.Proof.Gen.Pre_finite_inputs
import proofs.«419968_j17102559773294_3_alg».proof.Defs
import Idealize.ShloMosaic.Lib.ReduceAll
import Idealize.ShloMosaic.Lib.ValueIdx
import Idealize.ShloMosaic.Lib.StableHlo.Predicate

noncomputable section

namespace Cert.PreDecode

open Idealize.ShloMosaic Cert.Pre_finite_inputs

variable [Cert.Pre_finite_inputs.Facts]

/-- The scalar shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element predicate |x| < +∞ that is 1 says x is a real. -/
theorem real_of_cmp (x : EReal)
    (h : Ideal.cmp .olt (max x (-x)) (Ideal.ofBits .f32 0x7F800000#32) = 1#1) : ∃ r : ℝ, x = (r : EReal) := by
  rw [inf_eq_top] at h
  unfold Ideal.cmp at h
  simp only [StableHlo.Predicate.ofBool_eq_one_iff, decide_eq_true_eq] at h
  exact real_of_abs_lt_top x h

/-- A word in [0, 5000) signed is below 5000 unsigned. -/
theorem toNat_lt_of_range (l : BitVec 32)
    (h : IntOp.andi (IntOp.cmpi .sge l 0#32) (IntOp.cmpi .slt l 5000#32) = 1#1) : l.toNat < 5000 := by
  obtain ⟨h0, h1⟩ := IntOp.andi_eq_one.1 h
  rw [IntOp.cmpi_sge] at h0
  rw [IntOp.cmpi_slt] at h1
  have e0 : (0#32 : BitVec 32).toInt = 0 := by decide
  have e1 : (5000#32 : BitVec 32).toInt = 5000 := by decide
  rw [e0] at h0
  rw [e1] at h1
  have hl := l.isLt
  rw [BitVec.toInt_eq_toNat_cond] at h0 h1
  split at h0 <;> split at h1 <;> omega

/-- The vector `and` at an index. -/
theorem andi_apply {s : Shape} {w : Nat} (x y : IVec s w) (i : s.Idx) : andi x y i = IntOp.andi (x i) (y i) := rfl

/-- THE PRECONDITION DECODED: the element predicate of the outputs array and of each label array is 1 at every index. -/
theorem decode {a0 a1 a2 : FVec Ideal S4096x1024 .f32} {a3 : FVec Ideal S12288x5000 .f32} {a4 a5 : IVec S4096 32}
    {a6 : FVec Ideal S5000x1024 .f32}
    (h : Cert.Pre_finite_inputs.fn (F := Ideal) a0 a1 a2 a3 a4 a5 a6 = fun _ => 1#1) :
    (∀ i, Ideal.cmp .olt (max (a3 i) (-(a3 i))) (Ideal.ofBits .f32 0x7F800000#32) = 1#1)
    ∧ (∀ i, IntOp.andi (IntOp.cmpi .sge (a4 i) 0#32) (IntOp.cmpi .slt (a4 i) 5000#32) = 1#1)
    ∧ (∀ i, IntOp.andi (IntOp.cmpi .sge (a5 i) 0#32) (IntOp.cmpi .slt (a5 i) 5000#32) = 1#1) := by
  have e := congrFun h ValueIdx.ix0
  dsimp only [Cert.Pre_finite_inputs.fn, Cert.Pre_finite_inputs.fn_part1, Cert.Pre_finite_inputs.fn_part2] at e
  rw [andi_apply, IntOp.andi_eq_one, andi_apply, IntOp.andi_eq_one, andi_apply, IntOp.andi_eq_one,
    andi_apply, IntOp.andi_eq_one] at e
  obtain ⟨⟨⟨⟨-, h3⟩, -⟩, h4⟩, h5⟩ := e
  exact ⟨fun i => Host.reduce_andi_all _ _ _ _ _ h3 i, fun i => Host.reduce_andi_all _ _ _ _ _ h4 i,
    fun i => Host.reduce_andi_all _ _ _ _ _ h5 i⟩

/-- Every entry of the outputs array is a real. -/
theorem outputs_finite {a0 a1 a2 : FVec Ideal S4096x1024 .f32} {a3 : FVec Ideal S12288x5000 .f32} {a4 a5 : IVec S4096 32}
    {a6 : FVec Ideal S5000x1024 .f32}
    (h : Cert.Pre_finite_inputs.fn (F := Ideal) a0 a1 a2 a3 a4 a5 a6 = fun _ => 1#1) :
    ∀ i, ∃ x : ℝ, a3 i = (x : EReal) :=
  fun i => real_of_cmp (a3 i) ((decode h).1 i)

/-- Every anchor label is below 5000. -/
theorem labels_anchor_range {a0 a1 a2 : FVec Ideal S4096x1024 .f32} {a3 : FVec Ideal S12288x5000 .f32} {a4 a5 : IVec S4096 32}
    {a6 : FVec Ideal S5000x1024 .f32}
    (h : Cert.Pre_finite_inputs.fn (F := Ideal) a0 a1 a2 a3 a4 a5 a6 = fun _ => 1#1) :
    ∀ i, (a4 i).toNat < 5000 :=
  fun i => toNat_lt_of_range (a4 i) ((decode h).2.1 i)

/-- Every negative label is below 5000. -/
theorem labels_neg_range {a0 a1 a2 : FVec Ideal S4096x1024 .f32} {a3 : FVec Ideal S12288x5000 .f32} {a4 a5 : IVec S4096 32}
    {a6 : FVec Ideal S5000x1024 .f32}
    (h : Cert.Pre_finite_inputs.fn (F := Ideal) a0 a1 a2 a3 a4 a5 a6 = fun _ => 1#1) :
    ∀ i, (a5 i).toNat < 5000 :=
  fun i => toNat_lt_of_range (a5 i) ((decode h).2.2 i)

/-- Every entry of a concatenation is an entry of one of its pieces: what holds of every entry of every piece
    holds of every entry of the concatenation. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  dsimp only
  exact hP _ (List.getElem_mem _) _

/-- The concatenation of the anchor labels twice and the negative labels once: every entry below 5000. -/
theorem concat_range (la ln : IVec S4096 32) (hla : ∀ i, (la i).toNat < 5000) (hln : ∀ i, (ln i).toNat < 5000)
    (hc : Shape.Concatenates [S4096, S4096, S4096] ⟨1, ![12288]⟩ 0) (i : (⟨1, ![12288]⟩ : Shape).Idx) :
    (concatenate ⟨1, ![12288]⟩ 0 [⟨⟨1, ![4096]⟩, la⟩, ⟨⟨1, ![4096]⟩, la⟩, ⟨⟨1, ![4096]⟩, ln⟩] hc i).toNat < 5000 := by
  refine concatenate_forall (α := BitVec 32) (t := ⟨1, ![12288]⟩) 0
    [⟨⟨1, ![4096]⟩, la⟩, ⟨⟨1, ![4096]⟩, la⟩, ⟨⟨1, ![4096]⟩, ln⟩] hc (fun w : BitVec 32 => w.toNat < 5000) ?_ i
  intro p hp
  simp only [List.mem_cons, List.not_mem_nil, or_false] at hp
  rcases hp with rfl | rfl | rfl
  · exact hla
  · exact hla
  · exact hln

end Cert.PreDecode

end
-- ==== Proof.Algebraic.lean ====
/-
  The algebraic conjunct: at the ideal instance the kernel and the reference, from memories that agree on the seven
  arguments, both run, end with equal results and leave the arguments unchanged.

  The four witnesses are the kernel's final contents of its four result buffers. On each device the reference's
  argument arrays, read as functions of their coordinates, are the kernel's (the memories agree), so each of the
  reference's results, written over the specification's reference arrangement, meets the kernel's, written over the
  kernel arrangement, through the arrangement equalities: the triplet sum by regrouping, the center sum by the
  monotone root and the one-term masked sum, the softmax mean by arithmetic in ℝ once every logit is a real and every
  label a column, which the precondition says. The total is the same combination of the three legs on both sides.
-/
import proofs.«419968_j17102559773294_3_alg».proof.Defs
import proofs.«419968_j17102559773294_3_alg».proof.Proof.KI.Run
import proofs.«419968_j17102559773294_3_alg».proof.Proof.KI.Final
import proofs.«419968_j17102559773294_3_alg».proof.Proof.Gen.ReferenceIdeal
import proofs.«419968_j17102559773294_3_alg».proof.Proof.Gen.Pre_finite_inputs
import proofs.«419968_j17102559773294_3_alg».proof.Proof.RefRunThm
import proofs.«419968_j17102559773294_3_alg».proof.Proof.RefValue
import proofs.«419968_j17102559773294_3_alg».proof.Proof.RefCenter
import proofs.«419968_j17102559773294_3_alg».proof.Proof.Spec
import proofs.«419968_j17102559773294_3_alg».proof.Proof.Bridge
import proofs.«419968_j17102559773294_3_alg».proof.Proof.PreDecode
import Idealize.ShloMosaic.Lib.ValueIdx

noncomputable section

namespace Cert.Proof.Alg

open Idealize.ShloMosaic Idealize.ShloMosaic.TcCoe Idealize.SL.Sem
open Cert.KernelIdeal.Hand (outs)

section PerDevice

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the seven arguments on device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-! ### The reference's argument arrays, as functions of their coordinates, are the kernel's -/

section Arrays
variable (h : Agree m m' c)
include h

theorem O_eq : Cert.ReferenceIdeal.RefValue.O m' c = Cert.KernelIdeal.Hand.O m c := by
  funext R j; exact congrFun h.2.2.2.1 _
theorem A_eq : Cert.ReferenceIdeal.RefValue.A m' c = Cert.KernelIdeal.Hand.A m c := by
  funext R k; exact congrFun h.1 _
theorem P_eq : Cert.ReferenceIdeal.RefValue.P m' c = Cert.KernelIdeal.Hand.P m c := by
  funext R k; exact congrFun h.2.1 _
theorem N_eq : Cert.ReferenceIdeal.RefValue.N m' c = Cert.KernelIdeal.Hand.N m c := by
  funext R k; exact congrFun h.2.2.1 _
theorem cA_eq : Cert.ReferenceIdeal.RefCenter.A m' c = Cert.KernelIdeal.Hand.A m c := by
  funext R k; exact congrFun h.1 _
theorem cE_eq : Cert.ReferenceIdeal.RefCenter.E m' c = Cert.KernelIdeal.Hand.E m c := by
  funext j k; exact congrFun h.2.2.2.2.2.2 _
theorem cla_eq : Cert.ReferenceIdeal.RefCenter.la m' c = Cert.KernelIdeal.Hand.la m c := by
  funext R; exact congrFun h.2.2.2.2.1 _
theorem lab_eq : Cert.ReferenceIdeal.RefValue.lab m' c = Cert.KernelIdeal.Hand.lab m c := by
  funext R
  dsimp only [Cert.ReferenceIdeal.RefValue.lab]
  rw [h.2.2.2.2.1, h.2.2.2.2.2.1]

end Arrays

/-! ### What the precondition says of the kernel's arrays -/

section Pre
variable (hpre : Cert.Pre_KernelIdeal m)
include hpre

theorem O_real : ∀ R j, ∃ x : ℝ, Cert.KernelIdeal.Hand.O m c R j = (x : EReal) :=
  fun R j => Cert.PreDecode.outputs_finite (hpre c) (ValueIdx.ix2 R j)
theorem la_range : ∀ R, (Cert.KernelIdeal.Hand.la m c R).toNat < 5000 :=
  fun R => Cert.PreDecode.labels_anchor_range (hpre c) (ValueIdx.ix1 R)
theorem lab_range : ∀ R, (Cert.KernelIdeal.Hand.lab m c R).toNat < 5000 :=
  fun R => Cert.PreDecode.concat_range _ _ (Cert.PreDecode.labels_anchor_range (hpre c))
    (Cert.PreDecode.labels_neg_range (hpre c)) _ (ValueIdx.ix1 R)

end Pre

/-! ### The four results, leg by leg -/

section Legs
variable (h : Agree m m' c) (hpre : Cert.Pre_KernelIdeal m)
include h hpre

theorem soft_leg : Cert.ReferenceIdeal.Value.res_main_v6 (F := Ideal) m' c
    = Cert.KernelIdeal.Gen.V5 m (outs m) c Cert.KernelIdeal.main_v4 := by
  have hr := Cert.ReferenceIdeal.RefValue.ref_soft m' c (by rw [lab_eq m m' c h]; exact lab_range m c hpre)
  rw [O_eq m m' c h, lab_eq m m' c h] at hr
  refine hr.trans ?_
  rw [Cert.KernelIdeal.Hand.kf_soft m c, Cert.Spec.soft_bridge _ _ (O_real m c hpre) (lab_range m c hpre)] <;> rfl

omit hpre in
theorem trip_leg : Cert.ReferenceIdeal.RefValue.trip39 m' c
    = Cert.KernelIdeal.Gen.V5 m (outs m) c Cert.KernelIdeal.main_v13 := by
  have hr := Cert.ReferenceIdeal.RefValue.ref_trip m' c
  rw [A_eq m m' c h, P_eq m m' c h, N_eq m m' c h] at hr
  refine hr.trans ?_
  rw [Cert.KernelIdeal.Hand.kf_trip m c, Cert.Spec.trip_bridge] <;> rfl

theorem center_leg : Cert.ReferenceIdeal.Value.res_main_v43 (F := Ideal) m' c
    = Cert.KernelIdeal.Gen.V5 m (outs m) c Cert.KernelIdeal.main_v14 := by
  have hr := Cert.ReferenceIdeal.RefCenter.ref_center m' c (by rw [cla_eq m m' c h]; exact la_range m c hpre)
  rw [cA_eq m m' c h, cE_eq m m' c h, cla_eq m m' c h] at hr
  refine hr.trans ?_
  rw [Cert.KernelIdeal.Hand.kf_center m c, Cert.Spec.center_bridge _ _ _ (la_range m c hpre)] <;> rfl

theorem total_leg : Cert.ReferenceIdeal.Value.res_main_v50 (F := Ideal) m' c
    = Cert.KernelIdeal.Gen.V5 m (outs m) c Cert.KernelIdeal.main_v21 := by
  refine (Cert.ReferenceIdeal.RefValue.ref_total m' c).trans ?_
  rw [Cert.KernelIdeal.Hand.kf_total m c]
  funext _
  have s : Cert.ReferenceIdeal.RefValue.softVal m' c = Cert.KernelIdeal.Hand.softVal m c :=
    congrFun (soft_leg m m' c h hpre) _
  have t : Cert.ReferenceIdeal.RefValue.tripVal m' c = Cert.KernelIdeal.Hand.tripVal m c :=
    congrFun (trip_leg m m' c h) _
  have ce : Cert.ReferenceIdeal.RefValue.centerVal m' c = Cert.KernelIdeal.Hand.centerVal m c :=
    congrFun (center_leg m m' c h hpre) _
  rw [s, t, ce] <;> rfl

end Legs

end PerDevice

/-- At the ideal instance the kernel and the reference, from memories agreeing on the arguments, both run and end
    with equal results and unchanged arguments. -/
theorem algebraic : Cert.algebraic_KernelIdeal_ReferenceIdeal := by
  intro m ρ m' ρ' hpre hagree
  refine ⟨fun c => Cert.KernelIdeal.Gen.V5 m (outs m) c Cert.KernelIdeal.main_v21,
    fun c => Cert.KernelIdeal.Gen.V5 m (outs m) c Cert.KernelIdeal.main_v13,
    fun c => Cert.KernelIdeal.Gen.V5 m (outs m) c Cert.KernelIdeal.main_v4,
    fun c => Cert.KernelIdeal.Gen.V5 m (outs m) c Cert.KernelIdeal.main_v14, ?_, ?_⟩
  · exact (θ_run Cert.KernelIdeal.defs _ _).mono (fun _ hh c =>
      ⟨hh c _ (Cert.KernelIdeal.Hand.mem_uc Cert.KernelIdeal.main_v21 (by decide)),
       hh c _ (Cert.KernelIdeal.Hand.mem_uc Cert.KernelIdeal.main_v13 (by decide)),
       hh c _ (Cert.KernelIdeal.Hand.mem_uc Cert.KernelIdeal.main_v4 (by decide)),
       hh c _ (Cert.KernelIdeal.Hand.mem_uc Cert.KernelIdeal.main_v14 (by decide)),
       (hh c _ (Cert.KernelIdeal.Hand.mem_uc Cert.KernelIdeal.main_arg0 (by decide))).trans (Cert.KernelIdeal.Gen.V5_main_arg0 m (outs m) c),
       (hh c _ (Cert.KernelIdeal.Hand.mem_uc Cert.KernelIdeal.main_arg1 (by decide))).trans (Cert.KernelIdeal.Gen.V5_main_arg1 m (outs m) c),
       (hh c _ (Cert.KernelIdeal.Hand.mem_uc Cert.KernelIdeal.main_arg2 (by decide))).trans (Cert.KernelIdeal.Gen.V5_main_arg2 m (outs m) c),
       (hh c _ (Cert.KernelIdeal.Hand.mem_uc Cert.KernelIdeal.main_arg3 (by decide))).trans (Cert.KernelIdeal.Gen.V5_main_arg3 m (outs m) c),
       (hh c _ (Cert.KernelIdeal.Hand.mem_uc Cert.KernelIdeal.main_arg4 (by decide))).trans (Cert.KernelIdeal.Gen.V5_main_arg4 m (outs m) c),
       (hh c _ (Cert.KernelIdeal.Hand.mem_uc Cert.KernelIdeal.main_arg5 (by decide))).trans (Cert.KernelIdeal.Gen.V5_main_arg5 m (outs m) c),
       (hh c _ (Cert.KernelIdeal.Hand.mem_uc Cert.KernelIdeal.main_arg6 (by decide))).trans (Cert.KernelIdeal.Gen.V5_main_arg6 m (outs m) c)⟩)
      (Cert.KernelIdeal.Hand.run_all m ρ)
  · exact (θ_run Cert.ReferenceIdeal.defs _ _).mono (fun _ hh c =>
      ⟨(hh c).1.trans (total_leg m m' c (hagree c) hpre),
       (hh c).2.1.trans (trip_leg m m' c (hagree c)),
       (hh c).2.2.1.trans (soft_leg m m' c (hagree c) hpre),
       (hh c).2.2.2.1.trans (center_leg m m' c (hagree c) hpre),
       (hh c).2.2.2.2⟩)
      (Cert.ReferenceIdeal.Value.run (F := Ideal) m' ρ')

end Cert.Proof.Alg

end
-- ==== Proof.lean ====
/-
  The certificate's five claims. The word-level kernel and its idealization are one printed program read at two
  float instances: each runs to the end, faults nowhere and leaves its argument arrays as launched, by the launch of
  its two kernel regions among three stretches of host operations. The reference is host operations only: its run
  read back gives its frame. The ideal pass rewrote nothing, so the idealization claim is trivial. At the ideal
  instance, under the precondition (every float input finite, every label a column index), the kernel's four results
  — total, triplet, softmax and center losses — are the reference's as extended reals.
-/
import proofs.«419968_j17102559773294_3_alg».proof.Defs
import proofs.«419968_j17102559773294_3_alg».proof.Proof.Gen.Kernel
import proofs.«419968_j17102559773294_3_alg».proof.Proof.Gen.KernelIdeal
import proofs.«419968_j17102559773294_3_alg».proof.Proof.Gen.ReferenceIdeal
import proofs.«419968_j17102559773294_3_alg».proof.Proof.Gen.Pre_finite_inputs
import proofs.«419968_j17102559773294_3_alg».proof.Proof.K.Run
import proofs.«419968_j17102559773294_3_alg».proof.Proof.KI.Run
import proofs.«419968_j17102559773294_3_alg».proof.Proof.RefRunThm
import proofs.«419968_j17102559773294_3_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2.2.2.2) (Cert.ReferenceIdeal.Value.run (F := Ideal) m ρ),
  trivial,
  Cert.Proof.Alg.algebraic⟩

end Cert.Proof

end
